-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S50000 : Shape := ⟨1, ![50000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128 .f32) (main_arg10 : FVec F S128x10 .f32) (main_arg11 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x10 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x1600000 32) (main_arg2 : IVec S50000 32) (main_arg3 : FVec F S1600000 .f32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x1600000 : Shape := ⟨2, ![2, 1600000]⟩
abbrev S50000 : Shape := ⟨1, ![50000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S50000x128 : Shape := ⟨2, ![50000, 128]⟩
abbrev S5000x64 : Shape := ⟨2, ![5000, 64]⟩
abbrev S5000x128 : Shape := ⟨2, ![5000, 128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x1 : Shape := ⟨2, ![50000, 1]⟩
abbrev S512x128 : Shape := ⟨2, ![512, 128]⟩
abbrev S2000x128 : Shape := ⟨2, ![2000, 128]⟩
abbrev S2000x1 : Shape := ⟨2, ![2000, 1]⟩
abbrev S2000x512 : Shape := ⟨2, ![2000, 512]⟩
abbrev S1x10 : Shape := ⟨2, ![1, 10]⟩
abbrev S512x10 : Shape := ⟨2, ![512, 10]⟩

abbrev nBuf : Space → Nat
  | .hbm => 161
  | .vmem => 22
  | .smem => 0
  | _ => 0

abbrev hbmTy0_0 (i : Nat) : BufTy := match i % 128 with
  | 0 => ⟨S50000x64, .f32⟩
  | 1 => ⟨S2x1600000, .i32⟩
  | 2 => ⟨S50000, .i32⟩
  | 3 => ⟨S1600000, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S50000x128, .f32⟩
  | 13 => ⟨S50000, .i32⟩
  | 14 => ⟨S1x1600000, .i32⟩
  | 15 => ⟨S1600000, .i32⟩
  | 16 => ⟨S1650000, .i32⟩
  | 17 => ⟨S1x1600000, .i32⟩
  | 18 => ⟨S1600000, .i32⟩
  | 19 => ⟨S1650000, .i32⟩
  | 20 => ⟨S_, .f32⟩
  | 21 => ⟨S50000, .f32⟩
  | 22 => ⟨S1650000, .f32⟩
  | 23 => ⟨S_, .f32⟩
  | 24 => ⟨S50000, .f32⟩
  | 25 => ⟨S1650000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x128, .f32⟩
  | 71 => ⟨S1650000x1, .f32⟩
  | 72 => ⟨S1650000x128, .f32⟩
  | 73 => ⟨S1650000x128, .f32⟩
  | 74 => ⟨S_, .f32⟩
  | 75 => ⟨S50000x128, .f32⟩
  | 76 => ⟨S1650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000, .i32⟩
  | 86 => ⟨S1x1600000, .i32⟩
  | 87 => ⟨S1600000, .i32⟩
  | 88 => ⟨S1650000, .i32⟩
  | 89 => ⟨S1x1600000, .i32⟩
  | 90 => ⟨S1600000, .i32⟩
  | 91 => ⟨S1650000, .i32⟩
  | 92 => ⟨S_, .f32⟩
  | 93 => ⟨S50000, .f32⟩
  | 94 => ⟨S1650000, .f32⟩
  | 95 => ⟨S_, .f32⟩
  | 96 => ⟨S50000, .f32⟩
  | 97 => ⟨S1650000x1, .i32⟩
  | 98 => ⟨S50000, .f32⟩
  | 99 => ⟨S_, .f32⟩
  | 100 => ⟨S50000, .f32⟩
  | 101 => ⟨S50000, .i1⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S50000, .f32⟩
  | 110 => ⟨S_, .f32⟩
  | 111 => ⟨S_, .f32⟩
  | 112 => ⟨S50000, .f32⟩
  | 113 => ⟨S50000, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000, .f32⟩
  | 123 => ⟨S1650000, .f32⟩
  | 124 => ⟨S_, .i32⟩
  | 125 => ⟨S1650000, .i32⟩
  | 126 => ⟨S1650000, .i1⟩
  | 127 => ⟨S_, .i32⟩
  | _ => ⟨S50000x64, .f32⟩

abbrev hbmTy0_1 (i : Nat) : BufTy := match i % 128 with
  | 0 => ⟨S1650000, .i32⟩
  | 1 => ⟨S1650000, .i32⟩
  | 2 => ⟨S1650000, .i32⟩
  | 3 => ⟨S1650000x1, .i32⟩
  | 4 => ⟨S1650000, .f32⟩
  | 5 => ⟨S1650000, .f32⟩
  | 6 => ⟨S_, .i32⟩
  | 7 => ⟨S1650000, .i32⟩
  | 8 => ⟨S1650000, .i1⟩
  | 9 => ⟨S_, .i32⟩
  | 10 => ⟨S1650000, .i32⟩
  | 11 => ⟨S1650000, .i32⟩
  | 12 => ⟨S1650000, .i32⟩
  | 13 => ⟨S1650000x1, .i32⟩
  | 14 => ⟨S1650000x128, .f32⟩
  | 15 => ⟨S1650000x1, .f32⟩
  | 16 => ⟨S1650000x128, .f32⟩
  | 17 => ⟨S1650000x128, .f32⟩
  | 18 => ⟨S_, .f32⟩
  | 19 => ⟨S50000x128, .f32⟩
  | 20 => ⟨S1650000x1, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x1, .i32⟩
  | 29 => ⟨S512x128, .f32⟩
  | 30 => ⟨S1x128, .f32⟩
  | 31 => ⟨S1x10, .f32⟩
  | 32 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .i32⟩
  | .local _ .vmem, ⟨13, _⟩ => ⟨S2000x1, .i32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S128x128, .f32⟩
  | .local _ .vmem, ⟨18, _⟩ => ⟨S1x128, .f32⟩
  | .local _ .vmem, ⟨19, _⟩ => ⟨S128x10, .f32⟩
  | .local _ .vmem, ⟨20, _⟩ => ⟨S1x10, .f32⟩
  | .local _ .vmem, ⟨21, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_call3_v0 : Ref sig .tc := ⟨.hbm, 106, rfl⟩
abbrev main_call3_v1 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_call4_v0 : Ref sig .tc := ⟨.hbm, 111, rfl⟩
abbrev main_call4_v1 : Ref sig .tc := ⟨.hbm, 112, rfl⟩
abbrev main_v72 : Ref sig .tc := ⟨.hbm, 113, rfl⟩
abbrev main_c_17 : Ref sig .tc := ⟨.hbm, 114, rfl⟩
abbrev main_v73 : Ref sig .tc := ⟨.hbm, 115, rfl⟩
abbrev main_v74 : Ref sig .tc := ⟨.hbm, 116, rfl⟩
abbrev main_c_18 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_19 : Ref sig .tc := ⟨.hbm, 124, rfl⟩
abbrev main_v81 : Ref sig .tc := ⟨.hbm, 125, rfl⟩
abbrev main_v82 : Ref sig .tc := ⟨.hbm, 126, rfl⟩
abbrev main_c_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_c_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_call5_cst : Ref sig .tc := ⟨.hbm, 153, rfl⟩
abbrev main_call5_v0 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S50000_S50000x1 : S50000.ShapeCasts S50000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S128_S1x128 : S128.ShapeCasts S1x128
  shapeCasts_S10_S1x10 : S10.ShapeCasts S1x10
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S5000x64_S64x128_S5000x128_1_0_0_1_n_n_wf : DotDims.WF S5000x64 S64x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  dot_S2000x512_S2000x128_S512x128_0_0_1_1_n_n_wf : DotDims.WF S2000x512 S2000x128 S512x128 [0] [0] [1] [1] [] []
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .i32 = 32 ∨ (Rect.block (s := S50000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v105) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v107) S512x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v107) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v109) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S50000 : Shape := ⟨1, ![50000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S512x128 : Shape := ⟨2, ![512, 128]⟩
abbrev S50000x1 : Shape := ⟨2, ![50000, 1]⟩
abbrev S512x10 : Shape := ⟨2, ![512, 10]⟩
abbrev S1x10 : Shape := ⟨2, ![1, 10]⟩

abbrev nBuf : Space → Nat
  | .hbm => 171
  | .vmem => 0
  | .smem => 0
  | _ => 0

abbrev hbmTy0_0 (i : Nat) : BufTy := match i % 128 with
  | 0 => ⟨S50000x64, .f32⟩
  | 1 => ⟨S2x1600000, .i32⟩
  | 2 => ⟨S50000, .i32⟩
  | 3 => ⟨S1600000, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S50000, .i32⟩
  | 13 => ⟨S1x1600000, .i32⟩
  | 14 => ⟨S1600000, .i32⟩
  | 15 => ⟨S1650000, .i32⟩
  | 16 => ⟨S1x1600000, .i32⟩
  | 17 => ⟨S1600000, .i32⟩
  | 18 => ⟨S1650000, .i32⟩
  | 19 => ⟨S_, .f32⟩
  | 20 => ⟨S50000, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000, .f32⟩
  | 60 => ⟨S1650000, .f32⟩
  | 61 => ⟨S50000x128, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x128, .f32⟩
  | 71 => ⟨S1650000x1, .f32⟩
  | 72 => ⟨S1650000x128, .f32⟩
  | 73 => ⟨S1650000x128, .f32⟩
  | 74 => ⟨S_, .f32⟩
  | 75 => ⟨S50000x128, .f32⟩
  | 76 => ⟨S1650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000, .i32⟩
  | 85 => ⟨S1x1600000, .i32⟩
  | 86 => ⟨S1600000, .i32⟩
  | 87 => ⟨S1650000, .i32⟩
  | 88 => ⟨S1x1600000, .i32⟩
  | 89 => ⟨S1600000, .i32⟩
  | 90 => ⟨S1650000, .i32⟩
  | 91 => ⟨S_, .f32⟩
  | 92 => ⟨S50000, .f32⟩
  | 93 => ⟨S1650000, .f32⟩
  | 94 => ⟨S_, .f32⟩
  | 95 => ⟨S50000, .f32⟩
  | 96 => ⟨S1650000x1, .i32⟩
  | 97 => ⟨S50000, .f32⟩
  | 98 => ⟨S_, .f32⟩
  | 99 => ⟨S50000, .f32⟩
  | 100 => ⟨S50000, .i1⟩
  | 101 => ⟨S_, .f32⟩
  | 102 => ⟨S50000, .f32⟩
  | 103 => ⟨S50000, .i1⟩
  | 104 => ⟨S_, .f32⟩
  | 105 => ⟨S_, .f32⟩
  | 106 => ⟨S50000, .f32⟩
  | 107 => ⟨S50000, .f32⟩
  | 108 => ⟨S50000, .f32⟩
  | 109 => ⟨S_, .f32⟩
  | 110 => ⟨S_, .f32⟩
  | 111 => ⟨S50000, .f32⟩
  | 112 => ⟨S50000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000, .f32⟩
  | 122 => ⟨S1650000, .f32⟩
  | 123 => ⟨S_, .i32⟩
  | 124 => ⟨S1650000, .i32⟩
  | 125 => ⟨S1650000, .i1⟩
  | 126 => ⟨S_, .i32⟩
  | 127 => ⟨S1650000, .i32⟩
  | _ => ⟨S50000x64, .f32⟩

abbrev hbmTy0_1 (i : Nat) : BufTy := match i % 128 with
  | 0 => ⟨S1650000, .i32⟩
  | 1 => ⟨S1650000, .i32⟩
  | 2 => ⟨S1650000x1, .i32⟩
  | 3 => ⟨S1650000, .f32⟩
  | 4 => ⟨S1650000, .f32⟩
  | 5 => ⟨S50000x128, .f32⟩
  | 6 => ⟨S_, .i32⟩
  | 7 => ⟨S1650000, .i32⟩
  | 8 => ⟨S1650000, .i1⟩
  | 9 => ⟨S_, .i32⟩
  | 10 => ⟨S1650000, .i32⟩
  | 11 => ⟨S1650000, .i32⟩
  | 12 => ⟨S1650000, .i32⟩
  | 13 => ⟨S1650000x1, .i32⟩
  | 14 => ⟨S1650000x128, .f32⟩
  | 15 => ⟨S1650000x1, .f32⟩
  | 16 => ⟨S1650000x128, .f32⟩
  | 17 => ⟨S1650000x128, .f32⟩
  | 18 => ⟨S_, .f32⟩
  | 19 => ⟨S50000x128, .f32⟩
  | 20 => ⟨S1650000x1, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S512x128, .f32⟩
  | 30 => ⟨S50000x1, .i32⟩
  | 31 => ⟨S512x128, .f32⟩
  | 32 => ⟨S512x128, .f32⟩
  | 33 => ⟨S1x128, .f32⟩
  | 34 => ⟨S512x128, .f32⟩
  | 35 => ⟨S512x128, .f32⟩
  | 36 => ⟨S_, .f32⟩
  | 37 => ⟨S512x128, .f32⟩
  | 38 => ⟨S512x128, .f32⟩
  | 39 => ⟨S512x10, .f32⟩
  | 40 => ⟨S1x10, .f32⟩
  | 41 => ⟨S512x10, .f32⟩
  | 42 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_call3_v0 : Ref sig .tc := ⟨.hbm, 105, rfl⟩
abbrev main_call3_v1 : Ref sig .tc := ⟨.hbm, 106, rfl⟩
abbrev main_v69 : Ref sig .tc := ⟨.hbm, 107, rfl⟩
abbrev main_v70 : Ref sig .tc := ⟨.hbm, 108, rfl⟩
abbrev main_cst_16 : Ref sig .tc := ⟨.hbm, 109, rfl⟩
abbrev main_call4_v0 : Ref sig .tc := ⟨.hbm, 110, rfl⟩
abbrev main_call4_v1 : Ref sig .tc := ⟨.hbm, 111, rfl⟩
abbrev main_v71 : Ref sig .tc := ⟨.hbm, 112, rfl⟩
abbrev main_c_17 : Ref sig .tc := ⟨.hbm, 113, rfl⟩
abbrev main_v72 : Ref sig .tc := ⟨.hbm, 114, rfl⟩
abbrev main_v73 : Ref sig .tc := ⟨.hbm, 115, rfl⟩
abbrev main_c_18 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_c_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_call5_cst : Ref sig .tc := ⟨.hbm, 153, rfl⟩
abbrev main_call5_v0 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_call6_cst : Ref sig .tc := ⟨.hbm, 164, rfl⟩
abbrev main_call6_v0 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Defs.lean ====
import proofs.«413074_j63522566307870_1_alg».proof.Proof.Gen.Kernel.Launch
import proofs.«413074_j63522566307870_1_alg».proof.Proof.Gen.Kernel.Skeleton
import proofs.«413074_j63522566307870_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the three single-store regions (the two dense projections and the two-layer head)

Each of these kernels loads its input blocks whole, computes one value, and stores it whole into its output block.
So after the body the output's staging buffer holds that value of the input blocks, and an input's staging buffer holds
its block. The entry contents of the TensorCore's buffers are a parameter `V`. -/

section Regions
variable (V : (c : Dev nD) → (b : Ref sig .tc) → Buf (Elt F) ((c : Thread nD τ).loc b))

/-! ## Region 0: the projection of the node features, `x · W1`, 5000 rows of nodes at a grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rO0 : Rect S5000x128 := Rect.unit (s := S5000x128) ![0, 0] S5000x128.size inb_S5000x128_S5000x128_0_0

/-- The output block after the body: the one whole store of the product of the two loaded blocks. -/
def out0_2 (x0 : Vec F S5000x64 .f32) (x1 : Vec F S64x128 .f32) : Vec F S5000x128 .f32 :=
  View.canon [⟨rO0, k0_pay1 (View.ld x0 rX0) (View.ld x1 rW0)⟩]

theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the projection of the first layer's output, `h1 · W2` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rW1 : Rect S128x128 := Rect.unit (s := S128x128) ![0, 0] S128x128.size inb_S128x128_S128x128_0_0

def out1_2 (x0 : Vec F S5000x128 .f32) (x1 : Vec F S128x128 .f32) : Vec F S5000x128 .f32 :=
  View.canon [⟨rO0, k1_pay1 (View.ld x0 rO0) (View.ld x1 rW1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 3: the head, `relu(p · Wm1 + bm1) · Wm2 + bm2`, one grid point -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rP3 : Rect S512x128 := Rect.unit (s := S512x128) ![0, 0] S512x128.size inb_S512x128_S512x128_0_0
abbrev rB3 : Rect S1x128 := Rect.unit (s := S1x128) ![0, 0] S1x128.size inb_S1x128_S1x128_0_0
abbrev rW3 : Rect S128x10 := Rect.unit (s := S128x10) ![0, 0] S128x10.size inb_S128x10_S128x10_0_0
abbrev rC3 : Rect S1x10 := Rect.unit (s := S1x10) ![0, 0] S1x10.size inb_S1x10_S1x10_0_0
abbrev rO3 : Rect S512x10 := Rect.unit (s := S512x10) ![0, 0] S512x10.size inb_S512x10_S512x10_0_0

def out3_5 (x0 : Vec F S512x128 .f32) (x1 : Vec F S128x128 .f32) (x2 : Vec F S1x128 .f32) (x3 : Vec F S128x10 .f32) (x4 : Vec F S1x10 .f32) : Vec F S512x10 .f32 :=
  View.canon [⟨rO3, k3_pay1 (View.ld x0 rP3) (View.ld x1 rW1) (View.ld x2 rB3) (View.ld x3 rW3) (View.ld x4 rC3)⟩]

theorem cover3_5 (p0 : Vec F S512x10 .f32) (y : S512x10.Idx) :
    ∃ pc ∈ ([⟨rO3, p0⟩] : List (View.Piece (Elt F) S512x10 .f32)), y ∈ pc.1.set :=
  View.cover_of_tiled [⟨rO3, p0⟩] S512x10.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

end Cert.Kernel.Hand

end
-- ==== Proof.K.Defs2.lean ====
import proofs.«413074_j63522566307870_1_alg».proof.Proof.Gen.Kernel.Launch
import proofs.«413074_j63522566307870_1_alg».proof.Proof.Gen.Kernel.Skeleton
import proofs.«413074_j63522566307870_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the pooling region

The pooling kernel sums, graph by graph, the rows of the node features: at each of its 25 grid points it takes 2000 rows and
their graph numbers, forms the 0/1 matrix "row r belongs to graph g", and adds its transposed product with the rows to an
accumulator kept in a scratch buffer from point to point. The accumulator is reset at the first point and copied to the
output block at the last one; at the other points the output block is not touched and not written back. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S2000x128 := Rect.unit (s := S2000x128) ![0, 0] S2000x128.size inb_S2000x128_S2000x128_0_0
abbrev rB2 : Rect S2000x1 := Rect.unit (s := S2000x1) ![0, 0] S2000x1.size inb_S2000x1_S2000x1_0_0
abbrev rA2 : Rect S512x128 := Rect.unit (s := S512x128) ![0, 0] S512x128.size inb_S512x128_S512x128_0_0

/-- The scratch buffer the kernel keeps its accumulator in. -/
abbrev scM2 : Memref sig .tc .vmem S512x128 .f32 := Memref.whole cc2_scratch0

/-- One point's update of the accumulator: the rows' block `x`, their graph numbers `b`, the accumulator `s` before. -/
def step2 (x : Vec F S2000x128 .f32) (b : Vec F S2000x1 .i32) (s : Vec F S512x128 .f32) : Vec F S512x128 .f32 :=
  k2_pay2 b x s

/-- The accumulator after the body at point `n`: reset to the kernel's zero splat at point 0, then updated by every point's
    block in turn. -/
def sAt2 (c : Dev nD) : (n : ℕ) → n < cfg2.N → Vec F S512x128 .f32
  | 0, h => step2 (iblk2 V c 0 ⟨0, h⟩) (iblk2 V c 1 ⟨0, h⟩) (k2_pay1 (F := F))
  | n + 1, h => step2 (iblk2 V c 0 ⟨n + 1, h⟩) (iblk2 V c 1 ⟨n + 1, h⟩) (sAt2 c n (Nat.lt_of_succ_lt h))

theorem sAt2_zero (c : Dev nD) (h : 0 < cfg2.N) :
    sAt2 V c 0 h = step2 (iblk2 V c 0 ⟨0, h⟩) (iblk2 V c 1 ⟨0, h⟩) (k2_pay1 (F := F)) := rfl
theorem sAt2_succ (c : Dev nD) (n : ℕ) (h : n + 1 < cfg2.N) :
    sAt2 V c (n + 1) h = step2 (iblk2 V c 0 ⟨n + 1, h⟩) (iblk2 V c 1 ⟨n + 1, h⟩) (sAt2 V c n (Nat.lt_of_succ_lt h)) := rfl

/-- A scoped buffer of the core held whole at some contents. -/
def anyAt (c : Dev nD) (r : Ref sig .tc) : sProp 𝕄 :=
  iprop(∃ f : Buf (Elt F) ((c : Thread nD τ).loc r), ((c : Thread nD τ).loc r) ↦{fullShare} f)

/-- The core's scoped buffers other than this region's staging buffers and its accumulator, each at some contents. -/
def rest2 (c : Dev nD) : sProp 𝕄 :=
  iprop(anyAt (F := F) c cc0_stg0_0 ∗ anyAt (F := F) c cc0_stg0_1 ∗ anyAt (F := F) c cc0_stg1_0 ∗ anyAt (F := F) c cc0_stg2_0 ∗ anyAt (F := F) c cc0_stg2_1 ∗ anyAt (F := F) c cc1_stg0_0 ∗ anyAt (F := F) c cc1_stg0_1 ∗ anyAt (F := F) c cc1_stg1_0 ∗ anyAt (F := F) c cc1_stg2_0 ∗ anyAt (F := F) c cc1_stg2_1 ∗ anyAt (F := F) c cc3_stg0_0 ∗ anyAt (F := F) c cc3_stg1_0 ∗ anyAt (F := F) c cc3_stg2_0 ∗ anyAt (F := F) c cc3_stg3_0 ∗ anyAt (F := F) c cc3_stg4_0 ∗ anyAt (F := F) c cc3_stg5_0)

/-- The region's invariant before position `n`: before the first point everything scoped is at some contents; afterwards the
    accumulator holds what the point before left, the other scoped buffers and the generator register are at some state. -/
def PhiS2 (c : Dev nD) : (n : ℕ) → n ≤ cfg2.N → sProp 𝕄
  | 0, _ => Pipeline.ΦA spec2 c
  | n + 1, hn => iprop(rest2 (F := F) c ∗ owns (c : Thread nD τ) scM2 fullShare (sAt2 V c n hn) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(rest2 (F := F) c ∗ owns (c : Thread nD τ) scM2 fullShare (sAt2 V c n hn) ∗ (∃ r, prngReg c r)) := rfl
theorem PhiS2_pos (c : Dev nD) (n : ℕ) (h : n ≤ cfg2.N) (hz : n ≠ 0) :
    PhiS2 V c n h = iprop(rest2 (F := F) c ∗ owns (c : Thread nD τ) scM2 fullShare (sAt2 V c (n - 1) (by omega)) ∗ (∃ r, prngReg c r)) := by
  cases n with
  | zero => exact absurd rfl hz
  | succ n => rfl

/-- Region 2's proof data on core `c`: the output block after the body is the accumulator (it is stored there at the last
    point only; at the other points the window is idle and this entry is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => sAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = sAt2 V c t.val t.isLt := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Region2

end Cert.Kernel.Hand

end
-- ==== Proof.K.Vals.lean ====
import proofs.«413074_j63522566307870_1_alg».proof.Proof.K.Defs
import proofs.«413074_j63522566307870_1_alg».proof.Proof.K.Defs2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of the core's buffers between the items of the program

The program is: region 0, six stretches of host operations, region 1, seven stretches, region 2, one stretch, region 3.
`W J` is what core `c`'s unscoped buffers hold after item `J - 1`: the launch memory, then after a region its arrays at what
its write-backs leave (every other buffer as before), after a host stretch what the stretch computes. -/

variable (m : (ℓ : Loc nD τ sig) → Buf (Elt F) ℓ) (ρ : Dev nD → PrngReg)

/-- A valuation read at the TensorCore's references (what a region's proof data take). -/
abbrev rd (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => (s₀ m ρ).mem ((c : Dev nD), b)
/-- After region 0: its arrays at what its pipeline leaves. -/
def W1 (c : Dev nD) : Valuation τ sig (Elt F) :=
  Pipeline.withArrays spec0 c (W0 m ρ c) fun w => (dat0 (rd (W0 m ρ)) c).arrAt w cfg0.N
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
abbrev W7 : Dev nD → Valuation τ sig (Elt F) := fun c => StableHlo.after hostOps1_5 (W6 m ρ c)
/-- After region 1. -/
def W8 (c : Dev nD) : Valuation τ sig (Elt F) :=
  Pipeline.withArrays spec1 c (W7 m ρ c) fun w => (dat1 (rd (W7 m ρ)) c).arrAt w cfg1.N
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev W12 : Dev nD → Valuation τ sig (Elt F) := fun c => StableHlo.after hostOps2_3 (W11 m ρ c)
abbrev W13 : Dev nD → Valuation τ sig (Elt F) := fun c => StableHlo.after hostOps2_4 (W12 m ρ c)
abbrev W14 : Dev nD → Valuation τ sig (Elt F) := fun c => StableHlo.after hostOps2_5 (W13 m ρ c)
abbrev W15 : Dev nD → Valuation τ sig (Elt F) := fun c => StableHlo.after hostOps2_6 (W14 m ρ c)
/-- After region 2. -/
def W16 (c : Dev nD) : Valuation τ sig (Elt F) :=
  Pipeline.withArrays spec2 c (W15 m ρ c) fun w => (dat2 (rd (W15 m ρ)) c).arrAt w cfg2.N
abbrev W17 : Dev nD → Valuation τ sig (Elt F) := fun c => StableHlo.after hostOps3 (W16 m ρ c)
/-- After region 3: the end of the program. -/
def W18 (c : Dev nD) : Valuation τ sig (Elt F) :=
  Pipeline.withArrays spec3 c (W17 m ρ c) fun w => (dat3 (rd (W17 m ρ)) c).arrAt w cfg3.N

theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W8_arr (c : Dev nD) (w : Fin cfg1.W) :
    W8 m ρ c (Proc.devRef .tc (Pipeline.arrRef spec1 w)) = (dat1 (rd (W7 m ρ)) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W16_arr (c : Dev nD) (w : Fin cfg2.W) :
    W16 m ρ c (Proc.devRef .tc (Pipeline.arrRef spec2 w)) = (dat2 (rd (W15 m ρ)) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem W18_arr (c : Dev nD) (w : Fin cfg3.W) :
    W18 m ρ c (Proc.devRef .tc (Pipeline.arrRef spec3 w)) = (dat3 (rd (W17 m ρ)) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb

end Cert.Kernel.Hand

end
-- ==== Proof.K.Body0.lean ====
import proofs.«413074_j63522566307870_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation of the dense projection

The kernel loads its row block and the weight matrix whole, loads its output block once (a value it never uses), and
stores the product whole into the output block. So after the body an input's staging buffer holds its block and the
output's holds the one whole store of the product of the two blocks. -/

/-! ## What the body finds in each input window's buffer -/

/-- The row block's current staging buffer holds its block at every point: the window is fetched at every point,
    uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the matrix at every point, though it is fetched at the first point
    only: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents `x0`, `x1` and the output's at anything,
    runs to the continuation holding the inputs' as they were and the output's at `out0_2` of the inputs': the one
    whole store covers the block, so what was there before (and what the unused load read) does not matter. -/
theorem sound_kernel0 (c : Dev nD) (E : Set ℕ) (i : grid0.Coords)
    (arg1 : Memref sig .tc .vmem S5000x64 .f32) (harg1 : arg1.IsWhole)
    (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body of region 0 at every grid point, against the region's proof data. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«413074_j63522566307870_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body obligation of the dense projection

The kernel loads its row block and the weight matrix whole, loads its output block once (a value it never uses), and
stores the product whole into the output block. So after the body an input's staging buffer holds its block and the
output's holds the one whole store of the product of the two blocks. -/

/-! ## What the body finds in each input window's buffer -/

/-- The row block's current staging buffer holds its block at every point: the window is fetched at every point,
    uncut and never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the matrix at every point, though it is fetched at the first point
    only: where it is not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The kernel body on whole staging memrefs, the inputs' at read contents `x0`, `x1` and the output's at anything,
    runs to the continuation holding the inputs' as they were and the output's at `out1_2` of the inputs': the one
    whole store covers the block, so what was there before (and what the unused load read) does not matter. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body of region 1 at every grid point, against the region's proof data. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«413074_j63522566307870_1_alg».proof.Proof.K.Defs2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid

The body resets its accumulator when the grid coordinate is 0 and copies it to the output block when the coordinate
is 24; both conditions are words computed from the coordinate, decided here at each of the 25 points. -/

/-- The condition of the reset: the coordinate compared with 0, widened, compared with 0 again. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the copy to the output block. -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off the last point the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The staging memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)

/-! ## Loads and stores through a whole buffer

Every load and store of the body goes through the rectangle that is the whole of its buffer: a load reads the
contents, a store leaves its value whatever was there. -/

/-- The offsets of the whole-buffer rectangle are zero. -/
theorem off2 : (![0, 0] : Fin 2 → ℕ) = fun _ => 0 := funext fun a => by fin_cases a <;> rfl

/-- A store through the accumulator's whole rectangle, last in a list of stores, covers every index. -/
theorem cover_rA2 (w : Vec F S512x128 .f32) (L : List (View.Piece (Elt F) S512x128 .f32)) (y : S512x128.Idx) :
    ∃ pc ∈ ((⟨rA2, w⟩ : View.Piece (Elt F) S512x128 .f32) :: L), y ∈ pc.1.set :=
  ⟨_, List.mem_cons_self, View.mem_set_unit_zero off2 inb_S512x128_S512x128_0_0 y⟩

/-! ## The body's run, case by case

The body is run on whole memrefs: the two input blocks at contents `x` (the rows) and `b` (their graph numbers),
the output block, the accumulator. -/

set_option maxHeartbeats 1000000 in
/-- A point that is neither the first nor the last: the accumulator at `s` becomes `step2 x b s`; the output block is
    handed back as it was found. -/
theorem run2_B (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : ¬cond2_0 i) (hc1 : ¬cond2_1 i)
    (x : Vec F S2000x128 .f32) (b : Vec F S2000x1 .i32) (xi : Vec F S512x128 .f32) (s : Vec F S512x128 .f32)
    (E : Set ℕ) (K : PUnit → sProp 𝕄) :
    iprop(owns (c : Thread nD τ) arg1 fullShare x ∗ owns (c : Thread nD τ) arg2 fullShare b ∗ owns (c : Thread nD τ) arg3 fullShare xi
        ∗ owns (c : Thread nD τ) arg4 fullShare s
        ∗ (iprop(owns (c : Thread nD τ) arg1 fullShare x ∗ owns (c : Thread nD τ) arg2 fullShare b ∗ owns (c : Thread nD τ) arg3 fullShare xi
            ∗ owns (c : Thread nD τ) arg4 fullShare (step2 x b s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread, harg4.read_unread,
    View.ld_unit_zero (S := S2000x128) off2, View.ld_unit_zero (S := S2000x1) off2, View.ld_unit_zero (S := S512x128) off2]
  rfl

set_option maxHeartbeats 1000000 in
/-- The first point: whatever the accumulator held, it is reset to the zero splat and then updated, so it ends at
    `step2 x b k2_pay1`; the output block is handed back as it was found. -/
theorem run2_A (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : cond2_0 i) (hc1 : ¬cond2_1 i)
    (x : Vec F S2000x128 .f32) (b : Vec F S2000x1 .i32) (xi : Vec F S512x128 .f32)
    (E : Set ℕ) (K : PUnit → sProp 𝕄) :
    iprop(owns (c : Thread nD τ) arg1 fullShare x ∗ owns (c : Thread nD τ) arg2 fullShare b ∗ owns (c : Thread nD τ) arg3 fullShare xi
        ∗ (∃ d, owns (c : Thread nD τ) arg4 fullShare d)
        ∗ (iprop(owns (c : Thread nD τ) arg1 fullShare x ∗ owns (c : Thread nD τ) arg2 fullShare b ∗ owns (c : Thread nD τ) arg3 fullShare xi
            ∗ owns (c : Thread nD τ) arg4 fullShare (step2 x b (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread,
    View.ld_unit_zero (S := S2000x128) off2, View.ld_unit_zero (S := S2000x1) off2, View.ld_unit_zero (S := S512x128) off2,
    View.readCov_unit_zero (S := S512x128) _ off2]
  rfl

set_option maxHeartbeats 1000000 in
/-- The last point: the accumulator at `s` becomes `step2 x b s`, and that value is copied to the output block,
    whatever it held. -/
theorem run2_C (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : ¬cond2_0 i) (hc1 : cond2_1 i)
    (x : Vec F S2000x128 .f32) (b : Vec F S2000x1 .i32) (s : Vec F S512x128 .f32)
    (E : Set ℕ) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s
        ∗ (iprop(owns (c : Thread nD τ) arg1 fullShare x ∗ owns (c : Thread nD τ) arg2 fullShare b ∗ owns (c : Thread nD τ) arg3 fullShare (step2 x b s)
            ∗ owns (c : Thread nD τ) arg4 fullShare (step2 x b s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [View.read_writes_eq_canon _ _ _ (cover_rA2 _ _), View.canon_cons_unit_zero off2]
    simp only [View.readAt_eq_ld, harg1.read_unread, harg2.read_unread, harg4.read_unread,
      View.ld_unit_zero (S := S2000x128) off2, View.ld_unit_zero (S := S2000x1) off2, View.ld_unit_zero (S := S512x128) off2,
      View.readCov_unit_zero (S := S512x128) _ off2]
    rfl
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread, harg4.read_unread,
    View.ld_unit_zero (S := S2000x128) off2, View.ld_unit_zero (S := S2000x1) off2, View.ld_unit_zero (S := S512x128) off2]
  rfl

/-! ## The class invariant with the accumulator set apart -/

/-- What the launch hands the region, regrouped: the sixteen other scoped buffers, the accumulator's buffer at some
    contents, the generator register at some state — one direction, -/
theorem PhiA2_split (c : Dev nD) :
    (Pipeline.ΦA spec2 c : sProp 𝕄) ⊢ iprop(rest2 (F := F) c ∗ (∃ d, owns (c : Thread nD τ) scM2 fullShare d) ∗ (∃ r, prngReg c r)) := by
  unfold Pipeline.ΦA; rw [scopedRest2_eq]; unfold rest2 anyAt; simp only [owns_whole]
  iintro ⟨⟨A0, A1, A2, A3, A4, A5, A6, A7, A8, A9, AS, B0, B1, B2, B3, B4, B5⟩, Hg⟩
  isplitl [A0 A1 A2 A3 A4 A5 A6 A7 A8 A9 B0 B1 B2 B3 B4 B5]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    iexact B5
  isplitl [AS]; · iexact AS
  iexact Hg

/-- the other, -/
theorem PhiA2_join (c : Dev nD) :
    iprop(rest2 (F := F) c ∗ (∃ d, owns (c : Thread nD τ) scM2 fullShare d) ∗ (∃ r, prngReg c r)) ⊢ (Pipeline.ΦA spec2 c : sProp 𝕄) := by
  unfold Pipeline.ΦA; rw [scopedRest2_eq]; unfold rest2 anyAt; simp only [owns_whole]
  iintro ⟨⟨A0, A1, A2, A3, A4, A5, A6, A7, A8, A9, B0, B1, B2, B3, B4, B5⟩, AS, Hg⟩
  isplitl [A0 A1 A2 A3 A4 A5 A6 A7 A8 A9 AS B0 B1 B2 B3 B4 B5]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [AS]; · iexact AS
    isplitl [B0]; · iexact B0
    isplitl [B1]; · iexact B1
    isplitl [B2]; · iexact B2
    isplitl [B3]; · iexact B3
    isplitl [B4]; · iexact B4
    iexact B5
  iexact Hg

/-- and the two as an equation. -/
theorem PhiA2_eq (c : Dev nD) :
    (Pipeline.ΦA spec2 c : sProp 𝕄) = iprop(rest2 (F := F) c ∗ (∃ d, owns (c : Thread nD τ) scM2 fullShare d) ∗ (∃ r, prngReg c r)) :=
  BI.equiv_iff.mp ⟨PhiA2_split c, PhiA2_join c⟩

/-! ## The accumulator at a point, from the point before -/

theorem sAt2_first (c : Dev nD) (t : Fin cfg2.N) (h0 : t.val = 0) :
    sAt2 V c t.val t.isLt = step2 (iblk2 V c 0 t) (iblk2 V c 1 t) (k2_pay1 (F := F)) := by
  obtain ⟨n, hn⟩ := t
  cases n with
  | zero => rfl
  | succ n => exact absurd h0 (Nat.succ_ne_zero n)

theorem sAt2_later (c : Dev nD) (t : Fin cfg2.N) (h0 : t.val ≠ 0) :
    sAt2 V c t.val t.isLt
      = step2 (iblk2 V c 0 t) (iblk2 V c 1 t) (sAt2 V c (t.val - 1) (Nat.lt_of_le_of_lt (Nat.sub_le _ _) t.isLt)) := by
  obtain ⟨n, hn⟩ := t
  cases n with
  | zero => exact absurd rfl h0
  | succ n => rfl

/-! ## What the body finds in the input windows -/

/-- Each input's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the three cases of the point: the first (the accumulator, at anything, is reset and
    updated), a middle one (the accumulator at what the point before left is updated), the last (updated and copied
    to the output block). Off the last point the output block is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 25 := lt_of_lt_of_eq t.isLt (show cfg2.N = 25 from N_2)
  by_cases h1 : t.val = 24
  · have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [PhiS2_castSucc V c t, PhiS2_pos V c _ _ hz, sAt2_later V c t hz]
    iintro ⟨⟨Hr, HS, Hg⟩, Ho, ⟨%d0, H0⟩, ⟨%d1, H1⟩, ⟨%d2, H2⟩⟩
    iapply (run2_C c (grid2.coords t) _ _ _ _ _ _ _ _ (fun h => hz ((hcond2_0 t).mp h)) ((hcond2_1 t).mpr h1)
      (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr]; · iexact Hr
      isplitl [HS]; · iexact HS
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases hz : t.val = 0
    · rw [PhiS2_castSucc V c t, PhiS2_zero V c _ _ hz, PhiA2_eq, sAt2_first V c t hz]
      iintro ⟨⟨Hr, HS, Hg⟩, Ho, ⟨%d0, H0⟩, ⟨%d1, H1⟩, ⟨%d2, H2⟩⟩
      iapply (run2_A c (grid2.coords t) _ _ _ _ _ _ _ _ ((hcond2_0 t).mpr hz) (fun h => h1 ((hcond2_1 t).mp h))
        (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · rw [PhiS2_castSucc V c t, PhiS2_pos V c _ _ hz, sAt2_later V c t hz]
      iintro ⟨⟨Hr, HS, Hg⟩, Ho, ⟨%d0, H0⟩, ⟨%d1, H1⟩, ⟨%d2, H2⟩⟩
      iapply (run2_B c (grid2.coords t) _ _ _ _ _ _ _ _ (fun h => hz ((hcond2_0 t).mp h)) (fun h => h1 ((hcond2_1 t).mp h))
        (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

/-- The body of region 2 at every grid point, against the region's proof data. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 (F := F) V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 (F := F) V c).Φ (Fin.last cfg2.N)
      = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨Hr, HS, Hg⟩
  isplitl [Hr]; · iexact Hr
  isplitl [HS]; · iexists _; iexact HS
  iexact Hg

end Cert.Kernel.Hand

end
-- ==== Proof.K.Body3.lean ====
import proofs.«413074_j63522566307870_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3, the two-layer head: the body's triple and the body obligation -/

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 1000000 in
/-- The head's body on whole staging memrefs, the five inputs' at read contents `x0 … x4` and the output's at anything,
    runs to the continuation holding the inputs' as they were and the output's at `out3_5` of the inputs': five whole
    loads, one whole load of the output block whose value is not used, and one whole store of the payload. -/
theorem sound_kernel3 (c : Dev nD) (E : Set ℕ) (i : grid3.Coords)
    (arg0 : Memref sig .tc .vmem S512x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole)
    (x0 : Vec F S512x128 .f32) (x1 : Vec F S128x128 .f32) (x2 : Vec F S1x128 .f32) (x3 : Vec F S128x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- Each input's current staging buffer holds its block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at the point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body of region 3 at every grid point, against the region's proof data. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«413074_j63522566307870_1_alg».proof.Proof.K.Vals
import proofs.«413074_j63522566307870_1_alg».proof.Proof.K.Body0
import proofs.«413074_j63522566307870_1_alg».proof.Proof.K.Body1
import proofs.«413074_j63522566307870_1_alg».proof.Proof.K.Body2
import proofs.«413074_j63522566307870_1_alg».proof.Proof.K.Body3
import proofs.«413074_j63522566307870_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of the whole program

The program is eighteen items: four kernel regions among fourteen stretches of host operations. Between two items a
core holds every unscoped buffer whole at the boundary's contents `W J`, beside its generator register at some state
and the record that it owes nothing. A host stretch takes the contents to what it computes; a region takes its arrays
out of the unscoped buffers, runs its pipeline, and puts them back at what the pipeline leaves. -/

/-! ## What a region leaves: its arrays at the pipeline's last contents, every other buffer as entered -/

theorem exitArr0 (c : Dev nD) (w : Fin cfg0.W) :
    (dat0 (rd (W0 m ρ)) c).arrAt w cfg0.N = rd (W1 m ρ) c (Pipeline.arrRef spec0 w) := (W1_arr m ρ c w).symm
theorem exitRest0 (c : Dev nD) : ∀ b, b ∉ Finset.univ.image (Pipeline.arrRef spec0) → rd (W1 m ρ) c b = rd (W0 m ρ) c b :=
  fun b hb => W1_of_ne m ρ c b fun w e => hb (Finset.mem_image.mpr ⟨w, Finset.mem_univ _, e⟩)
theorem exitArr1 (c : Dev nD) (w : Fin cfg1.W) :
    (dat1 (rd (W7 m ρ)) c).arrAt w cfg1.N = rd (W8 m ρ) c (Pipeline.arrRef spec1 w) := (W8_arr m ρ c w).symm
theorem exitRest1 (c : Dev nD) : ∀ b, b ∉ Finset.univ.image (Pipeline.arrRef spec1) → rd (W8 m ρ) c b = rd (W7 m ρ) c b :=
  fun b hb => W8_of_ne m ρ c b fun w e => hb (Finset.mem_image.mpr ⟨w, Finset.mem_univ _, e⟩)
theorem exitArr2 (c : Dev nD) (w : Fin cfg2.W) :
    (dat2 (rd (W15 m ρ)) c).arrAt w cfg2.N = rd (W16 m ρ) c (Pipeline.arrRef spec2 w) := (W16_arr m ρ c w).symm
theorem exitRest2 (c : Dev nD) : ∀ b, b ∉ Finset.univ.image (Pipeline.arrRef spec2) → rd (W16 m ρ) c b = rd (W15 m ρ) c b :=
  fun b hb => W16_of_ne m ρ c b fun w e => hb (Finset.mem_image.mpr ⟨w, Finset.mem_univ _, e⟩)
theorem exitArr3 (c : Dev nD) (w : Fin cfg3.W) :
    (dat3 (rd (W17 m ρ)) c).arrAt w cfg3.N = rd (W18 m ρ) c (Pipeline.arrRef spec3 w) := (W18_arr m ρ c w).symm
theorem exitRest3 (c : Dev nD) : ∀ b, b ∉ Finset.univ.image (Pipeline.arrRef spec3) → rd (W18 m ρ) c b = rd (W17 m ρ) c b :=
  fun b hb => W18_of_ne m ρ c b fun w e => hb (Finset.mem_image.mpr ⟨w, Finset.mem_univ _, e⟩)

/-! ## The proof data family and the thread state -/

/-- Every pipeline's proof data, each at its region's entry contents. -/
def regionDats : (p : Fin 4) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W7 m ρ)) c
  | ⟨2, _⟩ => fun c => dat2 (rd (W15 m ρ)) c
  | ⟨3, _⟩ => fun c => dat3 (rd (W17 m ρ)) c
abbrev noVariants : Variants := Variants.none
/-- No core owes another anything: no level is assigned. -/
abbrev noLevels : GSem nD τ sig → Finset Unit := fun _ => ∅
abbrev zeroLevel : GSem nD τ sig → Unit → ℕ := fun _ _ => 0
/-- What rides beside the buffers through every item: the core's generator register at some state and the record that
    it owes nothing. -/
abbrev riding (c : Dev nD) : sProp 𝕄 := iprop((∃ r, prngReg c r) ∗ ∃ W, owes (c : Thread nD τ) (0 : CellTallies nD τ sig Unit) W)
/-- A host stretch as a segment over the unscoped references from the contents `W`, `riding` beside them: it runs to
    those references at `StableHlo.after ops (W c)`, the next boundary's contents. -/
abbrev stretchSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- The last thread state without the record of owing nothing: every unscoped buffer at the last boundary's contents,
    the generator register at some state. -/
abbrev lastState (c : Dev nD) : sProp 𝕄 := iprop(StableHlo.held (c : Thread nD τ) (Pipeline.ucRefs τ sig) (W18 m ρ c) ∗ ∃ r, prngReg c r)

/-! ## The regions as segments -/

-- a library lemma stated over the pinned configuration of a pipeline unifies with the printed configuration only when
-- unification may unfold plain definitions in a metavariable's type
set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def regionSeg0 : Pipeline.RegionSeg (pcfgs (F := F)) adm (regionDats m ρ) () defs₀ noVariants noLevels zeroLevel 0 where
  win := launch0.win.to₀
  block_pos := launch0.block_pos
  stage_whole := launch0.stage_whole
  K := PEmpty
  osem k := k.elim
  ho := Pipeline.OwnSemFacts.none _
  hbody c := (body_obligation0 (rd (W0 m ρ)) c).loose
  hwaits := Pipeline.hwaits_of_owed_zero _ _ _ _ noLevels zeroLevel 0 fun _ _ => rfl
  pre c := iprop(StableHlo.held (c : Thread nD τ) (Pipeline.ucRefs τ sig) (W0 m ρ c) ∗ riding c)
  post c := iprop(StableHlo.held (c : Thread nD τ) (Pipeline.ucRefs τ sig) (W1 m ρ c) ∗ riding c)
  X c := iprop(∃ r, prngReg c r)
  Y c := iprop(∃ r, prngReg c r)
  Z c := Pipeline.unscopedRest (Ix := Unit) (Name := ℕ) (U := UR sig nD τ) (Lvl := ℕ) spec0 c (rd (W0 m ρ) c)
  hentry c := by
    rw [Pipeline.ownSems0_none]
    have hsplit := Pipeline.arrays_of_unscopedBufs (p := 0) (pcfgs (F := F)) adm (regionDats m ρ) launch0.win launch0.arr_whole c
      ((regionDats m ρ 0 c).share_full fun _ => rfl) (rd (W0 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionDats m ρ) ((regionDats m ρ 0 c).share_full fun _ => rfl)
      (rd (W0 m ρ) c) (rd (W1 m ρ) c) ((regionDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 1 over the thread state: entered from every unscoped buffer at `W7`, left at `W8`. Its arrays are
    split out of the unscoped buffers and put back at the exit contents; the generator register goes into the region's
    invariant and comes back; nothing is owed; the kernel has no semaphore of its own. -/
def regionSeg1 : Pipeline.RegionSeg (pcfgs (F := F)) adm (regionDats m ρ) () defs₀ noVariants noLevels zeroLevel 1 where
  win := launch1.win.to₀
  block_pos := launch1.block_pos
  stage_whole := launch1.stage_whole
  K := PEmpty
  osem k := k.elim
  ho := Pipeline.OwnSemFacts.none _
  hbody c := (body_obligation1 (rd (W7 m ρ)) c).loose
  hwaits := Pipeline.hwaits_of_owed_zero _ _ _ _ noLevels zeroLevel 1 fun _ _ => rfl
  pre c := iprop(StableHlo.held (c : Thread nD τ) (Pipeline.ucRefs τ sig) (W7 m ρ c) ∗ riding c)
  post c := iprop(StableHlo.held (c : Thread nD τ) (Pipeline.ucRefs τ sig) (W8 m ρ c) ∗ riding c)
  X c := iprop(∃ r, prngReg c r)
  Y c := iprop(∃ r, prngReg c r)
  Z c := Pipeline.unscopedRest (Ix := Unit) (Name := ℕ) (U := UR sig nD τ) (Lvl := ℕ) spec1 c (rd (W7 m ρ) c)
  hentry c := by
    rw [Pipeline.ownSems0_none]
    have hsplit := Pipeline.arrays_of_unscopedBufs (p := 1) (pcfgs (F := F)) adm (regionDats m ρ) launch1.win launch1.arr_whole c
      ((regionDats m ρ 1 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionDats m ρ) ((regionDats m ρ 1 c).share_full fun _ => rfl)
      (rd (W7 m ρ) c) (rd (W8 m ρ) c) ((regionDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 2 over the thread state: entered from every unscoped buffer at `W15`, left at `W16`. Its arrays are
    split out of the unscoped buffers and put back at the exit contents; the generator register goes into the region's
    invariant and comes back; nothing is owed; the kernel has no semaphore of its own. -/
def regionSeg2 : Pipeline.RegionSeg (pcfgs (F := F)) adm (regionDats m ρ) () defs₀ noVariants noLevels zeroLevel 2 where
  win := launch2.win.to₀
  block_pos := launch2.block_pos
  stage_whole := launch2.stage_whole
  K := PEmpty
  osem k := k.elim
  ho := Pipeline.OwnSemFacts.none _
  hbody c := (body_obligation2 (rd (W15 m ρ)) c).loose
  hwaits := Pipeline.hwaits_of_owed_zero _ _ _ _ noLevels zeroLevel 2 fun _ _ => rfl
  pre c := iprop(StableHlo.held (c : Thread nD τ) (Pipeline.ucRefs τ sig) (W15 m ρ c) ∗ riding c)
  post c := iprop(StableHlo.held (c : Thread nD τ) (Pipeline.ucRefs τ sig) (W16 m ρ c) ∗ riding c)
  X c := iprop(∃ r, prngReg c r)
  Y c := iprop(∃ r, prngReg c r)
  Z c := Pipeline.unscopedRest (Ix := Unit) (Name := ℕ) (U := UR sig nD τ) (Lvl := ℕ) spec2 c (rd (W15 m ρ) c)
  hentry c := by
    rw [Pipeline.ownSems0_none]
    have hsplit := Pipeline.arrays_of_unscopedBufs (p := 2) (pcfgs (F := F)) adm (regionDats m ρ) launch2.win launch2.arr_whole c
      ((regionDats m ρ 2 c).share_full fun _ => rfl) (rd (W15 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (regionDats m ρ 2 c).Φ 0 from hin2 (rd (W15 m ρ)) c)
    unfold Pipeline.ΦA
    iintro ⟨Hp, -, Hr⟩
    isplitl [Hr]; · iexact Hr
    iexact Hp
  hout c := by
    refine (show (regionDats m ρ 2 c).Φ (Fin.last _) ⊢ Pipeline.ΦA spec2 c from hout2 (rd (W15 m ρ)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (regionDats m ρ) ((regionDats m ρ 2 c).share_full fun _ => rfl)
      (rd (W15 m ρ) c) (rd (W16 m ρ) c) ((regionDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 3 over the thread state: entered from every unscoped buffer at `W17`, left at `W18`. Its arrays are
    split out of the unscoped buffers and put back at the exit contents; the generator register goes into the region's
    invariant and comes back; nothing is owed; the kernel has no semaphore of its own. -/
def regionSeg3 : Pipeline.RegionSeg (pcfgs (F := F)) adm (regionDats m ρ) () defs₀ noVariants noLevels zeroLevel 3 where
  win := launch3.win.to₀
  block_pos := launch3.block_pos
  stage_whole := launch3.stage_whole
  K := PEmpty
  osem k := k.elim
  ho := Pipeline.OwnSemFacts.none _
  hbody c := (body_obligation3 (rd (W17 m ρ)) c).loose
  hwaits := Pipeline.hwaits_of_owed_zero _ _ _ _ noLevels zeroLevel 3 fun _ _ => rfl
  pre c := iprop(StableHlo.held (c : Thread nD τ) (Pipeline.ucRefs τ sig) (W17 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (rd (W17 m ρ) c)
  hentry c := by
    rw [Pipeline.ownSems0_none]
    have hsplit := Pipeline.arrays_of_unscopedBufs (p := 3) (pcfgs (F := F)) adm (regionDats m ρ) launch3.win launch3.arr_whole c
      ((regionDats m ρ 3 c).share_full fun _ => rfl) (rd (W17 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (regionDats m ρ) ((regionDats m ρ 3 c).share_full fun _ => rfl)
      (rd (W17 m ρ) c) (rd (W18 m ρ) c) ((regionDats m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eighteen items in order: a region per kernel call, a host segment per stretch from its boundary's
    contents. -/
abbrev itemSegs : List (Pipeline.Seg (pcfgs (F := F)) adm (regionDats m ρ) () defs₀ noVariants noLevels zeroLevel) :=
  [
    .region (regionSeg0 m ρ),
    .host (stretchSeg hostOps1 hostOps1_sub hostOps1_fresh (W1 m ρ)),
    .host (stretchSeg hostOps1_1 hostOps1_1_sub hostOps1_1_fresh (W2 m ρ)),
    .host (stretchSeg hostOps1_2 hostOps1_2_sub hostOps1_2_fresh (W3 m ρ)),
    .host (stretchSeg hostOps1_3 hostOps1_3_sub hostOps1_3_fresh (W4 m ρ)),
    .host (stretchSeg hostOps1_4 hostOps1_4_sub hostOps1_4_fresh (W5 m ρ)),
    .host (stretchSeg hostOps1_5 hostOps1_5_sub hostOps1_5_fresh (W6 m ρ)),
    .region (regionSeg1 m ρ),
    .host (stretchSeg hostOps2 hostOps2_sub hostOps2_fresh (W8 m ρ)),
    .host (stretchSeg hostOps2_1 hostOps2_1_sub hostOps2_1_fresh (W9 m ρ)),
    .host (stretchSeg hostOps2_2 hostOps2_2_sub hostOps2_2_fresh (W10 m ρ)),
    .host (stretchSeg hostOps2_3 hostOps2_3_sub hostOps2_3_fresh (W11 m ρ)),
    .host (stretchSeg hostOps2_4 hostOps2_4_sub hostOps2_4_fresh (W12 m ρ)),
    .host (stretchSeg hostOps2_5 hostOps2_5_sub hostOps2_5_fresh (W13 m ρ)),
    .host (stretchSeg hostOps2_6 hostOps2_6_sub hostOps2_6_fresh (W14 m ρ)),
    .region (regionSeg2 m ρ),
    .host (stretchSeg hostOps3 hostOps3_sub hostOps3_fresh (W16 m ρ)),
    .region (regionSeg3 m ρ) ]

-- the launch theorem's implicit arguments are found by unifying its conclusion with this one, which takes unfolding
-- plain definitions in a metavariable's type
set_option backward.isDefEq.respectTransparency.types false in
/-- THE RUN. From any memory with zero counters every weakly fair execution of the program terminates, nothing faulting, and
    every unscoped buffer of every core ends at the last boundary's contents `W18`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W18 m ρ c b) :=
  Pipeline.θ_run_regions_kit (pcfgs (F := F)) adm (regionDats m ρ) () cellOf_inj emb₁ defs₀ noVariants noLevels zeroLevel m ρ main (itemSegs m ρ)
    (fun c Q => by
      rewrite [main_chain c, Pipeline.Seg.run_eq_chain,
        show (itemSegs m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3,
          Prog.lift (.customCall (Pipeline.entry 3) ()) ] from rfl]
      exact .rfl)
    (by simp only [itemSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLevels zeroLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

end Cert.Kernel.Hand

end
-- ==== Proof.K.Keep.lean ====
import proofs.«413074_j63522566307870_1_alg».proof.Proof.K.Vals
import proofs.«413074_j63522566307870_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What no item writes keeps its launch contents

A host stretch changes only the buffers its operations write; a region changes only its output array, and hands an input
array back as it found it. So a buffer that is none of those holds at every boundary what it held at launch. -/

variable (m : (ℓ : Loc nD τ sig) → Buf (Elt F) ℓ) (ρ : Dev nD → PrngReg)

/-- Through the six host stretches between regions 0 and 1. -/
theorem keep_1_7 (c : Dev nD) (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) :
    W7 m ρ c (Proc.devRef .tc r) = W1 m ρ c (Proc.devRef .tc r) :=
  (StableHlo.after_of_writes_sub hostOps1_5 _ hostOps1_5_writes h6).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- Through the seven host stretches between regions 1 and 2. -/
theorem keep_9_15 (c : Dev nD) (r : Ref sig .tc) (h1 : r ∉ hostOps2_W) (h2 : r ∉ hostOps2_1_W) (h3 : r ∉ hostOps2_2_W)
    (h4 : r ∉ hostOps2_3_W) (h5 : r ∉ hostOps2_4_W) (h6 : r ∉ hostOps2_5_W) (h7 : r ∉ hostOps2_6_W) :
    W15 m ρ c (Proc.devRef .tc r) = W8 m ρ c (Proc.devRef .tc r) :=
  (StableHlo.after_of_writes_sub hostOps2_6 _ hostOps2_6_writes h7).trans <|
  (StableHlo.after_of_writes_sub hostOps2_5 _ hostOps2_5_writes h6).trans <|
  (StableHlo.after_of_writes_sub hostOps2_4 _ hostOps2_4_writes h5).trans <|
  (StableHlo.after_of_writes_sub hostOps2_3 _ hostOps2_3_writes h4).trans <|
  (StableHlo.after_of_writes_sub hostOps2_2 _ hostOps2_2_writes h3).trans <|
  (StableHlo.after_of_writes_sub hostOps2_1 _ hostOps2_1_writes h2).trans <|
  (StableHlo.after_of_writes_sub hostOps2 _ hostOps2_writes h1)

/-- Through the host stretch between regions 2 and 3. -/
theorem keep_17 (c : Dev nD) (r : Ref sig .tc) (h1 : r ∉ hostOps3_W) :
    W17 m ρ c (Proc.devRef .tc r) = W16 m ρ c (Proc.devRef .tc r) :=
  StableHlo.after_of_writes_sub hostOps3 _ hostOps3_writes h1

end Cert.Kernel.Hand

end
-- ==== Proof.K.KeepArgs.lean ====
import proofs.«413074_j63522566307870_1_alg».proof.Proof.K.Keep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays hold their launch contents at every boundary

No host stretch writes an argument and no region has one as an output, so each of the twelve reads back, at every boundary
where something consumes it, what the launch memory held. -/

variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  ((W1_arr m ρ c 0).trans (((dat0 (rd (W0 m ρ)) c).arrAt_in 0 rfl _).trans (A_eq0 (rd (W0 m ρ)) c 0)))
theorem W7_main_arg0 (c : Dev nD) : W7 m ρ c (Proc.devRef .tc main_arg0) = m ((c : Thread nD τ).loc main_arg0) :=
  (keep_1_7 m ρ c main_arg0 (by decide) (by decide) (by decide) (by decide) (by decide) (by decide)).trans (W1_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W15_main_arg0 (c : Dev nD) : W15 m ρ c (Proc.devRef .tc main_arg0) = m ((c : Thread nD τ).loc main_arg0) :=
  (keep_9_15 m ρ c main_arg0 (by decide) (by decide) (by decide) (by decide) (by decide) (by decide) (by decide)).trans (W8_main_arg0 m ρ c)
theorem W16_main_arg0 (c : Dev nD) : W16 m ρ c (Proc.devRef .tc main_arg0) = m ((c : Thread nD τ).loc main_arg0) :=
  (W16_of_ne m ρ c main_arg0 (by decide)).trans (W15_main_arg0 m ρ c)
theorem W17_main_arg0 (c : Dev nD) : W17 m ρ c (Proc.devRef .tc main_arg0) = m ((c : Thread nD τ).loc main_arg0) :=
  (keep_17 m ρ c main_arg0 (by decide)).trans (W16_main_arg0 m ρ c)
theorem W18_main_arg0 (c : Dev nD) : W18 m ρ c (Proc.devRef .tc main_arg0) = m ((c : Thread nD τ).loc main_arg0) :=
  (W18_of_ne m ρ c main_arg0 (by decide)).trans (W17_main_arg0 m ρ c)

theorem W1_main_arg1 (c : Dev nD) : W1 m ρ c (Proc.devRef .tc main_arg1) = m ((c : Thread nD τ).loc main_arg1) :=
  (W1_of_ne m ρ c main_arg1 (by decide))
theorem W7_main_arg1 (c : Dev nD) : W7 m ρ c (Proc.devRef .tc main_arg1) = m ((c : Thread nD τ).loc main_arg1) :=
  (keep_1_7 m ρ c main_arg1 (by decide) (by decide) (by decide) (by decide) (by decide) (by decide)).trans (W1_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W15_main_arg1 (c : Dev nD) : W15 m ρ c (Proc.devRef .tc main_arg1) = m ((c : Thread nD τ).loc main_arg1) :=
  (keep_9_15 m ρ c main_arg1 (by decide) (by decide) (by decide) (by decide) (by decide) (by decide) (by decide)).trans (W8_main_arg1 m ρ c)
theorem W16_main_arg1 (c : Dev nD) : W16 m ρ c (Proc.devRef .tc main_arg1) = m ((c : Thread nD τ).loc main_arg1) :=
  (W16_of_ne m ρ c main_arg1 (by decide)).trans (W15_main_arg1 m ρ c)
theorem W17_main_arg1 (c : Dev nD) : W17 m ρ c (Proc.devRef .tc main_arg1) = m ((c : Thread nD τ).loc main_arg1) :=
  (keep_17 m ρ c main_arg1 (by decide)).trans (W16_main_arg1 m ρ c)
theorem W18_main_arg1 (c : Dev nD) : W18 m ρ c (Proc.devRef .tc main_arg1) = m ((c : Thread nD τ).loc main_arg1) :=
  (W18_of_ne m ρ c main_arg1 (by decide)).trans (W17_main_arg1 m ρ c)

theorem W1_main_arg2 (c : Dev nD) : W1 m ρ c (Proc.devRef .tc main_arg2) = m ((c : Thread nD τ).loc main_arg2) :=
  (W1_of_ne m ρ c main_arg2 (by decide))
theorem W7_main_arg2 (c : Dev nD) : W7 m ρ c (Proc.devRef .tc main_arg2) = m ((c : Thread nD τ).loc main_arg2) :=
  (keep_1_7 m ρ c main_arg2 (by decide) (by decide) (by decide) (by decide) (by decide) (by decide)).trans (W1_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W15_main_arg2 (c : Dev nD) : W15 m ρ c (Proc.devRef .tc main_arg2) = m ((c : Thread nD τ).loc main_arg2) :=
  (keep_9_15 m ρ c main_arg2 (by decide) (by decide) (by decide) (by decide) (by decide) (by decide) (by decide)).trans (W8_main_arg2 m ρ c)
theorem W16_main_arg2 (c : Dev nD) : W16 m ρ c (Proc.devRef .tc main_arg2) = m ((c : Thread nD τ).loc main_arg2) :=
  (W16_of_ne m ρ c main_arg2 (by decide)).trans (W15_main_arg2 m ρ c)
theorem W17_main_arg2 (c : Dev nD) : W17 m ρ c (Proc.devRef .tc main_arg2) = m ((c : Thread nD τ).loc main_arg2) :=
  (keep_17 m ρ c main_arg2 (by decide)).trans (W16_main_arg2 m ρ c)
theorem W18_main_arg2 (c : Dev nD) : W18 m ρ c (Proc.devRef .tc main_arg2) = m ((c : Thread nD τ).loc main_arg2) :=
  (W18_of_ne m ρ c main_arg2 (by decide)).trans (W17_main_arg2 m ρ c)

theorem W1_main_arg3 (c : Dev nD) : W1 m ρ c (Proc.devRef .tc main_arg3) = m ((c : Thread nD τ).loc main_arg3) :=
  (W1_of_ne m ρ c main_arg3 (by decide))
theorem W7_main_arg3 (c : Dev nD) : W7 m ρ c (Proc.devRef .tc main_arg3) = m ((c : Thread nD τ).loc main_arg3) :=
  (keep_1_7 m ρ c main_arg3 (by decide) (by decide) (by decide) (by decide) (by decide) (by decide)).trans (W1_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W15_main_arg3 (c : Dev nD) : W15 m ρ c (Proc.devRef .tc main_arg3) = m ((c : Thread nD τ).loc main_arg3) :=
  (keep_9_15 m ρ c main_arg3 (by decide) (by decide) (by decide) (by decide) (by decide) (by decide) (by decide)).trans (W8_main_arg3 m ρ c)
theorem W16_main_arg3 (c : Dev nD) : W16 m ρ c (Proc.devRef .tc main_arg3) = m ((c : Thread nD τ).loc main_arg3) :=
  (W16_of_ne m ρ c main_arg3 (by decide)).trans (W15_main_arg3 m ρ c)
theorem W17_main_arg3 (c : Dev nD) : W17 m ρ c (Proc.devRef .tc main_arg3) = m ((c : Thread nD τ).loc main_arg3) :=
  (keep_17 m ρ c main_arg3 (by decide)).trans (W16_main_arg3 m ρ c)
theorem W18_main_arg3 (c : Dev nD) : W18 m ρ c (Proc.devRef .tc main_arg3) = m ((c : Thread nD τ).loc main_arg3) :=
  (W18_of_ne m ρ c main_arg3 (by decide)).trans (W17_main_arg3 m ρ c)

theorem W1_main_arg4 (c : Dev nD) : W1 m ρ c (Proc.devRef .tc main_arg4) = m ((c : Thread nD τ).loc main_arg4) :=
  ((W1_arr m ρ c 1).trans (((dat0 (rd (W0 m ρ)) c).arrAt_in 1 rfl _).trans (A_eq0 (rd (W0 m ρ)) c 1)))
theorem W7_main_arg4 (c : Dev nD) : W7 m ρ c (Proc.devRef .tc main_arg4) = m ((c : Thread nD τ).loc main_arg4) :=
  (keep_1_7 m ρ c main_arg4 (by decide) (by decide) (by decide) (by decide) (by decide) (by decide)).trans (W1_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W15_main_arg4 (c : Dev nD) : W15 m ρ c (Proc.devRef .tc main_arg4) = m ((c : Thread nD τ).loc main_arg4) :=
  (keep_9_15 m ρ c main_arg4 (by decide) (by decide) (by decide) (by decide) (by decide) (by decide) (by decide)).trans (W8_main_arg4 m ρ c)
theorem W16_main_arg4 (c : Dev nD) : W16 m ρ c (Proc.devRef .tc main_arg4) = m ((c : Thread nD τ).loc main_arg4) :=
  (W16_of_ne m ρ c main_arg4 (by decide)).trans (W15_main_arg4 m ρ c)
theorem W17_main_arg4 (c : Dev nD) : W17 m ρ c (Proc.devRef .tc main_arg4) = m ((c : Thread nD τ).loc main_arg4) :=
  (keep_17 m ρ c main_arg4 (by decide)).trans (W16_main_arg4 m ρ c)
theorem W18_main_arg4 (c : Dev nD) : W18 m ρ c (Proc.devRef .tc main_arg4) = m ((c : Thread nD τ).loc main_arg4) :=
  (W18_of_ne m ρ c main_arg4 (by decide)).trans (W17_main_arg4 m ρ c)

theorem W1_main_arg5 (c : Dev nD) : W1 m ρ c (Proc.devRef .tc main_arg5) = m ((c : Thread nD τ).loc main_arg5) :=
  (W1_of_ne m ρ c main_arg5 (by decide))
theorem W7_main_arg5 (c : Dev nD) : W7 m ρ c (Proc.devRef .tc main_arg5) = m ((c : Thread nD τ).loc main_arg5) :=
  (keep_1_7 m ρ c main_arg5 (by decide) (by decide) (by decide) (by decide) (by decide) (by decide)).trans (W1_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W15_main_arg5 (c : Dev nD) : W15 m ρ c (Proc.devRef .tc main_arg5) = m ((c : Thread nD τ).loc main_arg5) :=
  (keep_9_15 m ρ c main_arg5 (by decide) (by decide) (by decide) (by decide) (by decide) (by decide) (by decide)).trans (W8_main_arg5 m ρ c)
theorem W16_main_arg5 (c : Dev nD) : W16 m ρ c (Proc.devRef .tc main_arg5) = m ((c : Thread nD τ).loc main_arg5) :=
  (W16_of_ne m ρ c main_arg5 (by decide)).trans (W15_main_arg5 m ρ c)
theorem W17_main_arg5 (c : Dev nD) : W17 m ρ c (Proc.devRef .tc main_arg5) = m ((c : Thread nD τ).loc main_arg5) :=
  (keep_17 m ρ c main_arg5 (by decide)).trans (W16_main_arg5 m ρ c)
theorem W18_main_arg5 (c : Dev nD) : W18 m ρ c (Proc.devRef .tc main_arg5) = m ((c : Thread nD τ).loc main_arg5) :=
  (W18_of_ne m ρ c main_arg5 (by decide)).trans (W17_main_arg5 m ρ c)

theorem W1_main_arg6 (c : Dev nD) : W1 m ρ c (Proc.devRef .tc main_arg6) = m ((c : Thread nD τ).loc main_arg6) :=
  (W1_of_ne m ρ c main_arg6 (by decide))
theorem W7_main_arg6 (c : Dev nD) : W7 m ρ c (Proc.devRef .tc main_arg6) = m ((c : Thread nD τ).loc main_arg6) :=
  (keep_1_7 m ρ c main_arg6 (by decide) (by decide) (by decide) (by decide) (by decide) (by decide)).trans (W1_main_arg6 m ρ c)
theorem W8_main_arg6 (c : Dev nD) : W8 m ρ c (Proc.devRef .tc main_arg6) = m ((c : Thread nD τ).loc main_arg6) :=
  ((W8_arr m ρ c 1).trans (((dat1 (rd (W7 m ρ)) c).arrAt_in 1 rfl _).trans (A_eq1 (rd (W7 m ρ)) c 1))).trans (W7_main_arg6 m ρ c)
theorem W15_main_arg6 (c : Dev nD) : W15 m ρ c (Proc.devRef .tc main_arg6) = m ((c : Thread nD τ).loc main_arg6) :=
  (keep_9_15 m ρ c main_arg6 (by decide) (by decide) (by decide) (by decide) (by decide) (by decide) (by decide)).trans (W8_main_arg6 m ρ c)
theorem W16_main_arg6 (c : Dev nD) : W16 m ρ c (Proc.devRef .tc main_arg6) = m ((c : Thread nD τ).loc main_arg6) :=
  (W16_of_ne m ρ c main_arg6 (by decide)).trans (W15_main_arg6 m ρ c)
theorem W17_main_arg6 (c : Dev nD) : W17 m ρ c (Proc.devRef .tc main_arg6) = m ((c : Thread nD τ).loc main_arg6) :=
  (keep_17 m ρ c main_arg6 (by decide)).trans (W16_main_arg6 m ρ c)
theorem W18_main_arg6 (c : Dev nD) : W18 m ρ c (Proc.devRef .tc main_arg6) = m ((c : Thread nD τ).loc main_arg6) :=
  (W18_of_ne m ρ c main_arg6 (by decide)).trans (W17_main_arg6 m ρ c)

theorem W1_main_arg7 (c : Dev nD) : W1 m ρ c (Proc.devRef .tc main_arg7) = m ((c : Thread nD τ).loc main_arg7) :=
  (W1_of_ne m ρ c main_arg7 (by decide))
theorem W7_main_arg7 (c : Dev nD) : W7 m ρ c (Proc.devRef .tc main_arg7) = m ((c : Thread nD τ).loc main_arg7) :=
  (keep_1_7 m ρ c main_arg7 (by decide) (by decide) (by decide) (by decide) (by decide) (by decide)).trans (W1_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W15_main_arg7 (c : Dev nD) : W15 m ρ c (Proc.devRef .tc main_arg7) = m ((c : Thread nD τ).loc main_arg7) :=
  (keep_9_15 m ρ c main_arg7 (by decide) (by decide) (by decide) (by decide) (by decide) (by decide) (by decide)).trans (W8_main_arg7 m ρ c)
theorem W16_main_arg7 (c : Dev nD) : W16 m ρ c (Proc.devRef .tc main_arg7) = m ((c : Thread nD τ).loc main_arg7) :=
  (W16_of_ne m ρ c main_arg7 (by decide)).trans (W15_main_arg7 m ρ c)
theorem W17_main_arg7 (c : Dev nD) : W17 m ρ c (Proc.devRef .tc main_arg7) = m ((c : Thread nD τ).loc main_arg7) :=
  (keep_17 m ρ c main_arg7 (by decide)).trans (W16_main_arg7 m ρ c)
theorem W18_main_arg7 (c : Dev nD) : W18 m ρ c (Proc.devRef .tc main_arg7) = m ((c : Thread nD τ).loc main_arg7) :=
  (W18_of_ne m ρ c main_arg7 (by decide)).trans (W17_main_arg7 m ρ c)

theorem W1_main_arg8 (c : Dev nD) : W1 m ρ c (Proc.devRef .tc main_arg8) = m ((c : Thread nD τ).loc main_arg8) :=
  (W1_of_ne m ρ c main_arg8 (by decide))
theorem W7_main_arg8 (c : Dev nD) : W7 m ρ c (Proc.devRef .tc main_arg8) = m ((c : Thread nD τ).loc main_arg8) :=
  (keep_1_7 m ρ c main_arg8 (by decide) (by decide) (by decide) (by decide) (by decide) (by decide)).trans (W1_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W15_main_arg8 (c : Dev nD) : W15 m ρ c (Proc.devRef .tc main_arg8) = m ((c : Thread nD τ).loc main_arg8) :=
  (keep_9_15 m ρ c main_arg8 (by decide) (by decide) (by decide) (by decide) (by decide) (by decide) (by decide)).trans (W8_main_arg8 m ρ c)
theorem W16_main_arg8 (c : Dev nD) : W16 m ρ c (Proc.devRef .tc main_arg8) = m ((c : Thread nD τ).loc main_arg8) :=
  (W16_of_ne m ρ c main_arg8 (by decide)).trans (W15_main_arg8 m ρ c)
theorem W17_main_arg8 (c : Dev nD) : W17 m ρ c (Proc.devRef .tc main_arg8) = m ((c : Thread nD τ).loc main_arg8) :=
  (keep_17 m ρ c main_arg8 (by decide)).trans (W16_main_arg8 m ρ c)
theorem W18_main_arg8 (c : Dev nD) : W18 m ρ c (Proc.devRef .tc main_arg8) = m ((c : Thread nD τ).loc main_arg8) :=
  ((W18_arr m ρ c 1).trans (((dat3 (rd (W17 m ρ)) c).arrAt_in 1 rfl _).trans (A_eq3 (rd (W17 m ρ)) c 1))).trans (W17_main_arg8 m ρ c)

theorem W1_main_arg9 (c : Dev nD) : W1 m ρ c (Proc.devRef .tc main_arg9) = m ((c : Thread nD τ).loc main_arg9) :=
  (W1_of_ne m ρ c main_arg9 (by decide))
theorem W7_main_arg9 (c : Dev nD) : W7 m ρ c (Proc.devRef .tc main_arg9) = m ((c : Thread nD τ).loc main_arg9) :=
  (keep_1_7 m ρ c main_arg9 (by decide) (by decide) (by decide) (by decide) (by decide) (by decide)).trans (W1_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)
theorem W15_main_arg9 (c : Dev nD) : W15 m ρ c (Proc.devRef .tc main_arg9) = m ((c : Thread nD τ).loc main_arg9) :=
  (keep_9_15 m ρ c main_arg9 (by decide) (by decide) (by decide) (by decide) (by decide) (by decide) (by decide)).trans (W8_main_arg9 m ρ c)
theorem W16_main_arg9 (c : Dev nD) : W16 m ρ c (Proc.devRef .tc main_arg9) = m ((c : Thread nD τ).loc main_arg9) :=
  (W16_of_ne m ρ c main_arg9 (by decide)).trans (W15_main_arg9 m ρ c)
theorem W17_main_arg9 (c : Dev nD) : W17 m ρ c (Proc.devRef .tc main_arg9) = m ((c : Thread nD τ).loc main_arg9) :=
  (keep_17 m ρ c main_arg9 (by decide)).trans (W16_main_arg9 m ρ c)
theorem W18_main_arg9 (c : Dev nD) : W18 m ρ c (Proc.devRef .tc main_arg9) = m ((c : Thread nD τ).loc main_arg9) :=
  (W18_of_ne m ρ c main_arg9 (by decide)).trans (W17_main_arg9 m ρ c)

theorem W1_main_arg10 (c : Dev nD) : W1 m ρ c (Proc.devRef .tc main_arg10) = m ((c : Thread nD τ).loc main_arg10) :=
  (W1_of_ne m ρ c main_arg10 (by decide))
theorem W7_main_arg10 (c : Dev nD) : W7 m ρ c (Proc.devRef .tc main_arg10) = m ((c : Thread nD τ).loc main_arg10) :=
  (keep_1_7 m ρ c main_arg10 (by decide) (by decide) (by decide) (by decide) (by decide) (by decide)).trans (W1_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W15_main_arg10 (c : Dev nD) : W15 m ρ c (Proc.devRef .tc main_arg10) = m ((c : Thread nD τ).loc main_arg10) :=
  (keep_9_15 m ρ c main_arg10 (by decide) (by decide) (by decide) (by decide) (by decide) (by decide) (by decide)).trans (W8_main_arg10 m ρ c)
theorem W16_main_arg10 (c : Dev nD) : W16 m ρ c (Proc.devRef .tc main_arg10) = m ((c : Thread nD τ).loc main_arg10) :=
  (W16_of_ne m ρ c main_arg10 (by decide)).trans (W15_main_arg10 m ρ c)
theorem W17_main_arg10 (c : Dev nD) : W17 m ρ c (Proc.devRef .tc main_arg10) = m ((c : Thread nD τ).loc main_arg10) :=
  (keep_17 m ρ c main_arg10 (by decide)).trans (W16_main_arg10 m ρ c)
theorem W18_main_arg10 (c : Dev nD) : W18 m ρ c (Proc.devRef .tc main_arg10) = m ((c : Thread nD τ).loc main_arg10) :=
  ((W18_arr m ρ c 3).trans (((dat3 (rd (W17 m ρ)) c).arrAt_in 3 rfl _).trans (A_eq3 (rd (W17 m ρ)) c 3))).trans (W17_main_arg10 m ρ c)

theorem W1_main_arg11 (c : Dev nD) : W1 m ρ c (Proc.devRef .tc main_arg11) = m ((c : Thread nD τ).loc main_arg11) :=
  (W1_of_ne m ρ c main_arg11 (by decide))
theorem W7_main_arg11 (c : Dev nD) : W7 m ρ c (Proc.devRef .tc main_arg11) = m ((c : Thread nD τ).loc main_arg11) :=
  (keep_1_7 m ρ c main_arg11 (by decide) (by decide) (by decide) (by decide) (by decide) (by decide)).trans (W1_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W15_main_arg11 (c : Dev nD) : W15 m ρ c (Proc.devRef .tc main_arg11) = m ((c : Thread nD τ).loc main_arg11) :=
  (keep_9_15 m ρ c main_arg11 (by decide) (by decide) (by decide) (by decide) (by decide) (by decide) (by decide)).trans (W8_main_arg11 m ρ c)
theorem W16_main_arg11 (c : Dev nD) : W16 m ρ c (Proc.devRef .tc main_arg11) = m ((c : Thread nD τ).loc main_arg11) :=
  (W16_of_ne m ρ c main_arg11 (by decide)).trans (W15_main_arg11 m ρ c)
theorem W17_main_arg11 (c : Dev nD) : W17 m ρ c (Proc.devRef .tc main_arg11) = m ((c : Thread nD τ).loc main_arg11) :=
  (keep_17 m ρ c main_arg11 (by decide)).trans (W16_main_arg11 m ρ c)
theorem W18_main_arg11 (c : Dev nD) : W18 m ρ c (Proc.devRef .tc main_arg11) = m ((c : Thread nD τ).loc main_arg11) :=
  (W18_of_ne m ρ c main_arg11 (by decide)).trans (W17_main_arg11 m ρ c)

end Cert.Kernel.Hand

end
-- ==== Proof.KI.Defs.lean ====
import proofs.«413074_j63522566307870_1_alg».proof.Proof.Gen.KernelIdeal.Launch
import proofs.«413074_j63522566307870_1_alg».proof.Proof.Gen.KernelIdeal.Skeleton
import proofs.«413074_j63522566307870_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the three single-store regions (the two dense projections and the two-layer head)

Each of these kernels loads its input blocks whole, computes one value, and stores it whole into its output block.
So after the body the output's staging buffer holds that value of the input blocks, and an input's staging buffer holds
its block. The entry contents of the TensorCore's buffers are a parameter `V`. -/

section Regions
variable (V : (c : Dev nD) → (b : Ref sig .tc) → Buf (Elt F) ((c : Thread nD τ).loc b))

/-! ## Region 0: the projection of the node features, `x · W1`, 5000 rows of nodes at a grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rO0 : Rect S5000x128 := Rect.unit (s := S5000x128) ![0, 0] S5000x128.size inb_S5000x128_S5000x128_0_0

/-- The output block after the body: the one whole store of the product of the two loaded blocks. -/
def out0_2 (x0 : Vec F S5000x64 .f32) (x1 : Vec F S64x128 .f32) : Vec F S5000x128 .f32 :=
  View.canon [⟨rO0, k0_pay1 (View.ld x0 rX0) (View.ld x1 rW0)⟩]

theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the projection of the first layer's output, `h1 · W2` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rW1 : Rect S128x128 := Rect.unit (s := S128x128) ![0, 0] S128x128.size inb_S128x128_S128x128_0_0

def out1_2 (x0 : Vec F S5000x128 .f32) (x1 : Vec F S128x128 .f32) : Vec F S5000x128 .f32 :=
  View.canon [⟨rO0, k1_pay1 (View.ld x0 rO0) (View.ld x1 rW1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 3: the head, `relu(p · Wm1 + bm1) · Wm2 + bm2`, one grid point -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rP3 : Rect S512x128 := Rect.unit (s := S512x128) ![0, 0] S512x128.size inb_S512x128_S512x128_0_0
abbrev rB3 : Rect S1x128 := Rect.unit (s := S1x128) ![0, 0] S1x128.size inb_S1x128_S1x128_0_0
abbrev rW3 : Rect S128x10 := Rect.unit (s := S128x10) ![0, 0] S128x10.size inb_S128x10_S128x10_0_0
abbrev rC3 : Rect S1x10 := Rect.unit (s := S1x10) ![0, 0] S1x10.size inb_S1x10_S1x10_0_0
abbrev rO3 : Rect S512x10 := Rect.unit (s := S512x10) ![0, 0] S512x10.size inb_S512x10_S512x10_0_0

def out3_5 (x0 : Vec F S512x128 .f32) (x1 : Vec F S128x128 .f32) (x2 : Vec F S1x128 .f32) (x3 : Vec F S128x10 .f32) (x4 : Vec F S1x10 .f32) : Vec F S512x10 .f32 :=
  View.canon [⟨rO3, k3_pay1 (View.ld x0 rP3) (View.ld x1 rW1) (View.ld x2 rB3) (View.ld x3 rW3) (View.ld x4 rC3)⟩]

theorem cover3_5 (p0 : Vec F S512x10 .f32) (y : S512x10.Idx) :
    ∃ pc ∈ ([⟨rO3, p0⟩] : List (View.Piece (Elt F) S512x10 .f32)), y ∈ pc.1.set :=
  View.cover_of_tiled [⟨rO3, p0⟩] S512x10.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

end Cert.KernelIdeal.Hand

end
-- ==== Proof.KI.Defs2.lean ====
import proofs.«413074_j63522566307870_1_alg».proof.Proof.Gen.KernelIdeal.Launch
import proofs.«413074_j63522566307870_1_alg».proof.Proof.Gen.KernelIdeal.Skeleton
import proofs.«413074_j63522566307870_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the pooling region

The pooling kernel sums, graph by graph, the rows of the node features: at each of its 25 grid points it takes 2000 rows and
their graph numbers, forms the 0/1 matrix "row r belongs to graph g", and adds its transposed product with the rows to an
accumulator kept in a scratch buffer from point to point. The accumulator is reset at the first point and copied to the
output block at the last one; at the other points the output block is not touched and not written back. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S2000x128 := Rect.unit (s := S2000x128) ![0, 0] S2000x128.size inb_S2000x128_S2000x128_0_0
abbrev rB2 : Rect S2000x1 := Rect.unit (s := S2000x1) ![0, 0] S2000x1.size inb_S2000x1_S2000x1_0_0
abbrev rA2 : Rect S512x128 := Rect.unit (s := S512x128) ![0, 0] S512x128.size inb_S512x128_S512x128_0_0

/-- The scratch buffer the kernel keeps its accumulator in. -/
abbrev scM2 : Memref sig .tc .vmem S512x128 .f32 := Memref.whole cc2_scratch0

/-- One point's update of the accumulator: the rows' block `x`, their graph numbers `b`, the accumulator `s` before. -/
def step2 (x : Vec F S2000x128 .f32) (b : Vec F S2000x1 .i32) (s : Vec F S512x128 .f32) : Vec F S512x128 .f32 :=
  k2_pay2 b x s

/-- The accumulator after the body at point `n`: reset to the kernel's zero splat at point 0, then updated by every point's
    block in turn. -/
def sAt2 (c : Dev nD) : (n : ℕ) → n < cfg2.N → Vec F S512x128 .f32
  | 0, h => step2 (iblk2 V c 0 ⟨0, h⟩) (iblk2 V c 1 ⟨0, h⟩) (k2_pay1 (F := F))
  | n + 1, h => step2 (iblk2 V c 0 ⟨n + 1, h⟩) (iblk2 V c 1 ⟨n + 1, h⟩) (sAt2 c n (Nat.lt_of_succ_lt h))

theorem sAt2_zero (c : Dev nD) (h : 0 < cfg2.N) :
    sAt2 V c 0 h = step2 (iblk2 V c 0 ⟨0, h⟩) (iblk2 V c 1 ⟨0, h⟩) (k2_pay1 (F := F)) := rfl
theorem sAt2_succ (c : Dev nD) (n : ℕ) (h : n + 1 < cfg2.N) :
    sAt2 V c (n + 1) h = step2 (iblk2 V c 0 ⟨n + 1, h⟩) (iblk2 V c 1 ⟨n + 1, h⟩) (sAt2 V c n (Nat.lt_of_succ_lt h)) := rfl

/-- A scoped buffer of the core held whole at some contents. -/
def anyAt (c : Dev nD) (r : Ref sig .tc) : sProp 𝕄 :=
  iprop(∃ f : Buf (Elt F) ((c : Thread nD τ).loc r), ((c : Thread nD τ).loc r) ↦{fullShare} f)

/-- The core's scoped buffers other than this region's staging buffers and its accumulator, each at some contents. -/
def rest2 (c : Dev nD) : sProp 𝕄 :=
  iprop(anyAt (F := F) c cc0_stg0_0 ∗ anyAt (F := F) c cc0_stg0_1 ∗ anyAt (F := F) c cc0_stg1_0 ∗ anyAt (F := F) c cc0_stg2_0 ∗ anyAt (F := F) c cc0_stg2_1 ∗ anyAt (F := F) c cc1_stg0_0 ∗ anyAt (F := F) c cc1_stg0_1 ∗ anyAt (F := F) c cc1_stg1_0 ∗ anyAt (F := F) c cc1_stg2_0 ∗ anyAt (F := F) c cc1_stg2_1 ∗ anyAt (F := F) c cc3_stg0_0 ∗ anyAt (F := F) c cc3_stg1_0 ∗ anyAt (F := F) c cc3_stg2_0 ∗ anyAt (F := F) c cc3_stg3_0 ∗ anyAt (F := F) c cc3_stg4_0 ∗ anyAt (F := F) c cc3_stg5_0)

/-- The region's invariant before position `n`: before the first point everything scoped is at some contents; afterwards the
    accumulator holds what the point before left, the other scoped buffers and the generator register are at some state. -/
def PhiS2 (c : Dev nD) : (n : ℕ) → n ≤ cfg2.N → sProp 𝕄
  | 0, _ => Pipeline.ΦA spec2 c
  | n + 1, hn => iprop(rest2 (F := F) c ∗ owns (c : Thread nD τ) scM2 fullShare (sAt2 V c n hn) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(rest2 (F := F) c ∗ owns (c : Thread nD τ) scM2 fullShare (sAt2 V c n hn) ∗ (∃ r, prngReg c r)) := rfl
theorem PhiS2_pos (c : Dev nD) (n : ℕ) (h : n ≤ cfg2.N) (hz : n ≠ 0) :
    PhiS2 V c n h = iprop(rest2 (F := F) c ∗ owns (c : Thread nD τ) scM2 fullShare (sAt2 V c (n - 1) (by omega)) ∗ (∃ r, prngReg c r)) := by
  cases n with
  | zero => exact absurd rfl hz
  | succ n => rfl

/-- Region 2's proof data on core `c`: the output block after the body is the accumulator (it is stored there at the last
    point only; at the other points the window is idle and this entry is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => sAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = sAt2 V c t.val t.isLt := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Region2

end Cert.KernelIdeal.Hand

end
-- ==== Proof.KI.Vals.lean ====
import proofs.«413074_j63522566307870_1_alg».proof.Proof.KI.Defs
import proofs.«413074_j63522566307870_1_alg».proof.Proof.KI.Defs2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of the core's buffers between the items of the program

The program is: region 0, six stretches of host operations, region 1, seven stretches, region 2, one stretch, region 3.
`W J` is what core `c`'s unscoped buffers hold after item `J - 1`: the launch memory, then after a region its arrays at what
its write-backs leave (every other buffer as before), after a host stretch what the stretch computes. -/

variable (m : (ℓ : Loc nD τ sig) → Buf (Elt F) ℓ) (ρ : Dev nD → PrngReg)

/-- A valuation read at the TensorCore's references (what a region's proof data take). -/
abbrev rd (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => (s₀ m ρ).mem ((c : Dev nD), b)
/-- After region 0: its arrays at what its pipeline leaves. -/
def W1 (c : Dev nD) : Valuation τ sig (Elt F) :=
  Pipeline.withArrays spec0 c (W0 m ρ c) fun w => (dat0 (rd (W0 m ρ)) c).arrAt w cfg0.N
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
abbrev W7 : Dev nD → Valuation τ sig (Elt F) := fun c => StableHlo.after hostOps1_5 (W6 m ρ c)
/-- After region 1. -/
def W8 (c : Dev nD) : Valuation τ sig (Elt F) :=
  Pipeline.withArrays spec1 c (W7 m ρ c) fun w => (dat1 (rd (W7 m ρ)) c).arrAt w cfg1.N
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev W12 : Dev nD → Valuation τ sig (Elt F) := fun c => StableHlo.after hostOps2_3 (W11 m ρ c)
abbrev W13 : Dev nD → Valuation τ sig (Elt F) := fun c => StableHlo.after hostOps2_4 (W12 m ρ c)
abbrev W14 : Dev nD → Valuation τ sig (Elt F) := fun c => StableHlo.after hostOps2_5 (W13 m ρ c)
abbrev W15 : Dev nD → Valuation τ sig (Elt F) := fun c => StableHlo.after hostOps2_6 (W14 m ρ c)
/-- After region 2. -/
def W16 (c : Dev nD) : Valuation τ sig (Elt F) :=
  Pipeline.withArrays spec2 c (W15 m ρ c) fun w => (dat2 (rd (W15 m ρ)) c).arrAt w cfg2.N
abbrev W17 : Dev nD → Valuation τ sig (Elt F) := fun c => StableHlo.after hostOps3 (W16 m ρ c)
/-- After region 3: the end of the program. -/
def W18 (c : Dev nD) : Valuation τ sig (Elt F) :=
  Pipeline.withArrays spec3 c (W17 m ρ c) fun w => (dat3 (rd (W17 m ρ)) c).arrAt w cfg3.N

theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W8_arr (c : Dev nD) (w : Fin cfg1.W) :
    W8 m ρ c (Proc.devRef .tc (Pipeline.arrRef spec1 w)) = (dat1 (rd (W7 m ρ)) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W16_arr (c : Dev nD) (w : Fin cfg2.W) :
    W16 m ρ c (Proc.devRef .tc (Pipeline.arrRef spec2 w)) = (dat2 (rd (W15 m ρ)) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem W18_arr (c : Dev nD) (w : Fin cfg3.W) :
    W18 m ρ c (Proc.devRef .tc (Pipeline.arrRef spec3 w)) = (dat3 (rd (W17 m ρ)) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb

end Cert.KernelIdeal.Hand

end
-- ==== Proof.KI.Body0.lean ====
import proofs.«413074_j63522566307870_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation of the dense projection

The kernel loads its row block and the weight matrix whole, loads its output block once (a value it never uses), and
stores the product whole into the output block. So after the body an input's staging buffer holds its block and the
output's holds the one whole store of the product of the two blocks. -/

/-! ## What the body finds in each input window's buffer -/

/-- The row block's current staging buffer holds its block at every point: the window is fetched at every point,
    uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the matrix at every point, though it is fetched at the first point
    only: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents `x0`, `x1` and the output's at anything,
    runs to the continuation holding the inputs' as they were and the output's at `out0_2` of the inputs': the one
    whole store covers the block, so what was there before (and what the unused load read) does not matter. -/
theorem sound_kernel0 (c : Dev nD) (E : Set ℕ) (i : grid0.Coords)
    (arg1 : Memref sig .tc .vmem S5000x64 .f32) (harg1 : arg1.IsWhole)
    (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body of region 0 at every grid point, against the region's proof data. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«413074_j63522566307870_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body obligation of the dense projection

The kernel loads its row block and the weight matrix whole, loads its output block once (a value it never uses), and
stores the product whole into the output block. So after the body an input's staging buffer holds its block and the
output's holds the one whole store of the product of the two blocks. -/

/-! ## What the body finds in each input window's buffer -/

/-- The row block's current staging buffer holds its block at every point: the window is fetched at every point,
    uncut and never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the matrix at every point, though it is fetched at the first point
    only: where it is not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The kernel body on whole staging memrefs, the inputs' at read contents `x0`, `x1` and the output's at anything,
    runs to the continuation holding the inputs' as they were and the output's at `out1_2` of the inputs': the one
    whole store covers the block, so what was there before (and what the unused load read) does not matter. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body of region 1 at every grid point, against the region's proof data. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«413074_j63522566307870_1_alg».proof.Proof.KI.Defs2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid

The body resets its accumulator when the grid coordinate is 0 and copies it to the output block when the coordinate
is 24; both conditions are words computed from the coordinate, decided here at each of the 25 points. -/

/-- The condition of the reset: the coordinate compared with 0, widened, compared with 0 again. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the copy to the output block. -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off the last point the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The staging memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)

/-! ## Loads and stores through a whole buffer

Every load and store of the body goes through the rectangle that is the whole of its buffer: a load reads the
contents, a store leaves its value whatever was there. -/

/-- The offsets of the whole-buffer rectangle are zero. -/
theorem off2 : (![0, 0] : Fin 2 → ℕ) = fun _ => 0 := funext fun a => by fin_cases a <;> rfl

/-- A store through the accumulator's whole rectangle, last in a list of stores, covers every index. -/
theorem cover_rA2 (w : Vec F S512x128 .f32) (L : List (View.Piece (Elt F) S512x128 .f32)) (y : S512x128.Idx) :
    ∃ pc ∈ ((⟨rA2, w⟩ : View.Piece (Elt F) S512x128 .f32) :: L), y ∈ pc.1.set :=
  ⟨_, List.mem_cons_self, View.mem_set_unit_zero off2 inb_S512x128_S512x128_0_0 y⟩

/-! ## The body's run, case by case

The body is run on whole memrefs: the two input blocks at contents `x` (the rows) and `b` (their graph numbers),
the output block, the accumulator. -/

set_option maxHeartbeats 1000000 in
/-- A point that is neither the first nor the last: the accumulator at `s` becomes `step2 x b s`; the output block is
    handed back as it was found. -/
theorem run2_B (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : ¬cond2_0 i) (hc1 : ¬cond2_1 i)
    (x : Vec F S2000x128 .f32) (b : Vec F S2000x1 .i32) (xi : Vec F S512x128 .f32) (s : Vec F S512x128 .f32)
    (E : Set ℕ) (K : PUnit → sProp 𝕄) :
    iprop(owns (c : Thread nD τ) arg1 fullShare x ∗ owns (c : Thread nD τ) arg2 fullShare b ∗ owns (c : Thread nD τ) arg3 fullShare xi
        ∗ owns (c : Thread nD τ) arg4 fullShare s
        ∗ (iprop(owns (c : Thread nD τ) arg1 fullShare x ∗ owns (c : Thread nD τ) arg2 fullShare b ∗ owns (c : Thread nD τ) arg3 fullShare xi
            ∗ owns (c : Thread nD τ) arg4 fullShare (step2 x b s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread, harg4.read_unread,
    View.ld_unit_zero (S := S2000x128) off2, View.ld_unit_zero (S := S2000x1) off2, View.ld_unit_zero (S := S512x128) off2]
  rfl

set_option maxHeartbeats 1000000 in
/-- The first point: whatever the accumulator held, it is reset to the zero splat and then updated, so it ends at
    `step2 x b k2_pay1`; the output block is handed back as it was found. -/
theorem run2_A (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : cond2_0 i) (hc1 : ¬cond2_1 i)
    (x : Vec F S2000x128 .f32) (b : Vec F S2000x1 .i32) (xi : Vec F S512x128 .f32)
    (E : Set ℕ) (K : PUnit → sProp 𝕄) :
    iprop(owns (c : Thread nD τ) arg1 fullShare x ∗ owns (c : Thread nD τ) arg2 fullShare b ∗ owns (c : Thread nD τ) arg3 fullShare xi
        ∗ (∃ d, owns (c : Thread nD τ) arg4 fullShare d)
        ∗ (iprop(owns (c : Thread nD τ) arg1 fullShare x ∗ owns (c : Thread nD τ) arg2 fullShare b ∗ owns (c : Thread nD τ) arg3 fullShare xi
            ∗ owns (c : Thread nD τ) arg4 fullShare (step2 x b (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread,
    View.ld_unit_zero (S := S2000x128) off2, View.ld_unit_zero (S := S2000x1) off2, View.ld_unit_zero (S := S512x128) off2,
    View.readCov_unit_zero (S := S512x128) _ off2]
  rfl

set_option maxHeartbeats 1000000 in
/-- The last point: the accumulator at `s` becomes `step2 x b s`, and that value is copied to the output block,
    whatever it held. -/
theorem run2_C (c : Dev nD) (i : grid2.Coords) (arg1 : Memref sig .tc .vmem S2000x128 .f32) (harg1 : arg1.IsWhole)
    (arg2 : Memref sig .tc .vmem S2000x1 .i32) (harg2 : arg2.IsWhole) (arg3 : Memref sig .tc .vmem S512x128 .f32) (harg3 : arg3.IsWhole)
    (arg4 : Memref sig .tc .vmem S512x128 .f32) (harg4 : arg4.IsWhole) (hc0 : ¬cond2_0 i) (hc1 : cond2_1 i)
    (x : Vec F S2000x128 .f32) (b : Vec F S2000x1 .i32) (s : Vec F S512x128 .f32)
    (E : Set ℕ) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s
        ∗ (iprop(owns (c : Thread nD τ) arg1 fullShare x ∗ owns (c : Thread nD τ) arg2 fullShare b ∗ owns (c : Thread nD τ) arg3 fullShare (step2 x b s)
            ∗ owns (c : Thread nD τ) arg4 fullShare (step2 x b s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [View.read_writes_eq_canon _ _ _ (cover_rA2 _ _), View.canon_cons_unit_zero off2]
    simp only [View.readAt_eq_ld, harg1.read_unread, harg2.read_unread, harg4.read_unread,
      View.ld_unit_zero (S := S2000x128) off2, View.ld_unit_zero (S := S2000x1) off2, View.ld_unit_zero (S := S512x128) off2,
      View.readCov_unit_zero (S := S512x128) _ off2]
    rfl
  iexists _; isplitr
  swap; · iexact H4
  ipureintro
  sl_unfold_words
  rw [View.read_writes_eq_canon _ _ _ (cover_rA2 _ _), View.canon_cons_unit_zero off2]
  simp only [View.readAt_eq_ld, harg1.read_unread, harg2.read_unread, harg4.read_unread,
    View.ld_unit_zero (S := S2000x128) off2, View.ld_unit_zero (S := S2000x1) off2, View.ld_unit_zero (S := S512x128) off2]
  rfl

/-! ## The class invariant with the accumulator set apart -/

/-- What the launch hands the region, regrouped: the sixteen other scoped buffers, the accumulator's buffer at some
    contents, the generator register at some state — one direction, -/
theorem PhiA2_split (c : Dev nD) :
    (Pipeline.ΦA spec2 c : sProp 𝕄) ⊢ iprop(rest2 (F := F) c ∗ (∃ d, owns (c : Thread nD τ) scM2 fullShare d) ∗ (∃ r, prngReg c r)) := by
  unfold Pipeline.ΦA; rw [scopedRest2_eq]; unfold rest2 anyAt; simp only [owns_whole]
  iintro ⟨⟨A0, A1, A2, A3, A4, A5, A6, A7, A8, A9, AS, B0, B1, B2, B3, B4, B5⟩, Hg⟩
  isplitl [A0 A1 A2 A3 A4 A5 A6 A7 A8 A9 B0 B1 B2 B3 B4 B5]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    iexact B5
  isplitl [AS]; · iexact AS
  iexact Hg

/-- the other, -/
theorem PhiA2_join (c : Dev nD) :
    iprop(rest2 (F := F) c ∗ (∃ d, owns (c : Thread nD τ) scM2 fullShare d) ∗ (∃ r, prngReg c r)) ⊢ (Pipeline.ΦA spec2 c : sProp 𝕄) := by
  unfold Pipeline.ΦA; rw [scopedRest2_eq]; unfold rest2 anyAt; simp only [owns_whole]
  iintro ⟨⟨A0, A1, A2, A3, A4, A5, A6, A7, A8, A9, B0, B1, B2, B3, B4, B5⟩, AS, Hg⟩
  isplitl [A0 A1 A2 A3 A4 A5 A6 A7 A8 A9 AS B0 B1 B2 B3 B4 B5]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [AS]; · iexact AS
    isplitl [B0]; · iexact B0
    isplitl [B1]; · iexact B1
    isplitl [B2]; · iexact B2
    isplitl [B3]; · iexact B3
    isplitl [B4]; · iexact B4
    iexact B5
  iexact Hg

/-- and the two as an equation. -/
theorem PhiA2_eq (c : Dev nD) :
    (Pipeline.ΦA spec2 c : sProp 𝕄) = iprop(rest2 (F := F) c ∗ (∃ d, owns (c : Thread nD τ) scM2 fullShare d) ∗ (∃ r, prngReg c r)) :=
  BI.equiv_iff.mp ⟨PhiA2_split c, PhiA2_join c⟩

/-! ## The accumulator at a point, from the point before -/

theorem sAt2_first (c : Dev nD) (t : Fin cfg2.N) (h0 : t.val = 0) :
    sAt2 V c t.val t.isLt = step2 (iblk2 V c 0 t) (iblk2 V c 1 t) (k2_pay1 (F := F)) := by
  obtain ⟨n, hn⟩ := t
  cases n with
  | zero => rfl
  | succ n => exact absurd h0 (Nat.succ_ne_zero n)

theorem sAt2_later (c : Dev nD) (t : Fin cfg2.N) (h0 : t.val ≠ 0) :
    sAt2 V c t.val t.isLt
      = step2 (iblk2 V c 0 t) (iblk2 V c 1 t) (sAt2 V c (t.val - 1) (Nat.lt_of_le_of_lt (Nat.sub_le _ _) t.isLt)) := by
  obtain ⟨n, hn⟩ := t
  cases n with
  | zero => exact absurd rfl h0
  | succ n => rfl

/-! ## What the body finds in the input windows -/

/-- Each input's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the three cases of the point: the first (the accumulator, at anything, is reset and
    updated), a middle one (the accumulator at what the point before left is updated), the last (updated and copied
    to the output block). Off the last point the output block is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 25 := lt_of_lt_of_eq t.isLt (show cfg2.N = 25 from N_2)
  by_cases h1 : t.val = 24
  · have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [PhiS2_castSucc V c t, PhiS2_pos V c _ _ hz, sAt2_later V c t hz]
    iintro ⟨⟨Hr, HS, Hg⟩, Ho, ⟨%d0, H0⟩, ⟨%d1, H1⟩, ⟨%d2, H2⟩⟩
    iapply (run2_C c (grid2.coords t) _ _ _ _ _ _ _ _ (fun h => hz ((hcond2_0 t).mp h)) ((hcond2_1 t).mpr h1)
      (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr]; · iexact Hr
      isplitl [HS]; · iexact HS
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases hz : t.val = 0
    · rw [PhiS2_castSucc V c t, PhiS2_zero V c _ _ hz, PhiA2_eq, sAt2_first V c t hz]
      iintro ⟨⟨Hr, HS, Hg⟩, Ho, ⟨%d0, H0⟩, ⟨%d1, H1⟩, ⟨%d2, H2⟩⟩
      iapply (run2_A c (grid2.coords t) _ _ _ _ _ _ _ _ ((hcond2_0 t).mpr hz) (fun h => h1 ((hcond2_1 t).mp h))
        (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · rw [PhiS2_castSucc V c t, PhiS2_pos V c _ _ hz, sAt2_later V c t hz]
      iintro ⟨⟨Hr, HS, Hg⟩, Ho, ⟨%d0, H0⟩, ⟨%d1, H1⟩, ⟨%d2, H2⟩⟩
      iapply (run2_B c (grid2.coords t) _ _ _ _ _ _ _ _ (fun h => hz ((hcond2_0 t).mp h)) (fun h => h1 ((hcond2_1 t).mp h))
        (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

/-- The body of region 2 at every grid point, against the region's proof data. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 (F := F) V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 (F := F) V c).Φ (Fin.last cfg2.N)
      = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨Hr, HS, Hg⟩
  isplitl [Hr]; · iexact Hr
  isplitl [HS]; · iexists _; iexact HS
  iexact Hg

end Cert.KernelIdeal.Hand

end
-- ==== Proof.KI.Body3.lean ====
import proofs.«413074_j63522566307870_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3, the two-layer head: the body's triple and the body obligation -/

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 1000000 in
/-- The head's body on whole staging memrefs, the five inputs' at read contents `x0 … x4` and the output's at anything,
    runs to the continuation holding the inputs' as they were and the output's at `out3_5` of the inputs': five whole
    loads, one whole load of the output block whose value is not used, and one whole store of the payload. -/
theorem sound_kernel3 (c : Dev nD) (E : Set ℕ) (i : grid3.Coords)
    (arg0 : Memref sig .tc .vmem S512x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole)
    (x0 : Vec F S512x128 .f32) (x1 : Vec F S128x128 .f32) (x2 : Vec F S1x128 .f32) (x3 : Vec F S128x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- Each input's current staging buffer holds its block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at the point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body of region 3 at every grid point, against the region's proof data. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«413074_j63522566307870_1_alg».proof.Proof.KI.Vals
import proofs.«413074_j63522566307870_1_alg».proof.Proof.KI.Body0
import proofs.«413074_j63522566307870_1_alg».proof.Proof.KI.Body1
import proofs.«413074_j63522566307870_1_alg».proof.Proof.KI.Body2
import proofs.«413074_j63522566307870_1_alg».proof.Proof.KI.Body3
import proofs.«413074_j63522566307870_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of the whole program

The program is eighteen items: four kernel regions among fourteen stretches of host operations. Between two items a
core holds every unscoped buffer whole at the boundary's contents `W J`, beside its generator register at some state
and the record that it owes nothing. A host stretch takes the contents to what it computes; a region takes its arrays
out of the unscoped buffers, runs its pipeline, and puts them back at what the pipeline leaves. -/

/-! ## What a region leaves: its arrays at the pipeline's last contents, every other buffer as entered -/

theorem exitArr0 (c : Dev nD) (w : Fin cfg0.W) :
    (dat0 (rd (W0 m ρ)) c).arrAt w cfg0.N = rd (W1 m ρ) c (Pipeline.arrRef spec0 w) := (W1_arr m ρ c w).symm
theorem exitRest0 (c : Dev nD) : ∀ b, b ∉ Finset.univ.image (Pipeline.arrRef spec0) → rd (W1 m ρ) c b = rd (W0 m ρ) c b :=
  fun b hb => W1_of_ne m ρ c b fun w e => hb (Finset.mem_image.mpr ⟨w, Finset.mem_univ _, e⟩)
theorem exitArr1 (c : Dev nD) (w : Fin cfg1.W) :
    (dat1 (rd (W7 m ρ)) c).arrAt w cfg1.N = rd (W8 m ρ) c (Pipeline.arrRef spec1 w) := (W8_arr m ρ c w).symm
theorem exitRest1 (c : Dev nD) : ∀ b, b ∉ Finset.univ.image (Pipeline.arrRef spec1) → rd (W8 m ρ) c b = rd (W7 m ρ) c b :=
  fun b hb => W8_of_ne m ρ c b fun w e => hb (Finset.mem_image.mpr ⟨w, Finset.mem_univ _, e⟩)
theorem exitArr2 (c : Dev nD) (w : Fin cfg2.W) :
    (dat2 (rd (W15 m ρ)) c).arrAt w cfg2.N = rd (W16 m ρ) c (Pipeline.arrRef spec2 w) := (W16_arr m ρ c w).symm
theorem exitRest2 (c : Dev nD) : ∀ b, b ∉ Finset.univ.image (Pipeline.arrRef spec2) → rd (W16 m ρ) c b = rd (W15 m ρ) c b :=
  fun b hb => W16_of_ne m ρ c b fun w e => hb (Finset.mem_image.mpr ⟨w, Finset.mem_univ _, e⟩)
theorem exitArr3 (c : Dev nD) (w : Fin cfg3.W) :
    (dat3 (rd (W17 m ρ)) c).arrAt w cfg3.N = rd (W18 m ρ) c (Pipeline.arrRef spec3 w) := (W18_arr m ρ c w).symm
theorem exitRest3 (c : Dev nD) : ∀ b, b ∉ Finset.univ.image (Pipeline.arrRef spec3) → rd (W18 m ρ) c b = rd (W17 m ρ) c b :=
  fun b hb => W18_of_ne m ρ c b fun w e => hb (Finset.mem_image.mpr ⟨w, Finset.mem_univ _, e⟩)

/-! ## The proof data family and the thread state -/

/-- Every pipeline's proof data, each at its region's entry contents. -/
def regionDats : (p : Fin 4) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W7 m ρ)) c
  | ⟨2, _⟩ => fun c => dat2 (rd (W15 m ρ)) c
  | ⟨3, _⟩ => fun c => dat3 (rd (W17 m ρ)) c
abbrev noVariants : Variants := Variants.none
/-- No core owes another anything: no level is assigned. -/
abbrev noLevels : GSem nD τ sig → Finset Unit := fun _ => ∅
abbrev zeroLevel : GSem nD τ sig → Unit → ℕ := fun _ _ => 0
/-- What rides beside the buffers through every item: the core's generator register at some state and the record that
    it owes nothing. -/
abbrev riding (c : Dev nD) : sProp 𝕄 := iprop((∃ r, prngReg c r) ∗ ∃ W, owes (c : Thread nD τ) (0 : CellTallies nD τ sig Unit) W)
/-- A host stretch as a segment over the unscoped references from the contents `W`, `riding` beside them: it runs to
    those references at `StableHlo.after ops (W c)`, the next boundary's contents. -/
abbrev stretchSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- The last thread state without the record of owing nothing: every unscoped buffer at the last boundary's contents,
    the generator register at some state. -/
abbrev lastState (c : Dev nD) : sProp 𝕄 := iprop(StableHlo.held (c : Thread nD τ) (Pipeline.ucRefs τ sig) (W18 m ρ c) ∗ ∃ r, prngReg c r)

/-! ## The regions as segments -/

-- a library lemma stated over the pinned configuration of a pipeline unifies with the printed configuration only when
-- unification may unfold plain definitions in a metavariable's type
set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def regionSeg0 : Pipeline.RegionSeg (pcfgs (F := F)) adm (regionDats m ρ) () defs₀ noVariants noLevels zeroLevel 0 where
  win := launch0.win.to₀
  block_pos := launch0.block_pos
  stage_whole := launch0.stage_whole
  K := PEmpty
  osem k := k.elim
  ho := Pipeline.OwnSemFacts.none _
  hbody c := (body_obligation0 (rd (W0 m ρ)) c).loose
  hwaits := Pipeline.hwaits_of_owed_zero _ _ _ _ noLevels zeroLevel 0 fun _ _ => rfl
  pre c := iprop(StableHlo.held (c : Thread nD τ) (Pipeline.ucRefs τ sig) (W0 m ρ c) ∗ riding c)
  post c := iprop(StableHlo.held (c : Thread nD τ) (Pipeline.ucRefs τ sig) (W1 m ρ c) ∗ riding c)
  X c := iprop(∃ r, prngReg c r)
  Y c := iprop(∃ r, prngReg c r)
  Z c := Pipeline.unscopedRest (Ix := Unit) (Name := ℕ) (U := UR sig nD τ) (Lvl := ℕ) spec0 c (rd (W0 m ρ) c)
  hentry c := by
    rw [Pipeline.ownSems0_none]
    have hsplit := Pipeline.arrays_of_unscopedBufs (p := 0) (pcfgs (F := F)) adm (regionDats m ρ) launch0.win launch0.arr_whole c
      ((regionDats m ρ 0 c).share_full fun _ => rfl) (rd (W0 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionDats m ρ) ((regionDats m ρ 0 c).share_full fun _ => rfl)
      (rd (W0 m ρ) c) (rd (W1 m ρ) c) ((regionDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 1 over the thread state: entered from every unscoped buffer at `W7`, left at `W8`. Its arrays are
    split out of the unscoped buffers and put back at the exit contents; the generator register goes into the region's
    invariant and comes back; nothing is owed; the kernel has no semaphore of its own. -/
def regionSeg1 : Pipeline.RegionSeg (pcfgs (F := F)) adm (regionDats m ρ) () defs₀ noVariants noLevels zeroLevel 1 where
  win := launch1.win.to₀
  block_pos := launch1.block_pos
  stage_whole := launch1.stage_whole
  K := PEmpty
  osem k := k.elim
  ho := Pipeline.OwnSemFacts.none _
  hbody c := (body_obligation1 (rd (W7 m ρ)) c).loose
  hwaits := Pipeline.hwaits_of_owed_zero _ _ _ _ noLevels zeroLevel 1 fun _ _ => rfl
  pre c := iprop(StableHlo.held (c : Thread nD τ) (Pipeline.ucRefs τ sig) (W7 m ρ c) ∗ riding c)
  post c := iprop(StableHlo.held (c : Thread nD τ) (Pipeline.ucRefs τ sig) (W8 m ρ c) ∗ riding c)
  X c := iprop(∃ r, prngReg c r)
  Y c := iprop(∃ r, prngReg c r)
  Z c := Pipeline.unscopedRest (Ix := Unit) (Name := ℕ) (U := UR sig nD τ) (Lvl := ℕ) spec1 c (rd (W7 m ρ) c)
  hentry c := by
    rw [Pipeline.ownSems0_none]
    have hsplit := Pipeline.arrays_of_unscopedBufs (p := 1) (pcfgs (F := F)) adm (regionDats m ρ) launch1.win launch1.arr_whole c
      ((regionDats m ρ 1 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionDats m ρ) ((regionDats m ρ 1 c).share_full fun _ => rfl)
      (rd (W7 m ρ) c) (rd (W8 m ρ) c) ((regionDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 2 over the thread state: entered from every unscoped buffer at `W15`, left at `W16`. Its arrays are
    split out of the unscoped buffers and put back at the exit contents; the generator register goes into the region's
    invariant and comes back; nothing is owed; the kernel has no semaphore of its own. -/
def regionSeg2 : Pipeline.RegionSeg (pcfgs (F := F)) adm (regionDats m ρ) () defs₀ noVariants noLevels zeroLevel 2 where
  win := launch2.win.to₀
  block_pos := launch2.block_pos
  stage_whole := launch2.stage_whole
  K := PEmpty
  osem k := k.elim
  ho := Pipeline.OwnSemFacts.none _
  hbody c := (body_obligation2 (rd (W15 m ρ)) c).loose
  hwaits := Pipeline.hwaits_of_owed_zero _ _ _ _ noLevels zeroLevel 2 fun _ _ => rfl
  pre c := iprop(StableHlo.held (c : Thread nD τ) (Pipeline.ucRefs τ sig) (W15 m ρ c) ∗ riding c)
  post c := iprop(StableHlo.held (c : Thread nD τ) (Pipeline.ucRefs τ sig) (W16 m ρ c) ∗ riding c)
  X c := iprop(∃ r, prngReg c r)
  Y c := iprop(∃ r, prngReg c r)
  Z c := Pipeline.unscopedRest (Ix := Unit) (Name := ℕ) (U := UR sig nD τ) (Lvl := ℕ) spec2 c (rd (W15 m ρ) c)
  hentry c := by
    rw [Pipeline.ownSems0_none]
    have hsplit := Pipeline.arrays_of_unscopedBufs (p := 2) (pcfgs (F := F)) adm (regionDats m ρ) launch2.win launch2.arr_whole c
      ((regionDats m ρ 2 c).share_full fun _ => rfl) (rd (W15 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (regionDats m ρ 2 c).Φ 0 from hin2 (rd (W15 m ρ)) c)
    unfold Pipeline.ΦA
    iintro ⟨Hp, -, Hr⟩
    isplitl [Hr]; · iexact Hr
    iexact Hp
  hout c := by
    refine (show (regionDats m ρ 2 c).Φ (Fin.last _) ⊢ Pipeline.ΦA spec2 c from hout2 (rd (W15 m ρ)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (regionDats m ρ) ((regionDats m ρ 2 c).share_full fun _ => rfl)
      (rd (W15 m ρ) c) (rd (W16 m ρ) c) ((regionDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed configuration only when
-- unification may unfold plain definitions in a metavariable's type
set_option backward.isDefEq.respectTransparency.types false in
/-- Region 3 over the thread state: entered from every unscoped buffer at `W17`, left at `W18`. Its arrays are
    split out of the unscoped buffers and put back at the exit contents; the generator register goes into the region's
    invariant and comes back; nothing is owed; the kernel has no semaphore of its own. -/
def regionSeg3 : Pipeline.RegionSeg (pcfgs (F := F)) adm (regionDats m ρ) () defs₀ noVariants noLevels zeroLevel 3 where
  win := launch3.win.to₀
  block_pos := launch3.block_pos
  stage_whole := launch3.stage_whole
  K := PEmpty
  osem k := k.elim
  ho := Pipeline.OwnSemFacts.none _
  hbody c := (body_obligation3 (rd (W17 m ρ)) c).loose
  hwaits := Pipeline.hwaits_of_owed_zero _ _ _ _ noLevels zeroLevel 3 fun _ _ => rfl
  pre c := iprop(StableHlo.held (c : Thread nD τ) (Pipeline.ucRefs τ sig) (W17 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (rd (W17 m ρ) c)
  hentry c := by
    rw [Pipeline.ownSems0_none]
    have hsplit := Pipeline.arrays_of_unscopedBufs (p := 3) (pcfgs (F := F)) adm (regionDats m ρ) launch3.win launch3.arr_whole c
      ((regionDats m ρ 3 c).share_full fun _ => rfl) (rd (W17 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (regionDats m ρ) ((regionDats m ρ 3 c).share_full fun _ => rfl)
      (rd (W17 m ρ) c) (rd (W18 m ρ) c) ((regionDats m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eighteen items in order: a region per kernel call, a host segment per stretch from its boundary's
    contents. -/
abbrev itemSegs : List (Pipeline.Seg (pcfgs (F := F)) adm (regionDats m ρ) () defs₀ noVariants noLevels zeroLevel) :=
  [
    .region (regionSeg0 m ρ),
    .host (stretchSeg hostOps1 hostOps1_sub hostOps1_fresh (W1 m ρ)),
    .host (stretchSeg hostOps1_1 hostOps1_1_sub hostOps1_1_fresh (W2 m ρ)),
    .host (stretchSeg hostOps1_2 hostOps1_2_sub hostOps1_2_fresh (W3 m ρ)),
    .host (stretchSeg hostOps1_3 hostOps1_3_sub hostOps1_3_fresh (W4 m ρ)),
    .host (stretchSeg hostOps1_4 hostOps1_4_sub hostOps1_4_fresh (W5 m ρ)),
    .host (stretchSeg hostOps1_5 hostOps1_5_sub hostOps1_5_fresh (W6 m ρ)),
    .region (regionSeg1 m ρ),
    .host (stretchSeg hostOps2 hostOps2_sub hostOps2_fresh (W8 m ρ)),
    .host (stretchSeg hostOps2_1 hostOps2_1_sub hostOps2_1_fresh (W9 m ρ)),
    .host (stretchSeg hostOps2_2 hostOps2_2_sub hostOps2_2_fresh (W10 m ρ)),
    .host (stretchSeg hostOps2_3 hostOps2_3_sub hostOps2_3_fresh (W11 m ρ)),
    .host (stretchSeg hostOps2_4 hostOps2_4_sub hostOps2_4_fresh (W12 m ρ)),
    .host (stretchSeg hostOps2_5 hostOps2_5_sub hostOps2_5_fresh (W13 m ρ)),
    .host (stretchSeg hostOps2_6 hostOps2_6_sub hostOps2_6_fresh (W14 m ρ)),
    .region (regionSeg2 m ρ),
    .host (stretchSeg hostOps3 hostOps3_sub hostOps3_fresh (W16 m ρ)),
    .region (regionSeg3 m ρ) ]

-- the launch theorem's implicit arguments are found by unifying its conclusion with this one, which takes unfolding
-- plain definitions in a metavariable's type
set_option backward.isDefEq.respectTransparency.types false in
/-- THE RUN. From any memory with zero counters every weakly fair execution of the program terminates, nothing faulting, and
    every unscoped buffer of every core ends at the last boundary's contents `W18`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W18 m ρ c b) :=
  Pipeline.θ_run_regions_kit (pcfgs (F := F)) adm (regionDats m ρ) () cellOf_inj emb₁ defs₀ noVariants noLevels zeroLevel m ρ main (itemSegs m ρ)
    (fun c Q => by
      rewrite [main_chain c, Pipeline.Seg.run_eq_chain,
        show (itemSegs m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3,
          Prog.lift (.customCall (Pipeline.entry 3) ()) ] from rfl]
      exact .rfl)
    (by simp only [itemSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLevels zeroLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

end Cert.KernelIdeal.Hand

end
-- ==== Proof.KI.Keep.lean ====
import proofs.«413074_j63522566307870_1_alg».proof.Proof.KI.Vals
import proofs.«413074_j63522566307870_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What no item writes keeps its launch contents

A host stretch changes only the buffers its operations write; a region changes only its output array, and hands an input
array back as it found it. So a buffer that is none of those holds at every boundary what it held at launch. -/

variable (m : (ℓ : Loc nD τ sig) → Buf (Elt F) ℓ) (ρ : Dev nD → PrngReg)

/-- Through the six host stretches between regions 0 and 1. -/
theorem keep_1_7 (c : Dev nD) (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) :
    W7 m ρ c (Proc.devRef .tc r) = W1 m ρ c (Proc.devRef .tc r) :=
  (StableHlo.after_of_writes_sub hostOps1_5 _ hostOps1_5_writes h6).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- Through the seven host stretches between regions 1 and 2. -/
theorem keep_9_15 (c : Dev nD) (r : Ref sig .tc) (h1 : r ∉ hostOps2_W) (h2 : r ∉ hostOps2_1_W) (h3 : r ∉ hostOps2_2_W)
    (h4 : r ∉ hostOps2_3_W) (h5 : r ∉ hostOps2_4_W) (h6 : r ∉ hostOps2_5_W) (h7 : r ∉ hostOps2_6_W) :
    W15 m ρ c (Proc.devRef .tc r) = W8 m ρ c (Proc.devRef .tc r) :=
  (StableHlo.after_of_writes_sub hostOps2_6 _ hostOps2_6_writes h7).trans <|
  (StableHlo.after_of_writes_sub hostOps2_5 _ hostOps2_5_writes h6).trans <|
  (StableHlo.after_of_writes_sub hostOps2_4 _ hostOps2_4_writes h5).trans <|
  (StableHlo.after_of_writes_sub hostOps2_3 _ hostOps2_3_writes h4).trans <|
  (StableHlo.after_of_writes_sub hostOps2_2 _ hostOps2_2_writes h3).trans <|
  (StableHlo.after_of_writes_sub hostOps2_1 _ hostOps2_1_writes h2).trans <|
  (StableHlo.after_of_writes_sub hostOps2 _ hostOps2_writes h1)

/-- Through the host stretch between regions 2 and 3. -/
theorem keep_17 (c : Dev nD) (r : Ref sig .tc) (h1 : r ∉ hostOps3_W) :
    W17 m ρ c (Proc.devRef .tc r) = W16 m ρ c (Proc.devRef .tc r) :=
  StableHlo.after_of_writes_sub hostOps3 _ hostOps3_writes h1

end Cert.KernelIdeal.Hand

end
-- ==== Proof.KI.KeepArgs.lean ====
import proofs.«413074_j63522566307870_1_alg».proof.Proof.KI.Keep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays hold their launch contents at every boundary

No host stretch writes an argument and no region has one as an output, so each of the twelve reads back, at every boundary
where something consumes it, what the launch memory held. -/

variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  ((W1_arr m ρ c 0).trans (((dat0 (rd (W0 m ρ)) c).arrAt_in 0 rfl _).trans (A_eq0 (rd (W0 m ρ)) c 0)))
theorem W7_main_arg0 (c : Dev nD) : W7 m ρ c (Proc.devRef .tc main_arg0) = m ((c : Thread nD τ).loc main_arg0) :=
  (keep_1_7 m ρ c main_arg0 (by decide) (by decide) (by decide) (by decide) (by decide) (by decide)).trans (W1_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W15_main_arg0 (c : Dev nD) : W15 m ρ c (Proc.devRef .tc main_arg0) = m ((c : Thread nD τ).loc main_arg0) :=
  (keep_9_15 m ρ c main_arg0 (by decide) (by decide) (by decide) (by decide) (by decide) (by decide) (by decide)).trans (W8_main_arg0 m ρ c)
theorem W16_main_arg0 (c : Dev nD) : W16 m ρ c (Proc.devRef .tc main_arg0) = m ((c : Thread nD τ).loc main_arg0) :=
  (W16_of_ne m ρ c main_arg0 (by decide)).trans (W15_main_arg0 m ρ c)
theorem W17_main_arg0 (c : Dev nD) : W17 m ρ c (Proc.devRef .tc main_arg0) = m ((c : Thread nD τ).loc main_arg0) :=
  (keep_17 m ρ c main_arg0 (by decide)).trans (W16_main_arg0 m ρ c)
theorem W18_main_arg0 (c : Dev nD) : W18 m ρ c (Proc.devRef .tc main_arg0) = m ((c : Thread nD τ).loc main_arg0) :=
  (W18_of_ne m ρ c main_arg0 (by decide)).trans (W17_main_arg0 m ρ c)

theorem W1_main_arg1 (c : Dev nD) : W1 m ρ c (Proc.devRef .tc main_arg1) = m ((c : Thread nD τ).loc main_arg1) :=
  (W1_of_ne m ρ c main_arg1 (by decide))
theorem W7_main_arg1 (c : Dev nD) : W7 m ρ c (Proc.devRef .tc main_arg1) = m ((c : Thread nD τ).loc main_arg1) :=
  (keep_1_7 m ρ c main_arg1 (by decide) (by decide) (by decide) (by decide) (by decide) (by decide)).trans (W1_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W15_main_arg1 (c : Dev nD) : W15 m ρ c (Proc.devRef .tc main_arg1) = m ((c : Thread nD τ).loc main_arg1) :=
  (keep_9_15 m ρ c main_arg1 (by decide) (by decide) (by decide) (by decide) (by decide) (by decide) (by decide)).trans (W8_main_arg1 m ρ c)
theorem W16_main_arg1 (c : Dev nD) : W16 m ρ c (Proc.devRef .tc main_arg1) = m ((c : Thread nD τ).loc main_arg1) :=
  (W16_of_ne m ρ c main_arg1 (by decide)).trans (W15_main_arg1 m ρ c)
theorem W17_main_arg1 (c : Dev nD) : W17 m ρ c (Proc.devRef .tc main_arg1) = m ((c : Thread nD τ).loc main_arg1) :=
  (keep_17 m ρ c main_arg1 (by decide)).trans (W16_main_arg1 m ρ c)
theorem W18_main_arg1 (c : Dev nD) : W18 m ρ c (Proc.devRef .tc main_arg1) = m ((c : Thread nD τ).loc main_arg1) :=
  (W18_of_ne m ρ c main_arg1 (by decide)).trans (W17_main_arg1 m ρ c)

theorem W1_main_arg2 (c : Dev nD) : W1 m ρ c (Proc.devRef .tc main_arg2) = m ((c : Thread nD τ).loc main_arg2) :=
  (W1_of_ne m ρ c main_arg2 (by decide))
theorem W7_main_arg2 (c : Dev nD) : W7 m ρ c (Proc.devRef .tc main_arg2) = m ((c : Thread nD τ).loc main_arg2) :=
  (keep_1_7 m ρ c main_arg2 (by decide) (by decide) (by decide) (by decide) (by decide) (by decide)).trans (W1_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W15_main_arg2 (c : Dev nD) : W15 m ρ c (Proc.devRef .tc main_arg2) = m ((c : Thread nD τ).loc main_arg2) :=
  (keep_9_15 m ρ c main_arg2 (by decide) (by decide) (by decide) (by decide) (by decide) (by decide) (by decide)).trans (W8_main_arg2 m ρ c)
theorem W16_main_arg2 (c : Dev nD) : W16 m ρ c (Proc.devRef .tc main_arg2) = m ((c : Thread nD τ).loc main_arg2) :=
  (W16_of_ne m ρ c main_arg2 (by decide)).trans (W15_main_arg2 m ρ c)
theorem W17_main_arg2 (c : Dev nD) : W17 m ρ c (Proc.devRef .tc main_arg2) = m ((c : Thread nD τ).loc main_arg2) :=
  (keep_17 m ρ c main_arg2 (by decide)).trans (W16_main_arg2 m ρ c)
theorem W18_main_arg2 (c : Dev nD) : W18 m ρ c (Proc.devRef .tc main_arg2) = m ((c : Thread nD τ).loc main_arg2) :=
  (W18_of_ne m ρ c main_arg2 (by decide)).trans (W17_main_arg2 m ρ c)

theorem W1_main_arg3 (c : Dev nD) : W1 m ρ c (Proc.devRef .tc main_arg3) = m ((c : Thread nD τ).loc main_arg3) :=
  (W1_of_ne m ρ c main_arg3 (by decide))
theorem W7_main_arg3 (c : Dev nD) : W7 m ρ c (Proc.devRef .tc main_arg3) = m ((c : Thread nD τ).loc main_arg3) :=
  (keep_1_7 m ρ c main_arg3 (by decide) (by decide) (by decide) (by decide) (by decide) (by decide)).trans (W1_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W15_main_arg3 (c : Dev nD) : W15 m ρ c (Proc.devRef .tc main_arg3) = m ((c : Thread nD τ).loc main_arg3) :=
  (keep_9_15 m ρ c main_arg3 (by decide) (by decide) (by decide) (by decide) (by decide) (by decide) (by decide)).trans (W8_main_arg3 m ρ c)
theorem W16_main_arg3 (c : Dev nD) : W16 m ρ c (Proc.devRef .tc main_arg3) = m ((c : Thread nD τ).loc main_arg3) :=
  (W16_of_ne m ρ c main_arg3 (by decide)).trans (W15_main_arg3 m ρ c)
theorem W17_main_arg3 (c : Dev nD) : W17 m ρ c (Proc.devRef .tc main_arg3) = m ((c : Thread nD τ).loc main_arg3) :=
  (keep_17 m ρ c main_arg3 (by decide)).trans (W16_main_arg3 m ρ c)
theorem W18_main_arg3 (c : Dev nD) : W18 m ρ c (Proc.devRef .tc main_arg3) = m ((c : Thread nD τ).loc main_arg3) :=
  (W18_of_ne m ρ c main_arg3 (by decide)).trans (W17_main_arg3 m ρ c)

theorem W1_main_arg4 (c : Dev nD) : W1 m ρ c (Proc.devRef .tc main_arg4) = m ((c : Thread nD τ).loc main_arg4) :=
  ((W1_arr m ρ c 1).trans (((dat0 (rd (W0 m ρ)) c).arrAt_in 1 rfl _).trans (A_eq0 (rd (W0 m ρ)) c 1)))
theorem W7_main_arg4 (c : Dev nD) : W7 m ρ c (Proc.devRef .tc main_arg4) = m ((c : Thread nD τ).loc main_arg4) :=
  (keep_1_7 m ρ c main_arg4 (by decide) (by decide) (by decide) (by decide) (by decide) (by decide)).trans (W1_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W15_main_arg4 (c : Dev nD) : W15 m ρ c (Proc.devRef .tc main_arg4) = m ((c : Thread nD τ).loc main_arg4) :=
  (keep_9_15 m ρ c main_arg4 (by decide) (by decide) (by decide) (by decide) (by decide) (by decide) (by decide)).trans (W8_main_arg4 m ρ c)
theorem W16_main_arg4 (c : Dev nD) : W16 m ρ c (Proc.devRef .tc main_arg4) = m ((c : Thread nD τ).loc main_arg4) :=
  (W16_of_ne m ρ c main_arg4 (by decide)).trans (W15_main_arg4 m ρ c)
theorem W17_main_arg4 (c : Dev nD) : W17 m ρ c (Proc.devRef .tc main_arg4) = m ((c : Thread nD τ).loc main_arg4) :=
  (keep_17 m ρ c main_arg4 (by decide)).trans (W16_main_arg4 m ρ c)
theorem W18_main_arg4 (c : Dev nD) : W18 m ρ c (Proc.devRef .tc main_arg4) = m ((c : Thread nD τ).loc main_arg4) :=
  (W18_of_ne m ρ c main_arg4 (by decide)).trans (W17_main_arg4 m ρ c)

theorem W1_main_arg5 (c : Dev nD) : W1 m ρ c (Proc.devRef .tc main_arg5) = m ((c : Thread nD τ).loc main_arg5) :=
  (W1_of_ne m ρ c main_arg5 (by decide))
theorem W7_main_arg5 (c : Dev nD) : W7 m ρ c (Proc.devRef .tc main_arg5) = m ((c : Thread nD τ).loc main_arg5) :=
  (keep_1_7 m ρ c main_arg5 (by decide) (by decide) (by decide) (by decide) (by decide) (by decide)).trans (W1_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W15_main_arg5 (c : Dev nD) : W15 m ρ c (Proc.devRef .tc main_arg5) = m ((c : Thread nD τ).loc main_arg5) :=
  (keep_9_15 m ρ c main_arg5 (by decide) (by decide) (by decide) (by decide) (by decide) (by decide) (by decide)).trans (W8_main_arg5 m ρ c)
theorem W16_main_arg5 (c : Dev nD) : W16 m ρ c (Proc.devRef .tc main_arg5) = m ((c : Thread nD τ).loc main_arg5) :=
  (W16_of_ne m ρ c main_arg5 (by decide)).trans (W15_main_arg5 m ρ c)
theorem W17_main_arg5 (c : Dev nD) : W17 m ρ c (Proc.devRef .tc main_arg5) = m ((c : Thread nD τ).loc main_arg5) :=
  (keep_17 m ρ c main_arg5 (by decide)).trans (W16_main_arg5 m ρ c)
theorem W18_main_arg5 (c : Dev nD) : W18 m ρ c (Proc.devRef .tc main_arg5) = m ((c : Thread nD τ).loc main_arg5) :=
  (W18_of_ne m ρ c main_arg5 (by decide)).trans (W17_main_arg5 m ρ c)

theorem W1_main_arg6 (c : Dev nD) : W1 m ρ c (Proc.devRef .tc main_arg6) = m ((c : Thread nD τ).loc main_arg6) :=
  (W1_of_ne m ρ c main_arg6 (by decide))
theorem W7_main_arg6 (c : Dev nD) : W7 m ρ c (Proc.devRef .tc main_arg6) = m ((c : Thread nD τ).loc main_arg6) :=
  (keep_1_7 m ρ c main_arg6 (by decide) (by decide) (by decide) (by decide) (by decide) (by decide)).trans (W1_main_arg6 m ρ c)
theorem W8_main_arg6 (c : Dev nD) : W8 m ρ c (Proc.devRef .tc main_arg6) = m ((c : Thread nD τ).loc main_arg6) :=
  ((W8_arr m ρ c 1).trans (((dat1 (rd (W7 m ρ)) c).arrAt_in 1 rfl _).trans (A_eq1 (rd (W7 m ρ)) c 1))).trans (W7_main_arg6 m ρ c)
theorem W15_main_arg6 (c : Dev nD) : W15 m ρ c (Proc.devRef .tc main_arg6) = m ((c : Thread nD τ).loc main_arg6) :=
  (keep_9_15 m ρ c main_arg6 (by decide) (by decide) (by decide) (by decide) (by decide) (by decide) (by decide)).trans (W8_main_arg6 m ρ c)
theorem W16_main_arg6 (c : Dev nD) : W16 m ρ c (Proc.devRef .tc main_arg6) = m ((c : Thread nD τ).loc main_arg6) :=
  (W16_of_ne m ρ c main_arg6 (by decide)).trans (W15_main_arg6 m ρ c)
theorem W17_main_arg6 (c : Dev nD) : W17 m ρ c (Proc.devRef .tc main_arg6) = m ((c : Thread nD τ).loc main_arg6) :=
  (keep_17 m ρ c main_arg6 (by decide)).trans (W16_main_arg6 m ρ c)
theorem W18_main_arg6 (c : Dev nD) : W18 m ρ c (Proc.devRef .tc main_arg6) = m ((c : Thread nD τ).loc main_arg6) :=
  (W18_of_ne m ρ c main_arg6 (by decide)).trans (W17_main_arg6 m ρ c)

theorem W1_main_arg7 (c : Dev nD) : W1 m ρ c (Proc.devRef .tc main_arg7) = m ((c : Thread nD τ).loc main_arg7) :=
  (W1_of_ne m ρ c main_arg7 (by decide))
theorem W7_main_arg7 (c : Dev nD) : W7 m ρ c (Proc.devRef .tc main_arg7) = m ((c : Thread nD τ).loc main_arg7) :=
  (keep_1_7 m ρ c main_arg7 (by decide) (by decide) (by decide) (by decide) (by decide) (by decide)).trans (W1_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W15_main_arg7 (c : Dev nD) : W15 m ρ c (Proc.devRef .tc main_arg7) = m ((c : Thread nD τ).loc main_arg7) :=
  (keep_9_15 m ρ c main_arg7 (by decide) (by decide) (by decide) (by decide) (by decide) (by decide) (by decide)).trans (W8_main_arg7 m ρ c)
theorem W16_main_arg7 (c : Dev nD) : W16 m ρ c (Proc.devRef .tc main_arg7) = m ((c : Thread nD τ).loc main_arg7) :=
  (W16_of_ne m ρ c main_arg7 (by decide)).trans (W15_main_arg7 m ρ c)
theorem W17_main_arg7 (c : Dev nD) : W17 m ρ c (Proc.devRef .tc main_arg7) = m ((c : Thread nD τ).loc main_arg7) :=
  (keep_17 m ρ c main_arg7 (by decide)).trans (W16_main_arg7 m ρ c)
theorem W18_main_arg7 (c : Dev nD) : W18 m ρ c (Proc.devRef .tc main_arg7) = m ((c : Thread nD τ).loc main_arg7) :=
  (W18_of_ne m ρ c main_arg7 (by decide)).trans (W17_main_arg7 m ρ c)

theorem W1_main_arg8 (c : Dev nD) : W1 m ρ c (Proc.devRef .tc main_arg8) = m ((c : Thread nD τ).loc main_arg8) :=
  (W1_of_ne m ρ c main_arg8 (by decide))
theorem W7_main_arg8 (c : Dev nD) : W7 m ρ c (Proc.devRef .tc main_arg8) = m ((c : Thread nD τ).loc main_arg8) :=
  (keep_1_7 m ρ c main_arg8 (by decide) (by decide) (by decide) (by decide) (by decide) (by decide)).trans (W1_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W15_main_arg8 (c : Dev nD) : W15 m ρ c (Proc.devRef .tc main_arg8) = m ((c : Thread nD τ).loc main_arg8) :=
  (keep_9_15 m ρ c main_arg8 (by decide) (by decide) (by decide) (by decide) (by decide) (by decide) (by decide)).trans (W8_main_arg8 m ρ c)
theorem W16_main_arg8 (c : Dev nD) : W16 m ρ c (Proc.devRef .tc main_arg8) = m ((c : Thread nD τ).loc main_arg8) :=
  (W16_of_ne m ρ c main_arg8 (by decide)).trans (W15_main_arg8 m ρ c)
theorem W17_main_arg8 (c : Dev nD) : W17 m ρ c (Proc.devRef .tc main_arg8) = m ((c : Thread nD τ).loc main_arg8) :=
  (keep_17 m ρ c main_arg8 (by decide)).trans (W16_main_arg8 m ρ c)
theorem W18_main_arg8 (c : Dev nD) : W18 m ρ c (Proc.devRef .tc main_arg8) = m ((c : Thread nD τ).loc main_arg8) :=
  ((W18_arr m ρ c 1).trans (((dat3 (rd (W17 m ρ)) c).arrAt_in 1 rfl _).trans (A_eq3 (rd (W17 m ρ)) c 1))).trans (W17_main_arg8 m ρ c)

theorem W1_main_arg9 (c : Dev nD) : W1 m ρ c (Proc.devRef .tc main_arg9) = m ((c : Thread nD τ).loc main_arg9) :=
  (W1_of_ne m ρ c main_arg9 (by decide))
theorem W7_main_arg9 (c : Dev nD) : W7 m ρ c (Proc.devRef .tc main_arg9) = m ((c : Thread nD τ).loc main_arg9) :=
  (keep_1_7 m ρ c main_arg9 (by decide) (by decide) (by decide) (by decide) (by decide) (by decide)).trans (W1_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)
theorem W15_main_arg9 (c : Dev nD) : W15 m ρ c (Proc.devRef .tc main_arg9) = m ((c : Thread nD τ).loc main_arg9) :=
  (keep_9_15 m ρ c main_arg9 (by decide) (by decide) (by decide) (by decide) (by decide) (by decide) (by decide)).trans (W8_main_arg9 m ρ c)
theorem W16_main_arg9 (c : Dev nD) : W16 m ρ c (Proc.devRef .tc main_arg9) = m ((c : Thread nD τ).loc main_arg9) :=
  (W16_of_ne m ρ c main_arg9 (by decide)).trans (W15_main_arg9 m ρ c)
theorem W17_main_arg9 (c : Dev nD) : W17 m ρ c (Proc.devRef .tc main_arg9) = m ((c : Thread nD τ).loc main_arg9) :=
  (keep_17 m ρ c main_arg9 (by decide)).trans (W16_main_arg9 m ρ c)
theorem W18_main_arg9 (c : Dev nD) : W18 m ρ c (Proc.devRef .tc main_arg9) = m ((c : Thread nD τ).loc main_arg9) :=
  (W18_of_ne m ρ c main_arg9 (by decide)).trans (W17_main_arg9 m ρ c)

theorem W1_main_arg10 (c : Dev nD) : W1 m ρ c (Proc.devRef .tc main_arg10) = m ((c : Thread nD τ).loc main_arg10) :=
  (W1_of_ne m ρ c main_arg10 (by decide))
theorem W7_main_arg10 (c : Dev nD) : W7 m ρ c (Proc.devRef .tc main_arg10) = m ((c : Thread nD τ).loc main_arg10) :=
  (keep_1_7 m ρ c main_arg10 (by decide) (by decide) (by decide) (by decide) (by decide) (by decide)).trans (W1_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W15_main_arg10 (c : Dev nD) : W15 m ρ c (Proc.devRef .tc main_arg10) = m ((c : Thread nD τ).loc main_arg10) :=
  (keep_9_15 m ρ c main_arg10 (by decide) (by decide) (by decide) (by decide) (by decide) (by decide) (by decide)).trans (W8_main_arg10 m ρ c)
theorem W16_main_arg10 (c : Dev nD) : W16 m ρ c (Proc.devRef .tc main_arg10) = m ((c : Thread nD τ).loc main_arg10) :=
  (W16_of_ne m ρ c main_arg10 (by decide)).trans (W15_main_arg10 m ρ c)
theorem W17_main_arg10 (c : Dev nD) : W17 m ρ c (Proc.devRef .tc main_arg10) = m ((c : Thread nD τ).loc main_arg10) :=
  (keep_17 m ρ c main_arg10 (by decide)).trans (W16_main_arg10 m ρ c)
theorem W18_main_arg10 (c : Dev nD) : W18 m ρ c (Proc.devRef .tc main_arg10) = m ((c : Thread nD τ).loc main_arg10) :=
  ((W18_arr m ρ c 3).trans (((dat3 (rd (W17 m ρ)) c).arrAt_in 3 rfl _).trans (A_eq3 (rd (W17 m ρ)) c 3))).trans (W17_main_arg10 m ρ c)

theorem W1_main_arg11 (c : Dev nD) : W1 m ρ c (Proc.devRef .tc main_arg11) = m ((c : Thread nD τ).loc main_arg11) :=
  (W1_of_ne m ρ c main_arg11 (by decide))
theorem W7_main_arg11 (c : Dev nD) : W7 m ρ c (Proc.devRef .tc main_arg11) = m ((c : Thread nD τ).loc main_arg11) :=
  (keep_1_7 m ρ c main_arg11 (by decide) (by decide) (by decide) (by decide) (by decide) (by decide)).trans (W1_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W15_main_arg11 (c : Dev nD) : W15 m ρ c (Proc.devRef .tc main_arg11) = m ((c : Thread nD τ).loc main_arg11) :=
  (keep_9_15 m ρ c main_arg11 (by decide) (by decide) (by decide) (by decide) (by decide) (by decide) (by decide)).trans (W8_main_arg11 m ρ c)
theorem W16_main_arg11 (c : Dev nD) : W16 m ρ c (Proc.devRef .tc main_arg11) = m ((c : Thread nD τ).loc main_arg11) :=
  (W16_of_ne m ρ c main_arg11 (by decide)).trans (W15_main_arg11 m ρ c)
theorem W17_main_arg11 (c : Dev nD) : W17 m ρ c (Proc.devRef .tc main_arg11) = m ((c : Thread nD τ).loc main_arg11) :=
  (keep_17 m ρ c main_arg11 (by decide)).trans (W16_main_arg11 m ρ c)
theorem W18_main_arg11 (c : Dev nD) : W18 m ρ c (Proc.devRef .tc main_arg11) = m ((c : Thread nD τ).loc main_arg11) :=
  (W18_of_ne m ρ c main_arg11 (by decide)).trans (W17_main_arg11 m ρ c)

end Cert.KernelIdeal.Hand

end
-- ==== Proof.Bridge.lean ====
import proofs.«413074_j63522566307870_1_alg».proof.ReferenceIdeal
import proofs.«413074_j63522566307870_1_alg».proof.Proof.Gen.ReferenceIdeal

/-! # The network as four functions of arrays

The reference computes, in order: one graph-convolution layer twice, the sum of node rows graph by graph, and a two-layer
head. Each is named here as a function of whole arrays, written in the reference program's own host operations, so that the
reference's composed term is their composition and the kernel's regions and host stretches can be compared with them one
at a time.

A graph-convolution layer (`conv`) takes the projected node features `h` (one row per node), the edge list `ei` (row 0
the sources, row 1 the destinations), the edge weights `ea` and a bias row `b`. It appends a self loop of weight one per
node; sums the weights arriving at each node into its degree; takes the degree's inverse square root where the degree is
positive and zero elsewhere; scales each edge's weight by that factor at both of its ends; gathers `h` at the sources,
scales the rows, and adds them up at the destinations; adds the bias; and takes the maximum with zero. -/

set_option maxRecDepth 8192

noncomputable section

namespace Cert.Bridge

open Cert.ReferenceIdeal Cert.ReferenceIdeal.Facts₀ Idealize.ShloMosaic Idealize.ShloMosaic.TcCoe Idealize.SL.Sem Idealize.ShloMosaic.StableHlo

variable {F : FTy → Type} [FloatOps F]

/-- The edges' sources followed by one self loop per node. -/
def srcOf (ei : (⟨S2x1600000, .i32⟩ : BufTy).Contents (Elt F)) : (⟨S1650000, .i32⟩ : BufTy).Contents (Elt F) :=
  concatenate S1650000 0 [⟨S1600000, (shapeCast _ (extractStridedSlice S1x1600000 ![0, 0] ei slices_S2x1600000_S1x1600000_0_0) shapeCasts_S1x1600000_S1600000) ⟩, ⟨S50000, (iotaInDim S50000 32 0) ⟩] concatenates_S1600000_S50000_S1650000_d0

/-- The edges' destinations followed by one self loop per node. -/
def dstOf (ei : (⟨S2x1600000, .i32⟩ : BufTy).Contents (Elt F)) : (⟨S1650000, .i32⟩ : BufTy).Contents (Elt F) :=
  concatenate S1650000 0 [⟨S1600000, (shapeCast _ (extractStridedSlice S1x1600000 ![1, 0] ei slices_S2x1600000_S1x1600000_1_0) shapeCasts_S1x1600000_S1600000) ⟩, ⟨S50000, (iotaInDim S50000 32 0) ⟩] concatenates_S1600000_S50000_S1650000_d0

/-- The edge weights followed by a weight of one per self loop. -/
def ewOf (ea : (⟨S1600000, .f32⟩ : BufTy).Contents (Elt F)) : (⟨S1650000, .f32⟩ : BufTy).Contents (Elt F) :=
  concatenate S1650000 0 [⟨S1600000, ea ⟩, ⟨S50000, (broadcastInDim S50000 ![] bcast_S_S50000 (constant S_ .f32 0x3F800000#32)) ⟩] concatenates_S1600000_S50000_S1650000_d0

/-- A node's degree: the sum of the weights arriving at it. -/
def degOf (dst : (⟨S1650000, .i32⟩ : BufTy).Contents (Elt F)) (ew : (⟨S1650000, .f32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 dst) ew

/-- The degree's inverse square root where the degree is positive, zero elsewhere. -/
def dinvOf (deg : (⟨S50000, .f32⟩ : BufTy).Contents (Elt F)) : (⟨S50000, .f32⟩ : BufTy).Contents (Elt F) :=
  select (cmpf .ogt deg (broadcastInDim S50000 ![] bcast_S_S50000 (constant S_ .f32 0x00000000#32))) (Host.rsqrt (select (cmpf .ogt deg (broadcastInDim S50000 ![] bcast_S_S50000 (constant S_ .f32 0x00000000#32))) deg (broadcastInDim S50000 ![] bcast_S_S50000 (id (constant S_ .f32 0x3F800000#32))))) (broadcastInDim S50000 ![] bcast_S_S50000 (id (constant S_ .f32 0x00000000#32)))

/-- A layer before its maximum with zero: the rows of `h` gathered at the sources, each scaled by its edge's weight and by
    the inverse square roots of the degrees at its two ends, added up at the destinations, plus the bias row. -/
def preOf (h : (⟨S50000x128, .f32⟩ : BufTy).Contents (Elt F)) (src dst : (⟨S1650000, .i32⟩ : BufTy).Contents (Elt F)) (ew : (⟨S1650000, .f32⟩ : BufTy).Contents (Elt F))
    (dinv : (⟨S50000, .f32⟩ : BufTy).Contents (Elt F)) (b : (⟨S128, .f32⟩ : BufTy).Contents (Elt F)) : (⟨S50000x128, .f32⟩ : BufTy).Contents (Elt F) :=
  addf (Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 dst) (mulf (Host.gather gather_S50000x128_S1650000x1_S1650000x128_1_0_n_n_0_1_1128 h (broadcastInDim S1650000x1 ![0] bcast_S1650000_S1650000x1_0 (select (cmpi .slt src (broadcastInDim S1650000 ![] bcast_S_S1650000 (constantI S_ 32 0#32))) (addi src (broadcastInDim S1650000 ![] bcast_S_S1650000 (constantI S_ 32 50000#32))) src))) (broadcastInDim S1650000x128 ![0, 1] bcast_S1650000x1_S1650000x128_0_1 (broadcastInDim S1650000x1 ![0] bcast_S1650000_S1650000x1_0 (mulf (mulf (Host.gather gather_S50000_S1650000x1_S1650000_n_0_n_n_0_1_1 dinv (broadcastInDim S1650000x1 ![0] bcast_S1650000_S1650000x1_0 (select (cmpi .slt src (broadcastInDim S1650000 ![] bcast_S_S1650000 (constantI S_ 32 0#32))) (addi src (broadcastInDim S1650000 ![] bcast_S_S1650000 (constantI S_ 32 50000#32))) src))) ew) (Host.gather gather_S50000_S1650000x1_S1650000_n_0_n_n_0_1_1 dinv (broadcastInDim S1650000x1 ![0] bcast_S1650000_S1650000x1_0 (select (cmpi .slt dst (broadcastInDim S1650000 ![] bcast_S_S1650000 (constantI S_ 32 0#32))) (addi dst (broadcastInDim S1650000 ![] bcast_S_S1650000 (constantI S_ 32 50000#32))) dst)))))))) (broadcastInDim S50000x128 ![0, 1] bcast_S1x128_S50000x128_0_1 (broadcastInDim S1x128 ![1] bcast_S128_S1x128_1 b))

/-- One graph-convolution layer with its bias and its maximum with zero, over the projected features `h`. -/
def conv (h : (⟨S50000x128, .f32⟩ : BufTy).Contents (Elt F)) (ei : (⟨S2x1600000, .i32⟩ : BufTy).Contents (Elt F))
    (ea : (⟨S1600000, .f32⟩ : BufTy).Contents (Elt F)) (b : (⟨S128, .f32⟩ : BufTy).Contents (Elt F)) :
    (⟨S50000x128, .f32⟩ : BufTy).Contents (Elt F) :=
  maximumf (preOf h (srcOf ei) (dstOf ei) (ewOf ea) (dinvOf (degOf (dstOf ei) (ewOf ea))) b) (broadcastInDim S50000x128 ![] bcast_S_S50000x128 (constant S_ .f32 0x00000000#32))

/-- The node rows summed graph by graph: an accumulating scatter into a zero array at the nodes' graph numbers. -/
def pool (batch : (⟨S50000, .i32⟩ : BufTy).Contents (Elt F)) (h : (⟨S50000x128, .f32⟩ : BufTy).Contents (Elt F)) :
    (⟨S512x128, .f32⟩ : BufTy).Contents (Elt F) :=
  Host.scatterAdd scatter_S512x128_S50000x1_S50000x128_1_0_0_1 (broadcastInDim S512x128 ![] bcast_S_S512x128 (constant S_ .f32 0x00000000#32)) (broadcastInDim S50000x1 ![0] bcast_S50000_S50000x1_0 batch) h

/-- The two-layer head: `max(p · Wm1 + bm1, 0) · Wm2 + bm2`, the bias rows broadcast down the rows. -/
def head (p : (⟨S512x128, .f32⟩ : BufTy).Contents (Elt F)) (w1 : (⟨S128x128, .f32⟩ : BufTy).Contents (Elt F))
    (b1 : (⟨S128, .f32⟩ : BufTy).Contents (Elt F)) (w2 : (⟨S128x10, .f32⟩ : BufTy).Contents (Elt F))
    (b2 : (⟨S10, .f32⟩ : BufTy).Contents (Elt F)) : (⟨S512x10, .f32⟩ : BufTy).Contents (Elt F) :=
  addf (Host.dotGeneral dot_S512x128_S128x10_S512x10_1_0_0_1_n_n none (maximumf (addf (Host.dotGeneral dot_S512x128_S128x128_S512x128_1_0_0_1_n_n none p w1) (broadcastInDim S512x128 ![0, 1] bcast_S1x128_S512x128_0_1 (broadcastInDim S1x128 ![1] bcast_S128_S1x128_1 b1))) (broadcastInDim S512x128 ![] bcast_S_S512x128 (constant S_ .f32 0x00000000#32))) w2) (broadcastInDim S512x10 ![0, 1] bcast_S1x10_S512x10_0_1 (broadcastInDim S1x10 ![1] bcast_S10_S1x10_1 b2))

/-- The whole network: two layers over the two dense projections, the pooling, the head. -/
def whole (x : (⟨S50000x64, .f32⟩ : BufTy).Contents (Elt F)) (ei : (⟨S2x1600000, .i32⟩ : BufTy).Contents (Elt F))
    (batch : (⟨S50000, .i32⟩ : BufTy).Contents (Elt F)) (ea : (⟨S1600000, .f32⟩ : BufTy).Contents (Elt F))
    (W1 : (⟨S64x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wm1 : (⟨S128x128, .f32⟩ : BufTy).Contents (Elt F)) (bm1 : (⟨S128, .f32⟩ : BufTy).Contents (Elt F))
    (Wm2 : (⟨S128x10, .f32⟩ : BufTy).Contents (Elt F)) (bm2 : (⟨S10, .f32⟩ : BufTy).Contents (Elt F)) :
    (⟨S512x10, .f32⟩ : BufTy).Contents (Elt F) :=
  head (pool batch (conv (Host.dotGeneral dot_S50000x128_S128x128_S50000x128_1_0_0_1_n_n none
    (conv (Host.dotGeneral dot_S50000x64_S64x128_S50000x128_1_0_0_1_n_n none x W1) ei ea b1) W2) ei ea b2)) Wm1 bm1 Wm2 bm2

end Cert.Bridge

end
-- ==== Proof.KI.Layer1.lean ====
import proofs.«413074_j63522566307870_1_alg».proof.Proof.KI.KeepArgs
import proofs.«413074_j63522566307870_1_alg».proof.Proof.Bridge
import Idealize.ShloMosaic.Lib.Pipeline.Value
import Idealize.ShloMosaic.Lib.ValueIdx
import Idealize.ShloMosaic.Lib.StableHlo.Run

set_option maxRecDepth 65536
set_option Elab.async false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's host stretches are one graph-convolution layer

The six stretches after region 0 are read one at a time. The first lays out the edges' sources and destinations and the
weights, each followed by the self loops, sums the weights arriving at each node and compares the sums with zero. The next
three keep the positive sums, take the inverse square root, and put zero where the sum was not positive. The long one gathers
the projected rows at the sources, scales each by its edge's weight and by the two factors at its ends, adds the rows up at
the destinations and adds the bias. The last takes the maximum with zero. Together they are the reference's layer. -/

open Idealize.ShloMosaic.ValueIdx Idealize.ShloMosaic.StableHlo

variable (m : (ℓ : Loc nD τ sig) → Buf (Elt Ideal) ℓ) (ρ : Dev nD → PrngReg)

/-- A buffer the three short stretches before layer 1's long one do not write. -/
theorem keepS1 (c : Dev nD) (r : Ref sig .tc) (h1 : r ∉ hostOps1_1_W) (h2 : r ∉ hostOps1_2_W) (h3 : r ∉ hostOps1_3_W) :
    W5 m ρ c (Proc.devRef .tc r) = W2 m ρ c (Proc.devRef .tc r) :=
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1)

set_option maxHeartbeats 4000000 in
/-- The first stretch lays out the sources with the self loops. -/
theorem src1 (c : Dev nD) : W2 m ρ c (Proc.devRef .tc main_v4) = Cert.Bridge.srcOf (F := Ideal) (m ((c : Thread nD τ).loc main_arg1)) := by
  show StableHlo.after hostOps1 (W1 m ρ c) (Proc.devRef .tc main_v4) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg1 m ρ c]
  unfold Cert.Bridge.srcOf
  rfl

set_option maxHeartbeats 4000000 in
/-- … the destinations with the self loops. -/
theorem dst1 (c : Dev nD) : W2 m ρ c (Proc.devRef .tc main_v7) = Cert.Bridge.dstOf (F := Ideal) (m ((c : Thread nD τ).loc main_arg1)) := by
  show StableHlo.after hostOps1 (W1 m ρ c) (Proc.devRef .tc main_v7) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg1 m ρ c]
  unfold Cert.Bridge.dstOf
  rfl

set_option maxHeartbeats 4000000 in
/-- … and the weights with the self loops' ones. -/
theorem ew1 (c : Dev nD) : W2 m ρ c (Proc.devRef .tc main_v9) = Cert.Bridge.ewOf (F := Ideal) (m ((c : Thread nD τ).loc main_arg3)) := by
  show StableHlo.after hostOps1 (W1 m ρ c) (Proc.devRef .tc main_v9) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg3 m ρ c]
  unfold Cert.Bridge.ewOf
  rfl

set_option maxHeartbeats 4000000 in
/-- The first stretch sums the weights arriving at each node. -/
theorem deg1 (c : Dev nD) : W2 m ρ c (Proc.devRef .tc main_v12) = (Cert.Bridge.degOf (F := Ideal) (Cert.Bridge.dstOf (m ((c : Thread nD τ).loc main_arg1))) (Cert.Bridge.ewOf (m ((c : Thread nD τ).loc main_arg3)))) := by
  show StableHlo.after hostOps1 (W1 m ρ c) (Proc.devRef .tc main_v12) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg1 m ρ c, W1_main_arg3 m ρ c]
  unfold Cert.Bridge.degOf Cert.Bridge.dstOf Cert.Bridge.ewOf
  rfl

set_option maxHeartbeats 4000000 in
/-- … and compares each with zero, twice (the program states the comparison once per use). -/
theorem pos1a (c : Dev nD) : W2 m ρ c (Proc.devRef .tc main_v14) = cmpf .ogt (Cert.Bridge.degOf (F := Ideal) (Cert.Bridge.dstOf (m ((c : Thread nD τ).loc main_arg1))) (Cert.Bridge.ewOf (m ((c : Thread nD τ).loc main_arg3)))) (broadcastInDim Cert.ReferenceIdeal.S50000 ![] Cert.ReferenceIdeal.Facts₀.bcast_S_S50000 (constant (F := Ideal) Cert.ReferenceIdeal.S_ .f32 0x00000000#32)) := by
  show StableHlo.after hostOps1 (W1 m ρ c) (Proc.devRef .tc main_v14) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg1 m ρ c, W1_main_arg3 m ρ c]
  unfold Cert.Bridge.degOf Cert.Bridge.dstOf Cert.Bridge.ewOf
  rfl

set_option maxHeartbeats 4000000 in
theorem pos1b (c : Dev nD) : W2 m ρ c (Proc.devRef .tc main_v16) = cmpf .ogt (Cert.Bridge.degOf (F := Ideal) (Cert.Bridge.dstOf (m ((c : Thread nD τ).loc main_arg1))) (Cert.Bridge.ewOf (m ((c : Thread nD τ).loc main_arg3)))) (broadcastInDim Cert.ReferenceIdeal.S50000 ![] Cert.ReferenceIdeal.Facts₀.bcast_S_S50000 (constant (F := Ideal) Cert.ReferenceIdeal.S_ .f32 0x00000000#32)) := by
  show StableHlo.after hostOps1 (W1 m ρ c) (Proc.devRef .tc main_v16) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W1_main_arg1 m ρ c, W1_main_arg3 m ρ c]
  unfold Cert.Bridge.degOf Cert.Bridge.dstOf Cert.Bridge.ewOf
  rfl

/-- … and names the constant one. -/
theorem one1 (c : Dev nD) : W2 m ρ c (Proc.devRef .tc main_cst_3) = constant (F := Ideal) Cert.ReferenceIdeal.S_ .f32 0x3F800000#32 := by
  show StableHlo.after hostOps1 (W1 m ρ c) (Proc.devRef .tc main_cst_3) = _
  after_results_simp <;> rfl

/-- The second stretch keeps the positive degrees and puts one elsewhere. -/
theorem selA1 (c : Dev nD) :
    W3 m ρ c (Proc.devRef .tc main_v17) = select (W2 m ρ c (Proc.devRef .tc main_v16)) (W2 m ρ c (Proc.devRef .tc main_v12)) (broadcastInDim Cert.ReferenceIdeal.S50000 ![] Cert.ReferenceIdeal.Facts₀.bcast_S_S50000 (id (W2 m ρ c (Proc.devRef .tc main_cst_3)))) := by
  show StableHlo.after hostOps1_1 (W2 m ρ c) (Proc.devRef .tc main_v17) = _
  generalize W2 m ρ c = V
  after_results_simp
  rfl

/-- The third takes the inverse square root and names the constant zero. -/
theorem rsq1 (c : Dev nD) : W4 m ρ c (Proc.devRef .tc main_v18) = Host.rsqrt (F := Ideal) (s := Cert.ReferenceIdeal.S50000) (φ := .f32) (W3 m ρ c (Proc.devRef .tc main_v17)) := by
  show StableHlo.after hostOps1_2 (W3 m ρ c) (Proc.devRef .tc main_v18) = _
  generalize W3 m ρ c = V
  after_results_simp <;> rfl

theorem zero1 (c : Dev nD) : W4 m ρ c (Proc.devRef .tc main_cst_4) = constant (F := Ideal) Cert.ReferenceIdeal.S_ .f32 0x00000000#32 := by
  show StableHlo.after hostOps1_2 (W3 m ρ c) (Proc.devRef .tc main_cst_4) = _
  generalize W3 m ρ c = V
  after_results_simp <;> rfl

/-- The fourth keeps the inverse square roots of the positive degrees and puts zero elsewhere. -/
theorem selB1 (c : Dev nD) :
    W5 m ρ c (Proc.devRef .tc main_v19) = select (W4 m ρ c (Proc.devRef .tc main_v14)) (W4 m ρ c (Proc.devRef .tc main_v18)) (broadcastInDim Cert.ReferenceIdeal.S50000 ![] Cert.ReferenceIdeal.Facts₀.bcast_S_S50000 (id (W4 m ρ c (Proc.devRef .tc main_cst_4)))) := by
  show StableHlo.after hostOps1_3 (W4 m ρ c) (Proc.devRef .tc main_v19) = _
  generalize W4 m ρ c = V
  after_results_simp
  rfl

/-- The first four stretches compute the degrees' inverse square roots. -/
theorem dinv1 (c : Dev nD) :
    W5 m ρ c (Proc.devRef .tc main_v19) = Cert.Bridge.dinvOf (F := Ideal) (Cert.Bridge.degOf (Cert.Bridge.dstOf (m ((c : Thread nD τ).loc main_arg1))) (Cert.Bridge.ewOf (m ((c : Thread nD τ).loc main_arg3)))) := by
  rw [selB1 m ρ c, rsq1 m ρ c, zero1 m ρ c, selA1 m ρ c,
    show W4 m ρ c (Proc.devRef .tc main_v14) = W2 m ρ c (Proc.devRef .tc main_v14) from (StableHlo.after_of_writes_sub hostOps1_2 _ hostOps1_2_writes (by decide)).trans (StableHlo.after_of_writes_sub hostOps1_1 _ hostOps1_1_writes (by decide)),
    pos1a m ρ c, pos1b m ρ c, deg1 m ρ c, one1 m ρ c]
  rfl

set_option maxHeartbeats 16000000 in
/-- The long stretch gathers, scales, adds up and adds the bias, over what the stretches before it left. -/
theorem core1 (c : Dev nD) :
    W6 m ρ c (Proc.devRef .tc main_v51) = Cert.Bridge.preOf (F := Ideal) (W5 m ρ c (Proc.devRef .tc main_v0)) (W5 m ρ c (Proc.devRef .tc main_v4)) (W5 m ρ c (Proc.devRef .tc main_v7)) (W5 m ρ c (Proc.devRef .tc main_v9)) (W5 m ρ c (Proc.devRef .tc main_v19)) (W5 m ρ c (Proc.devRef .tc main_arg5)) := by
  show StableHlo.after hostOps1_4 (W5 m ρ c) (Proc.devRef .tc main_v51) = _
  generalize W5 m ρ c = V
  after_results_simp
  unfold Cert.Bridge.preOf
  rfl

/-- The last stretch takes the maximum with zero. -/
theorem relu1 (c : Dev nD) :
    W7 m ρ c (Proc.devRef .tc main_v52) = maximumf (W6 m ρ c (Proc.devRef .tc main_v51))
      (broadcastInDim Cert.ReferenceIdeal.S50000x128 ![] Cert.ReferenceIdeal.Facts₀.bcast_S_S50000x128 (constant (F := Ideal) Cert.ReferenceIdeal.S_ .f32 0x00000000#32)) := by
  show StableHlo.after hostOps1_5 (W6 m ρ c) (Proc.devRef .tc main_v52) = _
  generalize W6 m ρ c = V
  after_results_simp
  rfl

/-- Layer 1's stretches together are one graph-convolution layer over the region's output. -/
theorem layer1_eq (c : Dev nD) :
    W7 m ρ c (Proc.devRef .tc main_v52) = Cert.Bridge.conv (F := Ideal) (W1 m ρ c (Proc.devRef .tc main_v0)) (m ((c : Thread nD τ).loc main_arg1)) (m ((c : Thread nD τ).loc main_arg3)) (m ((c : Thread nD τ).loc main_arg5)) := by
  rw [relu1 m ρ c, core1 m ρ c, dinv1 m ρ c,
    show W5 m ρ c (Proc.devRef .tc main_v0) = W1 m ρ c (Proc.devRef .tc main_v0) from (keepS1 m ρ c main_v0 (by decide) (by decide) (by decide)).trans (StableHlo.after_of_writes_sub hostOps1 _ hostOps1_writes (by decide)),
    show W5 m ρ c (Proc.devRef .tc main_v4) = _ from (keepS1 m ρ c main_v4 (by decide) (by decide) (by decide)).trans (src1 m ρ c),
    show W5 m ρ c (Proc.devRef .tc main_v7) = _ from (keepS1 m ρ c main_v7 (by decide) (by decide) (by decide)).trans (dst1 m ρ c),
    show W5 m ρ c (Proc.devRef .tc main_v9) = _ from (keepS1 m ρ c main_v9 (by decide) (by decide) (by decide)).trans (ew1 m ρ c),
    show W5 m ρ c (Proc.devRef .tc main_arg5) = (m ((c : Thread nD τ).loc main_arg5)) from (keepS1 m ρ c main_arg5 (by decide) (by decide) (by decide)).trans ((StableHlo.after_of_writes_sub hostOps1 _ hostOps1_writes (by decide)).trans (W1_main_arg5 m ρ c))]
  rfl

end Cert.KernelIdeal.Hand

end
-- ==== Proof.KI.Layer2.lean ====
import proofs.«413074_j63522566307870_1_alg».proof.Proof.KI.KeepArgs
import proofs.«413074_j63522566307870_1_alg».proof.Proof.Bridge
import Idealize.ShloMosaic.Lib.Pipeline.Value
import Idealize.ShloMosaic.Lib.ValueIdx
import Idealize.ShloMosaic.Lib.StableHlo.Run

set_option maxRecDepth 65536
set_option Elab.async false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2's host stretches are one graph-convolution layer

The six stretches after region 1 are read one at a time. The first lays out the edges' sources and destinations and the
weights, each followed by the self loops, sums the weights arriving at each node and compares the sums with zero. The next
three keep the positive sums, take the inverse square root, and put zero where the sum was not positive. The long one gathers
the projected rows at the sources, scales each by its edge's weight and by the two factors at its ends, adds the rows up at
the destinations and adds the bias. The last takes the maximum with zero. Together they are the reference's layer. -/

open Idealize.ShloMosaic.ValueIdx Idealize.ShloMosaic.StableHlo

variable (m : (ℓ : Loc nD τ sig) → Buf (Elt Ideal) ℓ) (ρ : Dev nD → PrngReg)

/-- A buffer the three short stretches before layer 1's long one do not write. -/
theorem keepS2 (c : Dev nD) (r : Ref sig .tc) (h1 : r ∉ hostOps2_1_W) (h2 : r ∉ hostOps2_2_W) (h3 : r ∉ hostOps2_3_W) :
    W12 m ρ c (Proc.devRef .tc r) = W9 m ρ c (Proc.devRef .tc r) :=
  (StableHlo.after_of_writes_sub hostOps2_3 _ hostOps2_3_writes h3).trans <|
  (StableHlo.after_of_writes_sub hostOps2_2 _ hostOps2_2_writes h2).trans <|
  (StableHlo.after_of_writes_sub hostOps2_1 _ hostOps2_1_writes h1)

set_option maxHeartbeats 4000000 in
/-- The first stretch lays out the sources with the self loops. -/
theorem src2 (c : Dev nD) : W9 m ρ c (Proc.devRef .tc main_v57) = Cert.Bridge.srcOf (F := Ideal) (m ((c : Thread nD τ).loc main_arg1)) := by
  show StableHlo.after hostOps2 (W8 m ρ c) (Proc.devRef .tc main_v57) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg1 m ρ c]
  unfold Cert.Bridge.srcOf
  rfl

set_option maxHeartbeats 4000000 in
/-- … the destinations with the self loops. -/
theorem dst2 (c : Dev nD) : W9 m ρ c (Proc.devRef .tc main_v60) = Cert.Bridge.dstOf (F := Ideal) (m ((c : Thread nD τ).loc main_arg1)) := by
  show StableHlo.after hostOps2 (W8 m ρ c) (Proc.devRef .tc main_v60) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg1 m ρ c]
  unfold Cert.Bridge.dstOf
  rfl

set_option maxHeartbeats 4000000 in
/-- … and the weights with the self loops' ones. -/
theorem ew2 (c : Dev nD) : W9 m ρ c (Proc.devRef .tc main_v62) = Cert.Bridge.ewOf (F := Ideal) (m ((c : Thread nD τ).loc main_arg3)) := by
  show StableHlo.after hostOps2 (W8 m ρ c) (Proc.devRef .tc main_v62) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg3 m ρ c]
  unfold Cert.Bridge.ewOf
  rfl

set_option maxHeartbeats 4000000 in
/-- The first stretch sums the weights arriving at each node. -/
theorem deg2 (c : Dev nD) : W9 m ρ c (Proc.devRef .tc main_v65) = (Cert.Bridge.degOf (F := Ideal) (Cert.Bridge.dstOf (m ((c : Thread nD τ).loc main_arg1))) (Cert.Bridge.ewOf (m ((c : Thread nD τ).loc main_arg3)))) := by
  show StableHlo.after hostOps2 (W8 m ρ c) (Proc.devRef .tc main_v65) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg1 m ρ c, W8_main_arg3 m ρ c]
  unfold Cert.Bridge.degOf Cert.Bridge.dstOf Cert.Bridge.ewOf
  rfl

set_option maxHeartbeats 4000000 in
/-- … and compares each with zero, twice (the program states the comparison once per use). -/
theorem pos2a (c : Dev nD) : W9 m ρ c (Proc.devRef .tc main_v67) = cmpf .ogt (Cert.Bridge.degOf (F := Ideal) (Cert.Bridge.dstOf (m ((c : Thread nD τ).loc main_arg1))) (Cert.Bridge.ewOf (m ((c : Thread nD τ).loc main_arg3)))) (broadcastInDim Cert.ReferenceIdeal.S50000 ![] Cert.ReferenceIdeal.Facts₀.bcast_S_S50000 (constant (F := Ideal) Cert.ReferenceIdeal.S_ .f32 0x00000000#32)) := by
  show StableHlo.after hostOps2 (W8 m ρ c) (Proc.devRef .tc main_v67) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg1 m ρ c, W8_main_arg3 m ρ c]
  unfold Cert.Bridge.degOf Cert.Bridge.dstOf Cert.Bridge.ewOf
  rfl

set_option maxHeartbeats 4000000 in
theorem pos2b (c : Dev nD) : W9 m ρ c (Proc.devRef .tc main_v69) = cmpf .ogt (Cert.Bridge.degOf (F := Ideal) (Cert.Bridge.dstOf (m ((c : Thread nD τ).loc main_arg1))) (Cert.Bridge.ewOf (m ((c : Thread nD τ).loc main_arg3)))) (broadcastInDim Cert.ReferenceIdeal.S50000 ![] Cert.ReferenceIdeal.Facts₀.bcast_S_S50000 (constant (F := Ideal) Cert.ReferenceIdeal.S_ .f32 0x00000000#32)) := by
  show StableHlo.after hostOps2 (W8 m ρ c) (Proc.devRef .tc main_v69) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [W8_main_arg1 m ρ c, W8_main_arg3 m ρ c]
  unfold Cert.Bridge.degOf Cert.Bridge.dstOf Cert.Bridge.ewOf
  rfl

/-- … and names the constant one. -/
theorem one2 (c : Dev nD) : W9 m ρ c (Proc.devRef .tc main_cst_15) = constant (F := Ideal) Cert.ReferenceIdeal.S_ .f32 0x3F800000#32 := by
  show StableHlo.after hostOps2 (W8 m ρ c) (Proc.devRef .tc main_cst_15) = _
  after_results_simp <;> rfl

/-- The second stretch keeps the positive degrees and puts one elsewhere. -/
theorem selA2 (c : Dev nD) :
    W10 m ρ c (Proc.devRef .tc main_v70) = select (W9 m ρ c (Proc.devRef .tc main_v69)) (W9 m ρ c (Proc.devRef .tc main_v65)) (broadcastInDim Cert.ReferenceIdeal.S50000 ![] Cert.ReferenceIdeal.Facts₀.bcast_S_S50000 (id (W9 m ρ c (Proc.devRef .tc main_cst_15)))) := by
  show StableHlo.after hostOps2_1 (W9 m ρ c) (Proc.devRef .tc main_v70) = _
  generalize W9 m ρ c = V
  after_results_simp
  rfl

/-- The third takes the inverse square root and names the constant zero. -/
theorem rsq2 (c : Dev nD) : W11 m ρ c (Proc.devRef .tc main_v71) = Host.rsqrt (F := Ideal) (s := Cert.ReferenceIdeal.S50000) (φ := .f32) (W10 m ρ c (Proc.devRef .tc main_v70)) := by
  show StableHlo.after hostOps2_2 (W10 m ρ c) (Proc.devRef .tc main_v71) = _
  generalize W10 m ρ c = V
  after_results_simp <;> rfl

theorem zero2 (c : Dev nD) : W11 m ρ c (Proc.devRef .tc main_cst_16) = constant (F := Ideal) Cert.ReferenceIdeal.S_ .f32 0x00000000#32 := by
  show StableHlo.after hostOps2_2 (W10 m ρ c) (Proc.devRef .tc main_cst_16) = _
  generalize W10 m ρ c = V
  after_results_simp <;> rfl

/-- The fourth keeps the inverse square roots of the positive degrees and puts zero elsewhere. -/
theorem selB2 (c : Dev nD) :
    W12 m ρ c (Proc.devRef .tc main_v72) = select (W11 m ρ c (Proc.devRef .tc main_v67)) (W11 m ρ c (Proc.devRef .tc main_v71)) (broadcastInDim Cert.ReferenceIdeal.S50000 ![] Cert.ReferenceIdeal.Facts₀.bcast_S_S50000 (id (W11 m ρ c (Proc.devRef .tc main_cst_16)))) := by
  show StableHlo.after hostOps2_3 (W11 m ρ c) (Proc.devRef .tc main_v72) = _
  generalize W11 m ρ c = V
  after_results_simp
  rfl

/-- The first four stretches compute the degrees' inverse square roots. -/
theorem dinv2 (c : Dev nD) :
    W12 m ρ c (Proc.devRef .tc main_v72) = Cert.Bridge.dinvOf (F := Ideal) (Cert.Bridge.degOf (Cert.Bridge.dstOf (m ((c : Thread nD τ).loc main_arg1))) (Cert.Bridge.ewOf (m ((c : Thread nD τ).loc main_arg3)))) := by
  rw [selB2 m ρ c, rsq2 m ρ c, zero2 m ρ c, selA2 m ρ c,
    show W11 m ρ c (Proc.devRef .tc main_v67) = W9 m ρ c (Proc.devRef .tc main_v67) from (StableHlo.after_of_writes_sub hostOps2_2 _ hostOps2_2_writes (by decide)).trans (StableHlo.after_of_writes_sub hostOps2_1 _ hostOps2_1_writes (by decide)),
    pos2a m ρ c, pos2b m ρ c, deg2 m ρ c, one2 m ρ c]
  rfl

set_option maxHeartbeats 16000000 in
/-- The long stretch gathers, scales, adds up and adds the bias, over what the stretches before it left. -/
theorem core2 (c : Dev nD) :
    W13 m ρ c (Proc.devRef .tc main_v104) = Cert.Bridge.preOf (F := Ideal) (W12 m ρ c (Proc.devRef .tc main_v53)) (W12 m ρ c (Proc.devRef .tc main_v57)) (W12 m ρ c (Proc.devRef .tc main_v60)) (W12 m ρ c (Proc.devRef .tc main_v62)) (W12 m ρ c (Proc.devRef .tc main_v72)) (W12 m ρ c (Proc.devRef .tc main_arg7)) := by
  show StableHlo.after hostOps2_4 (W12 m ρ c) (Proc.devRef .tc main_v104) = _
  generalize W12 m ρ c = V
  after_results_simp
  unfold Cert.Bridge.preOf
  rfl

/-- The last stretch takes the maximum with zero. -/
theorem relu2 (c : Dev nD) :
    W14 m ρ c (Proc.devRef .tc main_v105) = maximumf (W13 m ρ c (Proc.devRef .tc main_v104))
      (broadcastInDim Cert.ReferenceIdeal.S50000x128 ![] Cert.ReferenceIdeal.Facts₀.bcast_S_S50000x128 (constant (F := Ideal) Cert.ReferenceIdeal.S_ .f32 0x00000000#32)) := by
  show StableHlo.after hostOps2_5 (W13 m ρ c) (Proc.devRef .tc main_v105) = _
  generalize W13 m ρ c = V
  after_results_simp
  rfl

/-- Layer 2's stretches together are one graph-convolution layer over the region's output. -/
theorem layer2_eq (c : Dev nD) :
    W14 m ρ c (Proc.devRef .tc main_v105) = Cert.Bridge.conv (F := Ideal) (W8 m ρ c (Proc.devRef .tc main_v53)) (m ((c : Thread nD τ).loc main_arg1)) (m ((c : Thread nD τ).loc main_arg3)) (m ((c : Thread nD τ).loc main_arg7)) := by
  rw [relu2 m ρ c, core2 m ρ c, dinv2 m ρ c,
    show W12 m ρ c (Proc.devRef .tc main_v53) = W8 m ρ c (Proc.devRef .tc main_v53) from (keepS2 m ρ c main_v53 (by decide) (by decide) (by decide)).trans (StableHlo.after_of_writes_sub hostOps2 _ hostOps2_writes (by decide)),
    show W12 m ρ c (Proc.devRef .tc main_v57) = _ from (keepS2 m ρ c main_v57 (by decide) (by decide) (by decide)).trans (src2 m ρ c),
    show W12 m ρ c (Proc.devRef .tc main_v60) = _ from (keepS2 m ρ c main_v60 (by decide) (by decide) (by decide)).trans (dst2 m ρ c),
    show W12 m ρ c (Proc.devRef .tc main_v62) = _ from (keepS2 m ρ c main_v62 (by decide) (by decide) (by decide)).trans (ew2 m ρ c),
    show W12 m ρ c (Proc.devRef .tc main_arg7) = (m ((c : Thread nD τ).loc main_arg7)) from (keepS2 m ρ c main_arg7 (by decide) (by decide) (by decide)).trans ((StableHlo.after_of_writes_sub hostOps2 _ hostOps2_writes (by decide)).trans (W8_main_arg7 m ρ c))]
  rfl

end Cert.KernelIdeal.Hand

end
-- ==== Proof.KI.Chain.lean ====
import proofs.«413074_j63522566307870_1_alg».proof.Proof.KI.Layer1
import proofs.«413074_j63522566307870_1_alg».proof.Proof.KI.Layer2
import proofs.«413074_j63522566307870_1_alg».proof.Proof.Bridge
import Idealize.ShloMosaic.Lib.Pipeline.Value
import Idealize.ShloMosaic.Lib.ValueIdx
import Idealize.ShloMosaic.Lib.StableHlo.Run

set_option maxRecDepth 65536
set_option Elab.async false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # From the regions' values to the whole network's

Given what each region leaves in its output array — the two dense products, the pooled sums, the head — the last boundary's
contents of the result buffer are the network's four functions composed, applied to the twelve argument arrays: the host
stretches between the regions compute one graph-convolution layer each, the short stretches before the pooling and the head
only re-lay the graph numbers and the two bias vectors. -/

open Idealize.ShloMosaic.ValueIdx Idealize.ShloMosaic.StableHlo

/-! ## A vector re-laid as a column or as a row is its broadcast along the new unit axis -/

theorem reshape_col_eq_bcast {n : ℕ} {α : Type} (hn : n ≠ 1) (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x hc = broadcastInDim ⟨2, ![n, 1]⟩ ![0] hb x := by
  funext j
  have h1 : (j 1).val = 0 := by have := (j 1).isLt; simp at this; omega
  rw [shapeCast_apply x hc j (ix1 (j 0)) (by
        rw [Shape.rowMajor_val_one, Shape.rowMajor_val_two]
        show (j 0).val = (j 0).val * 1 + (j 1).val
        omega),
      broadcastInDim_apply ![0] hb x j (ix1 (j 0)) (by
        intro a
        obtain rfl : a = 0 := Subsingleton.elim _ _
        show (j 0).val = if n = 1 then 0 else (j 0).val
        rw [if_neg hn])]

theorem reshape_row_eq_bcast {n : ℕ} {α : Type} (hn : n ≠ 1) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ ![1] hb x := by
  funext j
  have h0 : (j 0).val = 0 := by have := (j 0).isLt; simp at this; omega
  rw [shapeCast_apply x hc j (ix1 (j 1)) (by
        rw [Shape.rowMajor_val_one, Shape.rowMajor_val_two]
        show (j 1).val = (j 0).val * n + (j 1).val
        rw [h0]; omega),
      broadcastInDim_apply ![1] hb x j (ix1 (j 1)) (by
        intro a
        obtain rfl : a = 0 := Subsingleton.elim _ _
        show (j 1).val = if n = 1 then 0 else (j 1).val
        rw [if_neg hn])]

variable (m : (ℓ : Loc nD τ sig) → Buf (Elt Ideal) ℓ) (ρ : Dev nD → PrngReg)

/-! ## The seventh stretch after region 1 only re-lays the graph numbers -/

/-- The second layer's output is still there after it. -/
theorem chain2 (c : Dev nD) :
    W15 m ρ c (Proc.devRef .tc main_v105)
      = Cert.Bridge.conv (F := Ideal) (W8 m ρ c (Proc.devRef .tc main_v53)) (m ((c : Thread nD τ).loc main_arg1)) (m ((c : Thread nD τ).loc main_arg3)) (m ((c : Thread nD τ).loc main_arg7)) :=
  (StableHlo.after_of_writes_sub hostOps2_6 _ hostOps2_6_writes (by decide)).trans (layer2_eq m ρ c)

/-- The graph numbers re-laid as a column. -/
theorem v106_eq (c : Dev nD) :
    W15 m ρ c (Proc.devRef .tc main_v106)
      = broadcastInDim Cert.ReferenceIdeal.S50000x1 ![0] Cert.ReferenceIdeal.Facts₀.bcast_S50000_S50000x1_0 (m ((c : Thread nD τ).loc main_arg2)) := by
  have hk : W14 m ρ c (Proc.devRef .tc main_arg2) = (m ((c : Thread nD τ).loc main_arg2)) :=
    (StableHlo.after_of_writes_sub hostOps2_5 _ hostOps2_5_writes (by decide)).trans <|
    (StableHlo.after_of_writes_sub hostOps2_4 _ hostOps2_4_writes (by decide)).trans <|
    (StableHlo.after_of_writes_sub hostOps2_3 _ hostOps2_3_writes (by decide)).trans <|
    (StableHlo.after_of_writes_sub hostOps2_2 _ hostOps2_2_writes (by decide)).trans <|
    (StableHlo.after_of_writes_sub hostOps2_1 _ hostOps2_1_writes (by decide)).trans <|
    (StableHlo.after_of_writes_sub hostOps2 _ hostOps2_writes (by decide)).trans (W8_main_arg2 m ρ c)
  rw [← hk]
  show StableHlo.after hostOps2_6 (W14 m ρ c) (Proc.devRef .tc main_v106) = _
  generalize W14 m ρ c = V
  after_results_simp
  exact reshape_col_eq_bcast (by decide) _ _ _

/-- The two bias vectors re-laid as rows. -/
theorem v108_eq (c : Dev nD) :
    W17 m ρ c (Proc.devRef .tc main_v108)
      = broadcastInDim Cert.ReferenceIdeal.S1x128 ![1] Cert.ReferenceIdeal.Facts₀.bcast_S128_S1x128_1 (m ((c : Thread nD τ).loc main_arg9)) := by
  show StableHlo.after hostOps3 (W16 m ρ c) (Proc.devRef .tc main_v108) = _
  after_results_simp
  rw [W16_main_arg9 m ρ c]
  exact reshape_row_eq_bcast (by decide) _ _ _

theorem v109_eq (c : Dev nD) :
    W17 m ρ c (Proc.devRef .tc main_v109)
      = broadcastInDim Cert.ReferenceIdeal.S1x10 ![1] Cert.ReferenceIdeal.Facts₀.bcast_S10_S1x10_1 (m ((c : Thread nD τ).loc main_arg11)) := by
  show StableHlo.after hostOps3 (W16 m ρ c) (Proc.devRef .tc main_v109) = _
  after_results_simp
  rw [W16_main_arg11 m ρ c]
  exact reshape_row_eq_bcast (by decide) _ _ _

/-! ## The result -/

section Result

variable
  (h0 : ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) Cert.ReferenceIdeal.dot_S50000x64_S64x128_S50000x128_1_0_0_1_n_n none (V c main_arg0) (V c main_arg4))
  (h1 : ∀ (V : (c : Dev nD) → (b : Ref sig .tc) → Buf (Elt Ideal) ((c : Thread nD τ).loc b)) (c : Dev nD),
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v52) (V c main_arg6))
  (h2 : ∀ (V : (c : Dev nD) → (b : Ref sig .tc) → Buf (Elt Ideal) ((c : Thread nD τ).loc b)) (c : Dev nD),
    (dat2 (F := Ideal) V c).arrAt 2 cfg2.N
      = Host.scatterAdd (F := Ideal) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (V c main_v106) (V c main_v105))
  (h3 : ∀ (V : (c : Dev nD) → (b : Ref sig .tc) → Buf (Elt Ideal) ((c : Thread nD τ).loc b)) (c : Dev nD),
    (dat3 (F := Ideal) V c).arrAt 5 cfg3.N
      = addf (Host.dotGeneral (F := Ideal) (φ₁ := .f32) (φ₂ := .f32) Cert.ReferenceIdeal.dot_S512x128_S128x10_S512x10_1_0_0_1_n_n none
          (maximumf (addf (Host.dotGeneral (F := Ideal) (φ₁ := .f32) (φ₂ := .f32) Cert.ReferenceIdeal.dot_S512x128_S128x128_S512x128_1_0_0_1_n_n none (V c main_v107) (V c main_arg8))
              (broadcastInDim Cert.ReferenceIdeal.S512x128 ![0, 1] Cert.ReferenceIdeal.Facts₀.bcast_S1x128_S512x128_0_1 (V c main_v108)))
            (broadcastInDim Cert.ReferenceIdeal.S512x128 ![] Cert.ReferenceIdeal.Facts₀.bcast_S_S512x128 (constant (F := Ideal) Cert.ReferenceIdeal.S_ .f32 0x00000000#32)))
          (V c main_arg10))
        (broadcastInDim Cert.ReferenceIdeal.S512x10 ![0, 1] Cert.ReferenceIdeal.Facts₀.bcast_S1x10_S512x10_0_1 (V c main_v109)))

include h0 in
/-- Region 0's output: the first projection. -/
theorem v0_eq (c : Dev nD) :
    W1 m ρ c (Proc.devRef .tc main_v0) = Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4)) :=
  (W1_arr m ρ c 2).trans (h0 (rd (W0 m ρ)) c)

include h0 h1 in
/-- Region 1's output: the second projection, of the first layer. -/
theorem v53_eq (c : Dev nD) :
    W8 m ρ c (Proc.devRef .tc main_v53) = Host.dotGeneral (F := Ideal) (φ₁ := .f32) (φ₂ := .f32) Cert.ReferenceIdeal.dot_S50000x128_S128x128_S50000x128_1_0_0_1_n_n none (Cert.Bridge.conv (F := Ideal) (Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4))) (m ((c : Thread nD τ).loc main_arg1)) (m ((c : Thread nD τ).loc main_arg3)) (m ((c : Thread nD τ).loc main_arg5))) (m ((c : Thread nD τ).loc main_arg6)) := by
  have e := (W8_arr m ρ c 2).trans (h1 (rd (W7 m ρ)) c)
  have a : rd (W7 m ρ) c main_v52 = (Cert.Bridge.conv (F := Ideal) (Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4))) (m ((c : Thread nD τ).loc main_arg1)) (m ((c : Thread nD τ).loc main_arg3)) (m ((c : Thread nD τ).loc main_arg5))) :=
    (layer1_eq m ρ c).trans (congrArg (fun h => Cert.Bridge.conv (F := Ideal) h (m ((c : Thread nD τ).loc main_arg1)) (m ((c : Thread nD τ).loc main_arg3)) (m ((c : Thread nD τ).loc main_arg5))) (v0_eq m ρ h0 c))
  have b : rd (W7 m ρ) c main_arg6 = (m ((c : Thread nD τ).loc main_arg6)) := W7_main_arg6 m ρ c
  rw [a, b] at e
  exact e

include h0 h1 h2 in
/-- Region 2's output: the pooled second layer. -/
theorem v107_eq (c : Dev nD) :
    W17 m ρ c (Proc.devRef .tc main_v107) = Cert.Bridge.pool (F := Ideal) (m ((c : Thread nD τ).loc main_arg2)) (Cert.Bridge.conv (F := Ideal) (Host.dotGeneral (F := Ideal) (φ₁ := .f32) (φ₂ := .f32) Cert.ReferenceIdeal.dot_S50000x128_S128x128_S50000x128_1_0_0_1_n_n none (Cert.Bridge.conv (F := Ideal) (Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4))) (m ((c : Thread nD τ).loc main_arg1)) (m ((c : Thread nD τ).loc main_arg3)) (m ((c : Thread nD τ).loc main_arg5))) (m ((c : Thread nD τ).loc main_arg6))) (m ((c : Thread nD τ).loc main_arg1)) (m ((c : Thread nD τ).loc main_arg3)) (m ((c : Thread nD τ).loc main_arg7))) := by
  have e := (keep_17 m ρ c main_v107 (by decide)).trans ((W16_arr m ρ c 2).trans (h2 (rd (W15 m ρ)) c))
  have a : rd (W15 m ρ) c main_v106 = broadcastInDim Cert.ReferenceIdeal.S50000x1 ![0] Cert.ReferenceIdeal.Facts₀.bcast_S50000_S50000x1_0 (m ((c : Thread nD τ).loc main_arg2)) := v106_eq m ρ c
  have b : rd (W15 m ρ) c main_v105 = (Cert.Bridge.conv (F := Ideal) (Host.dotGeneral (F := Ideal) (φ₁ := .f32) (φ₂ := .f32) Cert.ReferenceIdeal.dot_S50000x128_S128x128_S50000x128_1_0_0_1_n_n none (Cert.Bridge.conv (F := Ideal) (Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4))) (m ((c : Thread nD τ).loc main_arg1)) (m ((c : Thread nD τ).loc main_arg3)) (m ((c : Thread nD τ).loc main_arg5))) (m ((c : Thread nD τ).loc main_arg6))) (m ((c : Thread nD τ).loc main_arg1)) (m ((c : Thread nD τ).loc main_arg3)) (m ((c : Thread nD τ).loc main_arg7))) :=
    (chain2 m ρ c).trans (congrArg (fun h => Cert.Bridge.conv (F := Ideal) h (m ((c : Thread nD τ).loc main_arg1)) (m ((c : Thread nD τ).loc main_arg3)) (m ((c : Thread nD τ).loc main_arg7))) (v53_eq m ρ h0 h1 c))
  rw [a, b] at e
  exact e

include h0 h1 h2 h3 in
/-- THE RESULT: the last boundary's contents of the result buffer are the whole network of the twelve arguments. -/
theorem result_eq (c : Dev nD) :
    W18 m ρ c (Proc.devRef .tc main_v110)
      = Cert.Bridge.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e := (W18_arr m ρ c 5).trans (h3 (rd (W17 m ρ)) c)
  have a : rd (W17 m ρ) c main_v107 = Cert.Bridge.pool (F := Ideal) (m ((c : Thread nD τ).loc main_arg2)) (Cert.Bridge.conv (F := Ideal) (Host.dotGeneral (F := Ideal) (φ₁ := .f32) (φ₂ := .f32) Cert.ReferenceIdeal.dot_S50000x128_S128x128_S50000x128_1_0_0_1_n_n none (Cert.Bridge.conv (F := Ideal) (Host.dotGeneral (F := Ideal) (φ₁ := .f32) (φ₂ := .f32) Cert.ReferenceIdeal.dot_S50000x64_S64x128_S50000x128_1_0_0_1_n_n none (m ((c : Thread nD τ).loc main_arg0)) (m ((c : Thread nD τ).loc main_arg4))) (m ((c : Thread nD τ).loc main_arg1)) (m ((c : Thread nD τ).loc main_arg3)) (m ((c : Thread nD τ).loc main_arg5))) (m ((c : Thread nD τ).loc main_arg6))) (m ((c : Thread nD τ).loc main_arg1)) (m ((c : Thread nD τ).loc main_arg3)) (m ((c : Thread nD τ).loc main_arg7))) := v107_eq m ρ h0 h1 h2 c
  have b : rd (W17 m ρ) c main_arg8 = (m ((c : Thread nD τ).loc main_arg8)) := W17_main_arg8 m ρ c
  have d : rd (W17 m ρ) c main_v108 = broadcastInDim Cert.ReferenceIdeal.S1x128 ![1] Cert.ReferenceIdeal.Facts₀.bcast_S128_S1x128_1 (m ((c : Thread nD τ).loc main_arg9)) := v108_eq m ρ c
  have f : rd (W17 m ρ) c main_arg10 = (m ((c : Thread nD τ).loc main_arg10)) := W17_main_arg10 m ρ c
  have g : rd (W17 m ρ) c main_v109 = broadcastInDim Cert.ReferenceIdeal.S1x10 ![1] Cert.ReferenceIdeal.Facts₀.bcast_S10_S1x10_1 (m ((c : Thread nD τ).loc main_arg11)) := v109_eq m ρ c
  rw [a, b, d, f, g] at e
  exact e

end Result

end Cert.KernelIdeal.Hand

end
-- ==== Proof.KI.Val0.lean ====
import proofs.«413074_j63522566307870_1_alg».proof.Proof.KI.Defs
import proofs.«413074_j63522566307870_1_alg».proof.ReferenceIdeal
import proofs.«413074_j63522566307870_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host's product of the whole arrays, read at an index

At the extended reals the host's `dot_general` of a 50000×64 array with a 64×128 matrix is, at row `r` and column `n`, the sum over
the 64 contracted coordinates `k` of `x[r, k] · w[k, n]`. The four coordinate facts of the dimension numbers come first, each at
its literal axis. -/

theorem host0_lhs_row (i : S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 0).val = (i 0).val := by
  unfold DotDims.lhsIdx
  rw [dif_neg (show ¬(0 : Fin S50000x64.rank) ∈ Cert.ReferenceIdeal.dot_S50000x64_S64x128_S50000x128_1_0_0_1_n_n.lhsBatch by decide), dif_pos (show (0 : Fin S50000x64.rank) ∈ Cert.ReferenceIdeal.dot_S50000x64_S64x128_S50000x128_1_0_0_1_n_n.lhsNonContracting by decide)]
  rfl
theorem host0_lhs_contr (i : S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 1).val = (q ⟨0, by decide⟩).val :=
  Cert.ReferenceIdeal.dot_S50000x64_S64x128_S50000x128_1_0_0_1_n_n.lhsIdx_val_of_single rfl i q
theorem host0_rhs_contr (i : S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 0).val = (q ⟨0, by decide⟩).val :=
  Cert.ReferenceIdeal.dot_S50000x64_S64x128_S50000x128_1_0_0_1_n_n.rhsIdx_val_of_single rfl i q
theorem host0_rhs_col (i : S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 1).val = (i 1).val := by
  unfold DotDims.rhsIdx
  rw [dif_neg (show ¬(1 : Fin S64x128.rank) ∈ Cert.ReferenceIdeal.dot_S50000x64_S64x128_S50000x128_1_0_0_1_n_n.rhsBatch by decide), dif_pos (show (1 : Fin S64x128.rank) ∈ Cert.ReferenceIdeal.dot_S50000x64_S64x128_S50000x128_1_0_0_1_n_n.rhsNonContracting by decide)]
  rfl

/-- Row `r` of the features at contracted coordinate `k`. -/
abbrev xAt0 (i : S50000x128.Idx) (k : Fin 64) : S50000x64.Idx := fun a => match a with
  | ⟨0, _⟩ => ⟨(i 0).val, (i 0).isLt⟩
  | ⟨1, _⟩ => ⟨k.val, k.isLt⟩
/-- Column `n` of the weights at contracted coordinate `k`. -/
abbrev wAt0 (i : S50000x128.Idx) (k : Fin 64) : S64x128.Idx := fun a => match a with
  | ⟨0, _⟩ => ⟨k.val, k.isLt⟩
  | ⟨1, _⟩ => ⟨(i 1).val, (i 1).isLt⟩

theorem host0_apply (x : FVec Ideal S50000x64 .f32) (w : FVec Ideal S64x128 .f32) (i : S50000x128.Idx) :
    Host.dotGeneral (F := Ideal) Cert.ReferenceIdeal.dot_S50000x64_S64x128_S50000x128_1_0_0_1_n_n none x w i
      = ∑ k : Fin 64, x (xAt0 i k) * w (wAt0 i k) := by
  simp only [Host.dotGeneral]
  rw [Ideal.dotGeneral_apply, ← Equiv.sum_comp (ValueIdx.contrEquiv1 Cert.ReferenceIdeal.dot_S50000x64_S64x128_S50000x128_1_0_0_1_n_n 64 rfl rfl).symm]
  refine Finset.sum_congr rfl fun k _ => ?_
  have hk := ValueIdx.contrEquiv1_symm_val Cert.ReferenceIdeal.dot_S50000x64_S64x128_S50000x128_1_0_0_1_n_n 64 rfl rfl k
  have el : Cert.ReferenceIdeal.dot_S50000x64_S64x128_S50000x128_1_0_0_1_n_n.lhsIdx i ((ValueIdx.contrEquiv1 Cert.ReferenceIdeal.dot_S50000x64_S64x128_S50000x128_1_0_0_1_n_n 64 rfl rfl).symm k) = xAt0 i k := funext fun a => Fin.ext (by
    match a with
    | ⟨0, _⟩ => exact host0_lhs_row _ _
    | ⟨1, _⟩ => exact (host0_lhs_contr _ _).trans hk)
  have er : Cert.ReferenceIdeal.dot_S50000x64_S64x128_S50000x128_1_0_0_1_n_n.rhsIdx i ((ValueIdx.contrEquiv1 Cert.ReferenceIdeal.dot_S50000x64_S64x128_S50000x128_1_0_0_1_n_n 64 rfl rfl).symm k) = wAt0 i k := funext fun a => Fin.ext (by
    match a with
    | ⟨0, _⟩ => exact (host0_rhs_contr _ _).trans hk
    | ⟨1, _⟩ => exact host0_rhs_col _ _)
  rw [el, er]

/-! ## The kernel's product of two blocks, read at an index

The body truncates both loaded blocks (the identity at the extended reals) and multiplies them into a zero accumulator: at row `r` of
the block and column `n`, the same sum over `k` of `x[r, k] · w[k, n]`. -/

theorem blk0_lhs_row (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem blk0_lhs_contr (j : S5000x128.Idx) (q : dot_S5000x64_S64x128_S5000x128_1_0_0_1_n_n.contr.Idx) :
    (dot_S5000x64_S64x128_S5000x128_1_0_0_1_n_n.lhsIdx j q 1).val = (q ⟨0, by decide⟩).val :=
  dot_S5000x64_S64x128_S5000x128_1_0_0_1_n_n.lhsIdx_val_of_single rfl j q
theorem blk0_rhs_contr (j : S5000x128.Idx) (q : dot_S5000x64_S64x128_S5000x128_1_0_0_1_n_n.contr.Idx) :
    (dot_S5000x64_S64x128_S5000x128_1_0_0_1_n_n.rhsIdx j q 0).val = (q ⟨0, by decide⟩).val :=
  dot_S5000x64_S64x128_S5000x128_1_0_0_1_n_n.rhsIdx_val_of_single rfl j q
theorem blk0_rhs_col (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Row `r` of a block of features at contracted coordinate `k`. -/
abbrev xBlkAt0 (j : S5000x128.Idx) (k : Fin 64) : S5000x64.Idx := fun a => match a with
  | ⟨0, _⟩ => ⟨(j 0).val, (j 0).isLt⟩
  | ⟨1, _⟩ => ⟨k.val, k.isLt⟩
/-- Column `n` of the weights at contracted coordinate `k`, from an index of the block. -/
abbrev wBlkAt0 (j : S5000x128.Idx) (k : Fin 64) : S64x128.Idx := fun a => match a with
  | ⟨0, _⟩ => ⟨k.val, k.isLt⟩
  | ⟨1, _⟩ => ⟨(j 1).val, (j 1).isLt⟩

theorem pay0_apply (x : FVec Ideal S5000x64 .f32) (w : FVec Ideal S64x128 .f32) (j : S5000x128.Idx) :
    k0_pay1 (F := Ideal) x w j = ∑ k : Fin 64, x (xBlkAt0 j k) * w (wBlkAt0 j k) := by
  show FloatOps.matmul dot_S5000x64_S64x128_S5000x128_1_0_0_1_n_n none x w (constant S5000x128 .f32 0x00000000#32) j = _
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = xBlkAt0 j k := funext fun a => Fin.ext (by
    match a with
    | ⟨0, _⟩ => exact blk0_lhs_row _ _
    | ⟨1, _⟩ => exact (blk0_lhs_contr _ _).trans hk)
  have er : dot_S5000x64_S64x128_S5000x128_1_0_0_1_n_n.rhsIdx j ((ValueIdx.contrEquiv1 dot_S5000x64_S64x128_S5000x128_1_0_0_1_n_n 64 rfl rfl).symm k) = wBlkAt0 j k := funext fun a => Fin.ext (by
    match a with
    | ⟨0, _⟩ => exact (blk0_rhs_contr _ _).trans hk
    | ⟨1, _⟩ => exact blk0_rhs_col _ _)
  rw [el, er]

variable (V : (c : Dev nD) → (b : Ref sig .tc) → Buf (Elt Ideal) ((c : Thread nD τ).loc b))

/-! ## From the ten row blocks to the array

Block `t` of the features is rows `5000·t … 5000·t + 4999`, the weights' block is the whole matrix, and block `t` of the output is
the same rows of the output array: so what point `t` writes back is block `t` of the one whole product, and the ten blocks fill
the array. -/

theorem zeros0 : (![0, 0] : Fin 2 → Nat) = fun _ => 0 := funext fun a => by fin_cases a <;> rfl

/-- The whole product of the arrays as region 0 finds them. -/
abbrev prod0 (c : Dev nD) : S50000x128.Idx → Elt Ideal .f32 :=
  Host.dotGeneral (F := Ideal) (φ₁ := .f32) (φ₂ := .f32) Cert.ReferenceIdeal.dot_S50000x64_S64x128_S50000x128_1_0_0_1_n_n none (V c main_arg0) (V c main_arg4)

/-- The printed index maps, decided over the ten points: the features' block moves with the output's along the rows and stays at
    column block zero, the weights' block is always the first (the whole matrix), and the output's column block is zero. -/
theorem blockIdx0 : ∀ t : Fin cfg0.N, win0_0.index t (0 : Fin 2) = win0_2.index t (0 : Fin 2) + 0
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the output is some point's. -/
theorem blockOnto0 : ∀ (q0 : Fin 10) (q1 : Fin 1), ∃ t : Fin cfg0.N, win0_2.index t = ![q0.val + 0, q1.val + 0] :=
  (by decide +kernel : ∀ (q0 : Fin 10) (q1 : Fin 1), ∃ t : Fin grid0.N, win0_2.index t = ![q0.val + 0, q1.val + 0])

/-- What point `t` writes back is block `t` of the whole product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero zeros0]
  simp only [View.ld_unit_zero (S := S5000x64) zeros0, View.ld_unit_zero (S := S64x128) zeros0]
  obtain ⟨e0, e1, e2, e3, e4, e5⟩ := blockIdx0 t
  funext j
  show k0_pay1 (F := Ideal) (iblk0 V c 0 t) (iblk0 V c 1 t) j
    = Host.dotGeneral (F := Ideal) (φ₁ := .f32) (φ₂ := .f32) Cert.ReferenceIdeal.dot_S50000x64_S64x128_S50000x128_1_0_0_1_n_n none (V c main_arg0) (V c main_arg4) (((cfg0.win 2).blk t).view.emb j)
  rw [pay0_apply, host0_apply]
  refine Finset.sum_congr rfl fun k _ => ?_
  have hx : iblk0 V c 0 t (xBlkAt0 j k) = V c main_arg0 (xAt0 (((cfg0.win 2).blk t).view.emb j) k) := by
    show V c main_arg0 (((cfg0.win 0).blk t).view.emb (xBlkAt0 j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hw : iblk0 V c 1 t (wBlkAt0 j k) = V c main_arg4 (wAt0 (((cfg0.win 2).blk t).view.emb j) k) := by
    show V c main_arg4 (((cfg0.win 1).blk t).view.emb (wBlkAt0 j k)) = _
    refine congrArg (V c main_arg4) ?_
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  rw [hx, hw]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the array is in the block of the point that handles its row: row `r` is in block `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto0 ⟨(i 0).val / 5000 - 0, by omega⟩ ⟨(i 1).val / 128 - 0, by omega⟩
  have q0 : win0_2.index t (0 : Fin 2) = (i 0).val / 5000 - 0 + 0 := congrFun ht 0
  have q1 : win0_2.index t (1 : Fin 2) = (i 1).val / 128 - 0 + 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Over the extended reals, region 0 leaves in its output array the product of the node features with the first weight
    matrix: the ten row blocks of 5000 rows are the rows of the one whole product. -/
theorem arr0 (c : Dev nD) :
    (dat0 (F := Ideal) V c).arrAt 2 cfg0.N
      = Host.dotGeneral (F := Ideal) (φ₁ := .f32) (φ₂ := .f32) Cert.ReferenceIdeal.dot_S50000x64_S64x128_S50000x128_1_0_0_1_n_n none (V c main_arg0) (V c main_arg4) :=
  (dat0 (F := Ideal) V c).arrAt_eq_of_cover 2 (prod0 V c) (fun t _ => flushed0_eq V c t) cover0

end Cert.KernelIdeal.Hand

end
-- ==== Proof.KI.Val1.lean ====
import proofs.«413074_j63522566307870_1_alg».proof.Proof.KI.Defs
import proofs.«413074_j63522566307870_1_alg».proof.ReferenceIdeal
import proofs.«413074_j63522566307870_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host's product of the whole arrays, read at an index

At the extended reals the host's `dot_general` of a 50000×128 array with a 128×128 matrix is, at row `r` and column `n`, the sum
over the 128 contracted coordinates `k` of `h[r, k] · w[k, n]`. The four coordinate facts of the dimension numbers come first, each
at its literal axis. -/

theorem host1_lhs_row (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem host1_lhs_contr (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem host1_rhs_contr (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem host1_rhs_col (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- Row `r` of the first layer's output at contracted coordinate `k`. -/
abbrev xAt1 (i : S50000x128.Idx) (k : Fin 128) : S50000x128.Idx := fun a => match a with
  | ⟨0, _⟩ => ⟨(i 0).val, (i 0).isLt⟩
  | ⟨1, _⟩ => ⟨k.val, k.isLt⟩
/-- Column `n` of the weights at contracted coordinate `k`. -/
abbrev wAt1 (i : S50000x128.Idx) (k : Fin 128) : S128x128.Idx := fun a => match a with
  | ⟨0, _⟩ => ⟨k.val, k.isLt⟩
  | ⟨1, _⟩ => ⟨(i 1).val, (i 1).isLt⟩

theorem host1_apply (x : FVec Ideal S50000x128 .f32) (w : FVec Ideal S128x128 .f32) (i : S50000x128.Idx) :
    Host.dotGeneral (F := Ideal) Cert.ReferenceIdeal.dot_S50000x128_S128x128_S50000x128_1_0_0_1_n_n none x w i
      = ∑ k : Fin 128, x (xAt1 i k) * w (wAt1 i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = xAt1 i k := funext fun a => Fin.ext (by
    match a with
    | ⟨0, _⟩ => exact host1_lhs_row _ _
    | ⟨1, _⟩ => exact (host1_lhs_contr _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = wAt1 i k := funext fun a => Fin.ext (by
    match a with
    | ⟨0, _⟩ => exact (host1_rhs_contr _ _).trans hk
    | ⟨1, _⟩ => exact host1_rhs_col _ _)
  rw [el, er]

/-! ## The kernel's product of two blocks, read at an index

The body casts the loaded block of rows to its own shape and truncates both blocks (each the identity at the extended reals), then
multiplies them into a zero accumulator: at row `r` of the block and column `n`, the same sum over `k` of `h[r, k] · w[k, n]`. -/

theorem blk1_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk1_lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blk1_rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blk1_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `r` of a block of rows at contracted coordinate `k`. -/
abbrev xBlkAt1 (j : S5000x128.Idx) (k : Fin 128) : S5000x128.Idx := fun a => match a with
  | ⟨0, _⟩ => ⟨(j 0).val, (j 0).isLt⟩
  | ⟨1, _⟩ => ⟨k.val, k.isLt⟩
/-- Column `n` of the weights at contracted coordinate `k`, from an index of the block. -/
abbrev wBlkAt1 (j : S5000x128.Idx) (k : Fin 128) : S128x128.Idx := fun a => match a with
  | ⟨0, _⟩ => ⟨k.val, k.isLt⟩
  | ⟨1, _⟩ => ⟨(j 1).val, (j 1).isLt⟩

theorem pay1_apply (x : FVec Ideal S5000x128 .f32) (w : FVec Ideal S128x128 .f32) (j : S5000x128.Idx) :
    k1_pay1 (F := Ideal) x w j = ∑ k : Fin 128, x (xBlkAt1 j k) * w (wBlkAt1 j k) := by
  show FloatOps.matmul dot_S5000x128_S128x128_S5000x128_1_0_0_1_n_n none (shapeCast S5000x128 x _) w (constant S5000x128 .f32 0x00000000#32) j = _
  rw [shapeCast_self, Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = xBlkAt1 j k := funext fun a => Fin.ext (by
    match a with
    | ⟨0, _⟩ => exact blk1_lhs_row _ _
    | ⟨1, _⟩ => exact (blk1_lhs_contr _ _).trans hk)
  have er : dot_S5000x128_S128x128_S5000x128_1_0_0_1_n_n.rhsIdx j ((ValueIdx.contrEquiv1 dot_S5000x128_S128x128_S5000x128_1_0_0_1_n_n 128 rfl rfl).symm k) = wBlkAt1 j k := funext fun a => Fin.ext (by
    match a with
    | ⟨0, _⟩ => exact (blk1_rhs_contr _ _).trans hk
    | ⟨1, _⟩ => exact blk1_rhs_col _ _)
  rw [el, er]

variable (V : (c : Dev nD) → (b : Ref sig .tc) → Buf (Elt Ideal) ((c : Thread nD τ).loc b))

/-! ## From the ten row blocks to the array

Block `t` of the input is rows `5000·t … 5000·t + 4999`, the weights' block is the whole matrix, and block `t` of the output is the
same rows of the output array: so what point `t` writes back is block `t` of the one whole product, and the ten blocks fill the
array. -/

theorem zeros1 : (![0, 0] : Fin 2 → Nat) = fun _ => 0 := funext fun a => by fin_cases a <;> rfl

/-- The whole product of the arrays as region 1 finds them. -/
abbrev prod1 (c : Dev nD) : S50000x128.Idx → Elt Ideal .f32 :=
  Host.dotGeneral (F := Ideal) (φ₁ := .f32) (φ₂ := .f32) Cert.ReferenceIdeal.dot_S50000x128_S128x128_S50000x128_1_0_0_1_n_n none (V c main_v52) (V c main_arg6)

/-- The printed index maps, decided over the ten points: the input's block moves with the output's along the rows and stays at
    column block zero, the weights' block is always the first (the whole matrix), and the output's column block is zero. -/
theorem blockIdx1 : ∀ t : Fin cfg1.N, win1_0.index t (0 : Fin 2) = win1_2.index t (0 : Fin 2) + 0
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block of the output is some point's. -/
theorem blockOnto1 : ∀ (q0 : Fin 10) (q1 : Fin 1), ∃ t : Fin cfg1.N, win1_2.index t = ![q0.val + 0, q1.val + 0] :=
  (by decide +kernel : ∀ (q0 : Fin 10) (q1 : Fin 1), ∃ t : Fin grid1.N, win1_2.index t = ![q0.val + 0, q1.val + 0])

/-- What point `t` writes back is block `t` of the whole product. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero zeros1]
  simp only [View.ld_unit_zero (S := S5000x128) zeros1, View.ld_unit_zero (S := S128x128) zeros1]
  obtain ⟨e0, e1, e2, e3, e4, e5⟩ := blockIdx1 t
  funext j
  show k1_pay1 (F := Ideal) (iblk1 V c 0 t) (iblk1 V c 1 t) j
    = Host.dotGeneral (F := Ideal) (φ₁ := .f32) (φ₂ := .f32) Cert.ReferenceIdeal.dot_S50000x128_S128x128_S50000x128_1_0_0_1_n_n none (V c main_v52) (V c main_arg6) (((cfg1.win 2).blk t).view.emb j)
  rw [pay1_apply, host1_apply]
  refine Finset.sum_congr rfl fun k _ => ?_
  have hx : iblk1 V c 0 t (xBlkAt1 j k) = V c main_v52 (xAt1 (((cfg1.win 2).blk t).view.emb j) k) := by
    show V c main_v52 (((cfg1.win 0).blk t).view.emb (xBlkAt1 j k)) = _
    refine congrArg (V c main_v52) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (wBlkAt1 j k) = V c main_arg6 (wAt1 (((cfg1.win 2).blk t).view.emb j) k) := by
    show V c main_arg6 (((cfg1.win 1).blk t).view.emb (wBlkAt1 j k)) = _
    refine congrArg (V c main_arg6) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [hx, hw]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v53).slice (win1_2.rect t)).set ↔ _
  rw [View.set_slice_whole, Rect.mem_set_unit]
  exact Iff.rfl

/-- Every index of the array is in the block of the point that handles its row: row `r` is in block `r / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto1 ⟨(i 0).val / 5000 - 0, by omega⟩ ⟨(i 1).val / 128 - 0, by omega⟩
  have q0 : win1_2.index t (0 : Fin 2) = (i 0).val / 5000 - 0 + 0 := congrFun ht 0
  have q1 : win1_2.index t (1 : Fin 2) = (i 1).val / 128 - 0 + 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Over the extended reals, region 1 leaves in its output array the product of its input array with the second weight matrix. -/
theorem arr1 (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v52) (V c main_arg6) :=
  (dat1 (F := Ideal) V c).arrAt_eq_of_cover 2 (prod1 V c) (fun t _ => flushed1_eq V c t) cover1

end Cert.KernelIdeal.Hand

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.KI.Val2.lean ====
import proofs.«413074_j63522566307870_1_alg».proof.Proof.KI.Defs2
import proofs.«413074_j63522566307870_1_alg».proof.ReferenceIdeal
import proofs.«413074_j63522566307870_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.WordArith
import proofs.«413074_j63522566307870_1_alg».proof.Proof.LibScatterRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Pool

open Idealize.ShloMosaic.ValueIdx

/-! # The pooling region's output array, read

The accumulator after point n holds, at graph g and feature d, the sum of the rows e < 2000·(n+1) whose graph number is the
word of g; after the last point that is every row, and the host's accumulating scatter into a zero array holds the same sum. -/

/-! ## The pooling product's operand indices -/

theorem lhs_pool_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs_pool_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs_pool_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs_pool_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-! ## The 0/1 matrix at an entry -/

/-- A comparison's bit, widened and converted, is the extended real 1 when the two words are equal and 0 otherwise. -/
theorem onehot_word (x y : BitVec 32) :
    (FloatOps.sitofp .f32 ((IntOp.cmpi .eq x y).setWidth 32) : Ideal .f32) = if x = y then 1 else 0 := by
  by_cases h : x = y
  · have hc : IntOp.cmpi .eq x y = 1#1 := by simp [IntOp.cmpi, h]
    rw [hc, if_pos h]
    show ((((1#1 : BitVec 1).setWidth 32).toInt : ℝ) : EReal) = 1
    have e : ((1#1 : BitVec 1).setWidth 32).toInt = 1 := by decide
    rw [e]; simp
  · have hb : (x == y) = false := beq_eq_false_iff_ne.mpr h
    have hc : IntOp.cmpi .eq x y = 0#1 := by
      show BitVec.ofBool (x == y) = 0#1
      rw [hb]; rfl
    rw [hc, if_neg h]
    show ((((0#1 : BitVec 1).setWidth 32).toInt : ℝ) : EReal) = 0
    have e : ((0#1 : BitVec 1).setWidth 32).toInt = 0 := by decide
    rw [e]; simp

/-- Entry (r, g) of the 0/1 matrix: 1 when row r's graph number is the word of g. -/
theorem onehot_apply (b : IVec S2000x1 32) (r : Fin 2000) (g : Fin 512) :
    (sitofp .f32 (extui 32 (cmpi .eq (broadcastTo S2000x512 b broadcasts_S2000x1_S2000x512)
      (iota .tc S2000x512 32 [1] iota_S2000x512_d1_w32)) natLt_1_32) : FVec Ideal S2000x512 .f32) (ix2 r g)
      = if b (ix2 r (0 : Fin 1)) = BitVec.ofNat 32 g.val then 1 else 0 := by
  rw [sitofp_apply, extui_apply]
  show FloatOps.sitofp .f32 ((IntOp.cmpi .eq (broadcastTo S2000x512 b broadcasts_S2000x1_S2000x512 (ix2 r g))
    (iota .tc S2000x512 32 [1] iota_S2000x512_d1_w32 (ix2 r g))).setWidth 32) = _
  rw [broadcastTo_apply b broadcasts_S2000x1_S2000x512 (ix2 r g) (ix2 r (0 : Fin 1))
      (fun a => by match a with | ⟨0, _⟩ => rfl | ⟨1, _⟩ => rfl),
    iota_single_apply]
  exact onehot_word _ _

/-! ## One point's update of the accumulator at an entry -/

/-- The update adds to entry (g, d) the rows of the block whose graph number is the word of g. -/
theorem k2_pay2_apply (b : IVec S2000x1 32) (x : FVec Ideal S2000x128 .f32) (s : FVec Ideal S512x128 .f32)
    (g : Fin 512) (d : Fin 128) :
    k2_pay2 b x s (ix2 g d)
      = s (ix2 g d) + ∑ r : Fin 2000, (if b (ix2 r (0 : Fin 1)) = BitVec.ofNat 32 g.val then x (ix2 r d) else 0) := by
  unfold k2_pay2
  simp only [shapeCast_self]
  refine (addf_apply _ _ _).trans ?_
  refine congrArg (s (ix2 g d) + ·) ?_
  refine (Ideal.matmul_constant_zero_apply _ none _ _ _).trans ?_
  rw [← Equiv.sum_comp (contrEquiv1 dot_S2000x512_S2000x128_S512x128_0_0_1_1_n_n 2000 rfl rfl).symm]
  refine Finset.sum_congr rfl fun r _ => ?_
  have hk := contrEquiv1_symm_val dot_S2000x512_S2000x128_S512x128_0_0_1_1_n_n 2000 rfl rfl r
  have el : dot_S2000x512_S2000x128_S512x128_0_0_1_1_n_n.lhsIdx (ix2 g d)
      ((contrEquiv1 dot_S2000x512_S2000x128_S512x128_0_0_1_1_n_n 2000 rfl rfl).symm r) = ix2 r g :=
    funext fun a => Fin.ext (by
      match a with
      | ⟨0, _⟩ => exact (lhs_pool_0 _ _).trans hk
      | ⟨1, _⟩ => exact lhs_pool_1 _ _)
  have er : dot_S2000x512_S2000x128_S512x128_0_0_1_1_n_n.rhsIdx (ix2 g d)
      ((contrEquiv1 dot_S2000x512_S2000x128_S512x128_0_0_1_1_n_n 2000 rfl rfl).symm r) = ix2 r d :=
    funext fun a => Fin.ext (by
      match a with
      | ⟨0, _⟩ => exact (rhs_pool_0 _ _).trans hk
      | ⟨1, _⟩ => exact rhs_pool_1 _ _)
  rw [el, er, truncf_apply, truncf_apply, onehot_apply]
  by_cases hc : b (ix2 r (0 : Fin 1)) = BitVec.ofNat 32 g.val
  · simp only [if_pos hc, one_mul]
  · simp only [if_neg hc, zero_mul]

/-- The reset value is the zero array. -/
theorem pay1_zero (i : S512x128.Idx) : k2_pay1 (F := Ideal) i = 0 := by
  unfold k2_pay1
  simp only [shapeCast_self]
  show Ideal.ofBits .f32 0x00000000#32 = 0
  exact Ideal.ofBits_zero_f32

/-! ## The blocks of the two inputs, in the arrays -/

/-- The printed index maps, decided over the grid: block t of the rows and of the graph numbers starts at row 2000·t. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section Blocks
variable (V : (c : Dev nD) → (b : Ref sig .tc) → Buf (Elt Ideal) ((c : Thread nD τ).loc b))

/-- The rows' block and the graph numbers' block at a point, and the two arrays, at their literal types. -/
abbrev xblk (c : Dev nD) (t : Fin cfg2.N) : FVec Ideal S2000x128 .f32 := iblk2 V c 0 t
abbrev bblk (c : Dev nD) (t : Fin cfg2.N) : IVec S2000x1 32 := iblk2 V c 1 t
abbrev xarr (c : Dev nD) : FVec Ideal S50000x128 .f32 := V c main_v105
abbrev barr (c : Dev nD) : IVec S50000x1 32 := V c main_v106

/-- Row r of the rows' block at point t is row 2000·t + r of the array. -/
theorem iblk2_0_apply (c : Dev nD) (t : Fin cfg2.N) (r : Fin 2000) (d : Fin 128) (h : 2000 * t.val + r.val < 50000) :
    xblk V c t (ix2 r d) = xarr V c (ix2 ⟨2000 * t.val + r.val, h⟩ d) := by
  obtain ⟨e0, e1, e2, e3⟩ := idx_facts2 t
  unfold xblk xarr iblk2
  rw [View.read_apply]
  show V c main_v105 _ = V c main_v105 _
  congr 1
  funext a
  apply Fin.ext
  match a with
  | ⟨0, _⟩ => show win2_0.index t (0 : Fin 2) * 2000 + 1 * r.val = 2000 * t.val + r.val; rw [e0]; omega
  | ⟨1, _⟩ => show win2_0.index t (1 : Fin 2) * 128 + 1 * d.val = d.val; rw [e1]; omega

/-- Row r of the graph numbers' block at point t is row 2000·t + r of the array. -/
theorem iblk2_1_apply (c : Dev nD) (t : Fin cfg2.N) (r : Fin 2000) (h : 2000 * t.val + r.val < 50000) :
    bblk V c t (ix2 r (0 : Fin 1)) = barr V c (ix2 ⟨2000 * t.val + r.val, h⟩ (0 : Fin 1)) := by
  obtain ⟨e0, e1, e2, e3⟩ := idx_facts2 t
  unfold bblk barr iblk2
  rw [View.read_apply]
  show V c main_v106 _ = V c main_v106 _
  congr 1
  funext a
  apply Fin.ext
  match a with
  | ⟨0, _⟩ => show win2_1.index t (0 : Fin 2) * 2000 + 1 * r.val = 2000 * t.val + r.val; rw [e2]; omega
  | ⟨1, _⟩ => show win2_1.index t (1 : Fin 2) * 1 + 1 * 0 = 0; rw [e3]

end Blocks

/-! ## The sum over the rows, by their number -/

/-- Row e's contribution to graph g at feature d, as a function of the natural number e: its entry when its graph number is
    the word of g, zero otherwise and past the rows. -/
def contrib (X : FVec Ideal S50000x128 .f32) (B : IVec S50000x1 32) (g : Fin 512) (d : Fin 128) (e : ℕ) : Ideal .f32 :=
  if h : e < 50000 then (if B (ix2 ⟨e, h⟩ (0 : Fin 1)) = BitVec.ofNat 32 g.val then X (ix2 ⟨e, h⟩ d) else 0) else 0

/-- The rows below 2000·(n+1) are those below 2000·n and the 2000 of block n. -/
theorem range_step (f : ℕ → EReal) (n : ℕ) :
    ∑ e ∈ Finset.range (2000 * (n + 1)), f e
      = ∑ e ∈ Finset.range (2000 * n), f e + ∑ r ∈ Finset.range 2000, f (2000 * n + r) := by
  rw [Nat.mul_add_one, Finset.sum_range_add]

/-- A 32-bit word is the word of a number g below 512 exactly when, read signed, it is g. -/
theorem word_eq_iff (w : BitVec 32) (g : ℕ) (hg : g < 512) : w = BitVec.ofNat 32 g ↔ w.toInt = (g : ℤ) := by
  constructor
  · intro h
    subst h
    exact Idealize.ShloMosaic.WordArith.toInt_ofNat_small g (by omega)
  · intro h
    apply BitVec.eq_of_toNat_eq
    rw [BitVec.toNat_ofNat, Nat.mod_eq_of_lt (by omega : g < 2 ^ 32)]
    have e := BitVec.toInt_eq_toNat_cond w
    have hw := w.isLt
    rw [e] at h
    split at h <;> omega

section Acc
variable (V : (c : Dev nD) → (b : Ref sig .tc) → Buf (Elt Ideal) ((c : Thread nD τ).loc b))

/-- What block t adds to entry (g, d), as a sum over the rows' numbers. -/
theorem block_sum (c : Dev nD) (t : Fin cfg2.N) (g : Fin 512) (d : Fin 128) :
    ∑ r : Fin 2000, (if bblk V c t (ix2 r (0 : Fin 1)) = BitVec.ofNat 32 g.val then xblk V c t (ix2 r d) else 0)
      = ∑ r ∈ Finset.range 2000, contrib (xarr V c) (barr V c) g d (2000 * t.val + r) := by
  have hN : cfg2.N = 25 := N_2
  refine Eq.trans ?_ (Fin.sum_univ_eq_sum_range (fun r => contrib (xarr V c) (barr V c) g d (2000 * t.val + r)) 2000)
  refine Finset.sum_congr rfl fun r _ => ?_
  have hlt : 2000 * t.val + r.val < 50000 := by have := t.isLt; have := r.isLt; omega
  show _ = contrib (xarr V c) (barr V c) g d (2000 * t.val + r.val)
  rw [iblk2_1_apply V c t r hlt, iblk2_0_apply V c t r d hlt]
  unfold contrib
  rw [dif_pos hlt]

/-- The accumulator after point n, at entry (g, d): the reset value plus the rows below 2000·(n+1) of graph g. -/
theorem sAt2_apply (c : Dev nD) (g : Fin 512) (d : Fin 128) : ∀ (n : ℕ) (h : n < cfg2.N),
    (sAt2 V c n h : Vec Ideal S512x128 .f32) (ix2 g d)
      = k2_pay1 (F := Ideal) (ix2 g d) + ∑ e ∈ Finset.range (2000 * (n + 1)), contrib (xarr V c) (barr V c) g d e
  | 0, h => by
    rw [sAt2_zero]
    refine (k2_pay2_apply (bblk V c ⟨0, h⟩) (xblk V c ⟨0, h⟩) (k2_pay1 (F := Ideal)) g d).trans ?_
    rw [block_sum V c ⟨0, h⟩ g d, range_step, Nat.mul_zero, Finset.range_zero, Finset.sum_empty, zero_add]
  | n + 1, h => by
    rw [sAt2_succ]
    refine (k2_pay2_apply (bblk V c ⟨n + 1, h⟩) (xblk V c ⟨n + 1, h⟩) (sAt2 V c n (Nat.lt_of_succ_lt h)) g d).trans ?_
    rw [sAt2_apply c g d n (Nat.lt_of_succ_lt h), block_sum V c ⟨n + 1, h⟩ g d, add_assoc,
      range_step _ (n + 1)]

/-- After the last point: every row of graph g, the graph numbers read signed. -/
theorem sAt2_last (c : Dev nD) (g : Fin 512) (d : Fin 128) (h : 24 < cfg2.N) :
    (sAt2 V c 24 h : Vec Ideal S512x128 .f32) (ix2 g d)
      = ∑ e ∈ Finset.univ.filter (fun e : Fin 50000 => (barr V c (ix2 e (0 : Fin 1))).toInt = (g.val : ℤ)),
          xarr V c (ix2 e d) := by
  rw [sAt2_apply V c g d 24 h, pay1_zero, zero_add, show (2000 * (24 + 1) : ℕ) = 50000 from rfl, Finset.sum_filter]
  refine (Fin.sum_univ_eq_sum_range (fun e => contrib (xarr V c) (barr V c) g d e) 50000).symm.trans ?_
  refine Finset.sum_congr rfl fun e _ => ?_
  show contrib (xarr V c) (barr V c) g d e.val = _
  unfold contrib
  rw [dif_pos e.isLt]
  exact if_congr (word_eq_iff _ g.val g.isLt) rfl rfl

end Acc

/-! ## The output array -/

section Final
variable (V : (c : Dev nD) → (b : Ref sig .tc) → Buf (Elt Ideal) ((c : Thread nD τ).loc b))

/-- The host's accumulating scatter of the rows into a zero array at their graph numbers. -/
abbrev scat2 (c : Dev nD) : FVec Ideal S512x128 .f32 :=
  Host.scatterAdd (F := Ideal) Cert.ReferenceIdeal.scatter_S512x128_S50000x1_S50000x128_1_0_0_1
    (broadcastInDim Cert.ReferenceIdeal.S512x128 ![] Cert.ReferenceIdeal.Facts₀.bcast_S_S512x128 (constant (F := Ideal) Cert.ReferenceIdeal.S_ .f32 0x00000000#32))
    (barr V c) (xarr V c)

/-- The accumulator after the last point is that scatter: entry by entry the same sum over the rows. -/
theorem sAt2_eq_scatter (c : Dev nD) (h : 24 < cfg2.N) :
    (sAt2 V c 24 h : Vec Ideal S512x128 .f32) = scat2 V c := by
  funext i
  obtain ⟨g, d, rfl⟩ : ∃ (g : Fin 512) (d : Fin 128), i = ix2 g d := ⟨i 0, i 1, eq_ix2 i⟩
  have hx : (broadcastInDim Cert.ReferenceIdeal.S512x128 ![] Cert.ReferenceIdeal.Facts₀.bcast_S_S512x128
      (constant (F := Ideal) Cert.ReferenceIdeal.S_ .f32 0x00000000#32) : FVec Ideal S512x128 .f32) (ix2 g d) = 0 := by
    show Ideal.ofBits .f32 0x00000000#32 = 0
    exact Ideal.ofBits_zero_f32
  rw [sAt2_last V c g d h]
  unfold scat2
  rw [Idealize.ShloMosaic.ScatterRead.scatterAdd_rows_apply Cert.ReferenceIdeal.scatter_S512x128_S50000x1_S50000x128_1_0_0_1 rfl rfl rfl rfl,
    hx, zero_add]

/-- The last grid point, the one that writes the output block back. -/
abbrev tLast : Fin cfg2.N := ⟨24, by decide⟩

theorem hz2 : (fun a => win2_2.index tLast a * main_v107.ty.shape.size a) = fun _ => 0 :=
  funext fun a => by fin_cases a <;> decide

/-- The one write-back, at the last point, writes the scatter: the output's block is the whole array. -/
theorem flushed2_eq (c : Dev nD) (t : Fin cfg2.N) (hf : (cfg2.win 2).flush t = true) :
    (dat2 (F := Ideal) V c).flushed 2 t = ((cfg2.win 2).blk t).view.read (Elt Ideal) (scat2 V c) := by
  have hN : cfg2.N = 25 := N_2
  have h24 : t.val = 24 := by have := (flush2_2 t).mp hf; have := t.isLt; omega
  obtain rfl : t = tLast := Fin.ext h24
  show (cfg2.win 2).cut (grid2.coords tLast) ((dat2 (F := Ideal) V c).after 2 tLast) = _
  rw [after2_2]
  refine Eq.trans ?_ (Memref.read_access_unit_zero (Elt Ideal) main_v107 hz2 (fun a => by rw [congrFun hz2 a]; simp) _).symm
  exact sAt2_eq_scatter V c tLast.isLt

theorem arr2' (c : Dev nD) : (dat2 (F := Ideal) V c).arrAt 2 cfg2.N = scat2 V c :=
  (dat2 (F := Ideal) V c).arrAt_eq_of_cover 2 (scat2 V c) (flushed2_eq V c) fun i =>
    ⟨tLast, (flush2_2 tLast).mpr rfl, by
      show i ∈ ((View.whole main_v107).slice (win2_2.rect tLast)).set
      rw [View.set_slice_whole, Rect.mem_set_unit]
      intro a
      have h0 : (i 0 : Nat) < 512 := (i 0).isLt
      have h1 : (i 1 : Nat) < 128 := (i 1).isLt
      match a with
      | ⟨0, _⟩ =>
        show win2_2.index tLast 0 * win2_2.size 0 ≤ (i 0 : Nat) ∧ (i 0 : Nat) < win2_2.index tLast 0 * win2_2.size 0 + win2_2.xsize (grid2.coords tLast) 0
        rw [show win2_2.index tLast 0 * win2_2.size 0 = 0 from by decide +kernel, show win2_2.xsize (grid2.coords tLast) 0 = 512 from by decide +kernel]; omega
      | ⟨1, _⟩ =>
        show win2_2.index tLast 1 * win2_2.size 1 ≤ (i 1 : Nat) ∧ (i 1 : Nat) < win2_2.index tLast 1 * win2_2.size 1 + win2_2.xsize (grid2.coords tLast) 1
        rw [show win2_2.index tLast 1 * win2_2.size 1 = 0 from by decide +kernel, show win2_2.xsize (grid2.coords tLast) 1 = 128 from by decide +kernel]; omega⟩

end Final

end Pool

variable (V : (c : Dev nD) → (b : Ref sig .tc) → Buf (Elt Ideal) ((c : Thread nD τ).loc b))

/-- Over the extended reals, the pooling region leaves in its output array the sum, graph by graph, of the rows whose graph
    number is that graph: the host's accumulating scatter of the rows into a zero array at their graph numbers. A row whose
    number is outside 0..511 meets no column of the 0/1 matrix and lands outside the scatter's operand: it contributes to
    neither. -/
theorem arr2 (c : Dev nD) :
    (dat2 (F := Ideal) V c).arrAt 2 cfg2.N
      = Host.scatterAdd (F := Ideal) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (V c main_v106) (V c main_v105) :=
  Pool.arr2' V c

end Cert.KernelIdeal.Hand

end
-- ==== Proof.KI.Val3.lean ====
import proofs.«413074_j63522566307870_1_alg».proof.Proof.KI.Defs
import proofs.«413074_j63522566307870_1_alg».proof.ReferenceIdeal
import proofs.«413074_j63522566307870_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The head in the host's operations -/

/-- The head as the host writes it, one function of its five arrays: the pooled features times the first weight matrix plus the first
    bias row, the maximum with zero, times the second weight matrix plus the second bias row. -/
abbrev headHost (p : Vec Ideal S512x128 .f32) (wm1 : Vec Ideal S128x128 .f32) (bm1 : Vec Ideal S1x128 .f32)
    (wm2 : Vec Ideal S128x10 .f32) (bm2 : Vec Ideal S1x10 .f32) : Vec Ideal S512x10 .f32 :=
  addf (Host.dotGeneral (F := Ideal) (φ₁ := .f32) (φ₂ := .f32) Cert.ReferenceIdeal.dot_S512x128_S128x10_S512x10_1_0_0_1_n_n none
      (maximumf (addf (Host.dotGeneral (F := Ideal) (φ₁ := .f32) (φ₂ := .f32) Cert.ReferenceIdeal.dot_S512x128_S128x128_S512x128_1_0_0_1_n_n none p wm1)
          (broadcastInDim Cert.ReferenceIdeal.S512x128 ![0, 1] Cert.ReferenceIdeal.Facts₀.bcast_S1x128_S512x128_0_1 bm1))
        (broadcastInDim Cert.ReferenceIdeal.S512x128 ![] Cert.ReferenceIdeal.Facts₀.bcast_S_S512x128 (constant (F := Ideal) Cert.ReferenceIdeal.S_ .f32 0x00000000#32)))
      wm2)
    (broadcastInDim Cert.ReferenceIdeal.S512x10 ![0, 1] Cert.ReferenceIdeal.Facts₀.bcast_S1x10_S512x10_0_1 bm2)

/-! ## The kernel's operations against the host's, one at a time -/

/-- The first product: over the extended reals the narrowing of the operands is the identity, the cast of a shape to itself
    likewise, and the matrix product into the zero accumulator is the host's product, the same sum over the contracted axis. -/
theorem head_mm1_eq (x : FVec Ideal S512x128 .f32) (w : FVec Ideal S128x128 .f32) (j : S512x128.Idx) :
    matmul (F := Ideal) dot_S512x128_S128x128_S512x128_1_0_0_1_n_n none
        (truncf .bf16 (shapeCast S512x128 x shapeCasts_S512x128_S512x128) bitsLt_bf16_f32) (truncf .bf16 w bitsLt_bf16_f32)
        (constant (F := Ideal) S512x128 .f32 0x00000000#32) j
      = Host.dotGeneral (F := Ideal) (φ₁ := .f32) (φ₂ := .f32) Cert.ReferenceIdeal.dot_S512x128_S128x128_S512x128_1_0_0_1_n_n none x w j := by
  rw [shapeCast_self]
  simp only [Host.dotGeneral, Idealize.ShloMosaic.matmul]
  rw [Ideal.matmul_constant_zero_apply, Ideal.dotGeneral_apply]
  rfl

/-- The second product, likewise. -/
theorem head_mm2_eq (y : FVec Ideal S512x128 .f32) (w : FVec Ideal S128x10 .f32) (j : S512x10.Idx) :
    matmul (F := Ideal) dot_S512x128_S128x10_S512x10_1_0_0_1_n_n none
        (truncf .bf16 y bitsLt_bf16_f32) (truncf .bf16 w bitsLt_bf16_f32)
        (constant (F := Ideal) S512x10 .f32 0x00000000#32) j
      = Host.dotGeneral (F := Ideal) (φ₁ := .f32) (φ₂ := .f32) Cert.ReferenceIdeal.dot_S512x128_S128x10_S512x10_1_0_0_1_n_n none y w j := by
  simp only [Host.dotGeneral, Idealize.ShloMosaic.matmul]
  rw [Ideal.matmul_constant_zero_apply, Ideal.dotGeneral_apply]
  rfl

/-- The first bias row down the 512 rows: both broadcasts read the row's entry in the index's column. -/
theorem head_bias1_eq (b : Vec Ideal S1x128 .f32) (i : S512x128.Idx) :
    broadcastTo S512x128 (shapeCast S1x128 b shapeCasts_S1x128_S1x128) broadcasts_S1x128_S512x128 i
      = broadcastInDim Cert.ReferenceIdeal.S512x128 ![0, 1] Cert.ReferenceIdeal.Facts₀.bcast_S1x128_S512x128_0_1 b i := by
  rw [shapeCast_self]
  obtain ⟨p, q, rfl⟩ : ∃ (p : Fin 512) (q : Fin 128), i = ValueIdx.ix2 p q := ⟨i 0, i 1, ValueIdx.eq_ix2 i⟩
  refine (ValueIdx.broadcastTo_1b_ab_apply b broadcasts_S1x128_S512x128 p q).trans ?_
  exact (broadcastInDim_apply _ Cert.ReferenceIdeal.Facts₀.bcast_S1x128_S512x128_0_1 b (ValueIdx.ix2 p q) (ValueIdx.ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).symm

/-- The second bias row, likewise. -/
theorem head_bias2_eq (b : Vec Ideal S1x10 .f32) (i : S512x10.Idx) :
    broadcastTo S512x10 (shapeCast S1x10 b shapeCasts_S1x10_S1x10) broadcasts_S1x10_S512x10 i
      = broadcastInDim Cert.ReferenceIdeal.S512x10 ![0, 1] Cert.ReferenceIdeal.Facts₀.bcast_S1x10_S512x10_0_1 b i := by
  rw [shapeCast_self]
  obtain ⟨p, q, rfl⟩ : ∃ (p : Fin 512) (q : Fin 10), i = ValueIdx.ix2 p q := ⟨i 0, i 1, ValueIdx.eq_ix2 i⟩
  refine (ValueIdx.broadcastTo_1b_ab_apply b broadcasts_S1x10_S512x10 p q).trans ?_
  exact (broadcastInDim_apply _ Cert.ReferenceIdeal.Facts₀.bcast_S1x10_S512x10_0_1 b (ValueIdx.ix2 p q) (ValueIdx.ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).symm

/-- The zero the maximum is taken with: the scalar zero broadcast, against the rank-zero constant broadcast; the same word at every index. -/
theorem head_zero_eq (i : S512x128.Idx) :
    broadcast S512x128 (Scalar.ofBits (F := Ideal) .f32 0x00000000#32) i
      = broadcastInDim Cert.ReferenceIdeal.S512x128 ![] Cert.ReferenceIdeal.Facts₀.bcast_S_S512x128 (constant (F := Ideal) Cert.ReferenceIdeal.S_ .f32 0x00000000#32) i :=
  (broadcastInDim_apply _ Cert.ReferenceIdeal.Facts₀.bcast_S_S512x128 (constant (F := Ideal) Cert.ReferenceIdeal.S_ .f32 0x00000000#32) i (fun a => a.elim0) (fun a => a.elim0)).symm

/-! ## The payload -/

/-- The kernel's payload, its operations in order. -/
theorem head_pay_unfold (x0 : Vec F S512x128 .f32) (x1 : Vec F S128x128 .f32) (x2 : Vec F S1x128 .f32) (x3 : Vec F S128x10 .f32) (x4 : Vec F S1x10 .f32) :
    k3_pay1 x0 x1 x2 x3 x4
      = addf (matmul dot_S512x128_S128x10_S512x10_1_0_0_1_n_n none
          (truncf .bf16 (maximumf (addf (matmul dot_S512x128_S128x128_S512x128_1_0_0_1_n_n none
                (truncf .bf16 (shapeCast S512x128 x0 shapeCasts_S512x128_S512x128) bitsLt_bf16_f32) (truncf .bf16 x1 bitsLt_bf16_f32) (constant S512x128 .f32 0x00000000#32))
              (broadcastTo S512x128 (shapeCast S1x128 x2 shapeCasts_S1x128_S1x128) broadcasts_S1x128_S512x128))
            (broadcast S512x128 (Scalar.ofBits .f32 0x00000000#32))) bitsLt_bf16_f32)
          (truncf .bf16 x3 bitsLt_bf16_f32) (constant S512x10 .f32 0x00000000#32))
        (broadcastTo S512x10 (shapeCast S1x10 x4 shapeCasts_S1x10_S1x10) broadcasts_S1x10_S512x10) := rfl

/-- The hidden layer: the kernel's first product plus bias, maximum with zero, is the host's. -/
theorem head_hidden_eq (x0 : Vec Ideal S512x128 .f32) (x1 : Vec Ideal S128x128 .f32) (x2 : Vec Ideal S1x128 .f32) :
    maximumf (F := Ideal) (addf (matmul dot_S512x128_S128x128_S512x128_1_0_0_1_n_n none
          (truncf .bf16 (shapeCast S512x128 x0 shapeCasts_S512x128_S512x128) bitsLt_bf16_f32) (truncf .bf16 x1 bitsLt_bf16_f32) (constant S512x128 .f32 0x00000000#32))
        (broadcastTo S512x128 (shapeCast S1x128 x2 shapeCasts_S1x128_S1x128) broadcasts_S1x128_S512x128))
      (broadcast S512x128 (Scalar.ofBits .f32 0x00000000#32))
    = maximumf (addf (Host.dotGeneral (F := Ideal) (φ₁ := .f32) (φ₂ := .f32) Cert.ReferenceIdeal.dot_S512x128_S128x128_S512x128_1_0_0_1_n_n none x0 x1)
          (broadcastInDim Cert.ReferenceIdeal.S512x128 ![0, 1] Cert.ReferenceIdeal.Facts₀.bcast_S1x128_S512x128_0_1 x2))
        (broadcastInDim Cert.ReferenceIdeal.S512x128 ![] Cert.ReferenceIdeal.Facts₀.bcast_S_S512x128 (constant (F := Ideal) Cert.ReferenceIdeal.S_ .f32 0x00000000#32)) := by
  funext i
  rw [ValueIdx.maximumf_apply, ValueIdx.maximumf_apply, ValueIdx.addf_apply, ValueIdx.addf_apply, head_mm1_eq, head_bias1_eq, head_zero_eq]

/-- The payload over the extended reals is the head in the host's operations. -/
theorem head_pay_eq (x0 : Vec Ideal S512x128 .f32) (x1 : Vec Ideal S128x128 .f32) (x2 : Vec Ideal S1x128 .f32) (x3 : Vec Ideal S128x10 .f32) (x4 : Vec Ideal S1x10 .f32) :
    k3_pay1 (F := Ideal) x0 x1 x2 x3 x4 = headHost x0 x1 x2 x3 x4 := by
  rw [head_pay_unfold, head_hidden_eq]
  funext j
  unfold headHost
  rw [ValueIdx.addf_apply, ValueIdx.addf_apply, head_mm2_eq, head_bias2_eq]

/-! ## From the one block to the array -/

theorem head_zero_off : (![0, 0] : Fin 2 → Nat) = fun _ => 0 := funext fun a => by fin_cases a <;> rfl

/-- The printed index maps, decided over the one grid point: every window's block index is zero on both axes. -/
theorem head_index_zero : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Each input window's block at the point is its whole array. -/
theorem head_in0_whole (c : Dev nD) (t : Fin cfg3.N) : iblk3 (F := Ideal) V c 0 t = V c main_v107 := by
  obtain ⟨e0, e1, -⟩ := head_index_zero t
  funext j
  show V c main_v107 (((cfg3.win 0).blk t).view.emb j) = V c main_v107 j
  refine congrArg (V c main_v107) ?_
  funext a; apply Fin.ext
  match a with
  | ⟨0, _⟩ => show win3_0.index t (0 : Fin 2) * 512 + 1 * (j 0).val = (j 0).val; omega
  | ⟨1, _⟩ => show win3_0.index t (1 : Fin 2) * 128 + 1 * (j 1).val = (j 1).val; omega

theorem head_in1_whole (c : Dev nD) (t : Fin cfg3.N) : iblk3 (F := Ideal) V c 1 t = V c main_arg8 := by
  obtain ⟨-, -, e0, e1, -⟩ := head_index_zero t
  funext j
  show V c main_arg8 (((cfg3.win 1).blk t).view.emb j) = V c main_arg8 j
  refine congrArg (V c main_arg8) ?_
  funext a; apply Fin.ext
  match a with
  | ⟨0, _⟩ => show win3_1.index t (0 : Fin 2) * 128 + 1 * (j 0).val = (j 0).val; omega
  | ⟨1, _⟩ => show win3_1.index t (1 : Fin 2) * 128 + 1 * (j 1).val = (j 1).val; omega

theorem head_in2_whole (c : Dev nD) (t : Fin cfg3.N) : iblk3 (F := Ideal) V c 2 t = V c main_v108 := by
  obtain ⟨-, -, -, -, e0, e1, -⟩ := head_index_zero t
  funext j
  show V c main_v108 (((cfg3.win 2).blk t).view.emb j) = V c main_v108 j
  refine congrArg (V c main_v108) ?_
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega

theorem head_in3_whole (c : Dev nD) (t : Fin cfg3.N) : iblk3 (F := Ideal) V c 3 t = V c main_arg10 := by
  obtain ⟨-, -, -, -, -, -, e0, e1, -⟩ := head_index_zero t
  funext j
  show V c main_arg10 (((cfg3.win 3).blk t).view.emb j) = V c main_arg10 j
  refine congrArg (V c main_arg10) ?_
  funext a; apply Fin.ext
  match a with
  | ⟨0, _⟩ => show win3_3.index t (0 : Fin 2) * 128 + 1 * (j 0).val = (j 0).val; omega
  | ⟨1, _⟩ => show win3_3.index t (1 : Fin 2) * 10 + 1 * (j 1).val = (j 1).val; omega

theorem head_in4_whole (c : Dev nD) (t : Fin cfg3.N) : iblk3 (F := Ideal) V c 4 t = V c main_v109 := by
  obtain ⟨-, -, -, -, -, -, -, -, e0, e1, -⟩ := head_index_zero t
  funext j
  show V c main_v109 (((cfg3.win 4).blk t).view.emb j) = V c main_v109 j
  refine congrArg (V c main_v109) ?_
  funext a; apply Fin.ext
  match a with
  | ⟨0, _⟩ => show win3_4.index t (0 : Fin 2) * 1 + 1 * (j 0).val = (j 0).val; omega
  | ⟨1, _⟩ => show win3_4.index t (1 : Fin 2) * 10 + 1 * (j 1).val = (j 1).val; omega

/-- What the one point writes back is the output window's block, the whole array, of the head of the five arrays as the region finds them. -/
theorem head_flushed_eq (c : Dev nD) (t : Fin cfg3.N) :
    (dat3 (F := Ideal) V c).flushed 5 t
      = ((cfg3.win 5).blk t).view.read (Elt Ideal) (headHost (V c main_v107) (V c main_arg8) (V c main_v108) (V c main_arg10) (V c main_v109)) := by
  show (cfg3.win 5).cut (grid3.coords t) ((dat3 (F := Ideal) V c).after 5 t) = _
  rw [after3_5]
  unfold out3_5
  rw [View.canon_unit_zero head_zero_off]
  simp only [View.ld_unit_zero (S := S512x128) head_zero_off, View.ld_unit_zero (S := S128x128) head_zero_off, View.ld_unit_zero (S := S1x128) head_zero_off,
    View.ld_unit_zero (S := S128x10) head_zero_off, View.ld_unit_zero (S := S1x10) head_zero_off]
  rw [head_pay_eq, head_in0_whole, head_in1_whole, head_in2_whole, head_in3_whole, head_in4_whole]
  obtain ⟨-, -, -, -, -, -, -, -, -, -, e0, e1⟩ := head_index_zero t
  funext j
  show headHost (V c main_v107) (V c main_arg8) (V c main_v108) (V c main_arg10) (V c main_v109) j
    = headHost (V c main_v107) (V c main_arg8) (V c main_v108) (V c main_arg10) (V c main_v109) (((cfg3.win 5).blk t).view.emb j)
  refine congrArg (headHost (V c main_v107) (V c main_arg8) (V c main_v108) (V c main_arg10) (V c main_v109)) ?_
  funext a; apply Fin.ext
  match a with
  | ⟨0, _⟩ => show (j 0).val = win3_5.index t (0 : Fin 2) * 512 + 1 * (j 0).val; omega
  | ⟨1, _⟩ => show (j 1).val = win3_5.index t (1 : Fin 2) * 10 + 1 * (j 1).val; omega

/-- An index of the output array is in the point's block iff each coordinate is in the block's range on its axis. -/
theorem head_mem_block (t : Fin cfg3.N) (i : S512x10.Idx) :
    i ∈ ((cfg3.win 5).blk t).view.set ↔ ∀ a : Fin 2, win3_5.index t a * S512x10.size a ≤ (i a).val ∧ (i a).val < win3_5.index t a * S512x10.size a + S512x10.size a := by
  show i ∈ ((View.whole main_v110).slice (win3_5.rect t)).set ↔ _
  rw [View.set_slice_whole, Rect.mem_set_unit]
  exact Iff.rfl

/-- The one point's block covers the output array. -/
theorem head_cover (i : S512x10.Idx) : ∃ t : Fin cfg3.N, (cfg3.win 5).flush t = true ∧ i ∈ ((cfg3.win 5).blk t).view.set := by
  refine ⟨t3_0, flush3_5 t3_0, ?_⟩
  rw [head_mem_block]
  obtain ⟨-, -, -, -, -, -, -, -, -, -, e0, e1⟩ := head_index_zero t3_0
  intro a
  match a with
  | ⟨0, _⟩ =>
    show win3_5.index t3_0 (0 : Fin 2) * 512 ≤ (i 0).val ∧ (i 0).val < win3_5.index t3_0 (0 : Fin 2) * 512 + 512
    have h0 : (i 0).val < 512 := (i 0).isLt
    omega
  | ⟨1, _⟩ =>
    show win3_5.index t3_0 (1 : Fin 2) * 10 ≤ (i 1).val ∧ (i 1).val < win3_5.index t3_0 (1 : Fin 2) * 10 + 10
    have h1 : (i 1).val < 10 := (i 1).isLt
    omega

/-- Over the extended reals, the head region leaves in its output array `relu(p · Wm1 + bm1) · Wm2 + bm2` in the host's own
    operations: the two products, the two row vectors broadcast down the rows, the maximum with zero. -/
theorem arr3 (c : Dev nD) :
    (dat3 (F := Ideal) V c).arrAt 5 cfg3.N
      = addf (Host.dotGeneral (F := Ideal) (φ₁ := .f32) (φ₂ := .f32) Cert.ReferenceIdeal.dot_S512x128_S128x10_S512x10_1_0_0_1_n_n none
          (maximumf (addf (Host.dotGeneral (F := Ideal) (φ₁ := .f32) (φ₂ := .f32) Cert.ReferenceIdeal.dot_S512x128_S128x128_S512x128_1_0_0_1_n_n none (V c main_v107) (V c main_arg8))
              (broadcastInDim Cert.ReferenceIdeal.S512x128 ![0, 1] Cert.ReferenceIdeal.Facts₀.bcast_S1x128_S512x128_0_1 (V c main_v108)))
            (broadcastInDim Cert.ReferenceIdeal.S512x128 ![] Cert.ReferenceIdeal.Facts₀.bcast_S_S512x128 (constant (F := Ideal) Cert.ReferenceIdeal.S_ .f32 0x00000000#32)))
          (V c main_arg10))
        (broadcastInDim Cert.ReferenceIdeal.S512x10 ![0, 1] Cert.ReferenceIdeal.Facts₀.bcast_S1x10_S512x10_0_1 (V c main_v109)) :=
  (dat3 (F := Ideal) V c).arrAt_eq_of_cover 5 (headHost (V c main_v107) (V c main_arg8) (V c main_v108) (V c main_arg10) (V c main_v109))
    (fun t _ => head_flushed_eq V c t) head_cover

end Cert.KernelIdeal.Hand

end
-- ==== Proof.BridgeRef.lean ====
import proofs.«413074_j63522566307870_1_alg».proof.Proof.Bridge
import proofs.«413074_j63522566307870_1_alg».proof.Proof.Gen.ReferenceIdeal.Run

/-! # The reference's composed term is the network's four functions composed

The generated run of the reference states its result as one term of the argument arrays. That term is, subterm for subterm,
the head of the pooled second layer over the second projection of the first layer over the first projection. -/

set_option maxRecDepth 16384

noncomputable section

namespace Cert.Bridge

open Cert.ReferenceIdeal Idealize.ShloMosaic Idealize.ShloMosaic.TcCoe Idealize.SL.Sem

variable {F : FTy → Type} [FloatOps F]

set_option maxHeartbeats 4000000 in
/-- The reference's result term is `whole` of the twelve argument arrays. -/
theorem ref_eq (m : (ℓ : Loc nD τ sig) → Buf (Elt F) ℓ) (c : Dev nD) :
    Cert.ReferenceIdeal.Value.res_main_v117 (F := F) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v117 whole head pool conv preOf dinvOf degOf srcOf dstOf ewOf
  rfl

end Cert.Bridge

end
-- ==== Proof.lean ====
/- The proof of `Cert.Claim`: the graph-convolution classifier's kernel against its reference.

   The kernel program runs four kernel regions among host operations: the two dense projections `x · W1` and `h1 · W2`
   tiled over 5000 node rows a grid point, the sum of node rows graph by graph as the transposed product with a 0/1
   membership matrix accumulated over 25 grid points, and the two-layer head. Everything else — the self loops, the
   degrees and their inverse square roots, the gather, the scaling and the accumulating scatter of each layer — is the
   same host operations in both programs.

   The frames of the two kernel programs are one launch over the regions and host stretches in order (Proof/KI/Run.lean, and
   its word-level copy Proof/K/Run.lean): every unscoped buffer ends at the last boundary's contents, where no argument has
   been written. The reference's frame is its run with the result dropped. The ideal pass rewrote nothing, so there is
   nothing to preserve. Over the extended reals the four regions leave the two products, the pooled sums and the head in the
   host's own operations (Proof/KI/Val0 … Val3): a change of float format is the identity, a matrix product into a zero
   accumulator is the host's product, and the 0/1 matrix's column g picks exactly the rows whose graph number is g — a
   number outside 0..511 picks none, as the host's scatter drops it — with 0 · x = 0 and 1 · x = x for every extended real.
   So the kernel's result is the network's four functions composed (Proof/KI/Chain.lean), which is the reference's composed
   term (Proof/BridgeRef.lean). No precondition is used: the two sides agree on every input. -/
import proofs.«413074_j63522566307870_1_alg».proof.Defs
import proofs.«413074_j63522566307870_1_alg».proof.Proof.Gen.Kernel
import proofs.«413074_j63522566307870_1_alg».proof.Proof.Gen.KernelIdeal
import proofs.«413074_j63522566307870_1_alg».proof.Proof.Gen.ReferenceIdeal
import proofs.«413074_j63522566307870_1_alg».proof.Proof.Gen.Pre_finite_inputs
import proofs.«413074_j63522566307870_1_alg».proof.Proof.K.Run
import proofs.«413074_j63522566307870_1_alg».proof.Proof.K.KeepArgs
import proofs.«413074_j63522566307870_1_alg».proof.Proof.KI.Run
import proofs.«413074_j63522566307870_1_alg».proof.Proof.KI.Chain
import proofs.«413074_j63522566307870_1_alg».proof.Proof.KI.Val0
import proofs.«413074_j63522566307870_1_alg».proof.Proof.KI.Val1
import proofs.«413074_j63522566307870_1_alg».proof.Proof.KI.Val2
import proofs.«413074_j63522566307870_1_alg».proof.Proof.KI.Val3
import proofs.«413074_j63522566307870_1_alg».proof.Proof.BridgeRef
import Idealize.ShloMosaic.Adequacy
import Idealize.ShloMosaic.Init

set_option maxRecDepth 16384

noncomputable section

namespace Cert.Proof

open Idealize.ShloMosaic Idealize.ShloMosaic.TcCoe Idealize.SL.Sem

/-- An unscoped TensorCore buffer of the word-level program is among those the last thread state holds. -/
theorem mem_uc_k (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

/-- The same for the idealized program. -/
theorem mem_uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level kernel program runs to the end and every argument array reads back as launched. -/
theorem frame_k : Cert.frame_Kernel := fun m ρ _ =>
  (θ_run Cert.Kernel.defs _ _).mono (fun r h c => ⟨(h c _ (mem_uc_k Cert.Kernel.main_arg0 (by decide))).trans (Cert.Kernel.Hand.W18_main_arg0 m ρ c),
    (h c _ (mem_uc_k Cert.Kernel.main_arg1 (by decide))).trans (Cert.Kernel.Hand.W18_main_arg1 m ρ c),
    (h c _ (mem_uc_k Cert.Kernel.main_arg2 (by decide))).trans (Cert.Kernel.Hand.W18_main_arg2 m ρ c),
    (h c _ (mem_uc_k Cert.Kernel.main_arg3 (by decide))).trans (Cert.Kernel.Hand.W18_main_arg3 m ρ c),
    (h c _ (mem_uc_k Cert.Kernel.main_arg4 (by decide))).trans (Cert.Kernel.Hand.W18_main_arg4 m ρ c),
    (h c _ (mem_uc_k Cert.Kernel.main_arg5 (by decide))).trans (Cert.Kernel.Hand.W18_main_arg5 m ρ c),
    (h c _ (mem_uc_k Cert.Kernel.main_arg6 (by decide))).trans (Cert.Kernel.Hand.W18_main_arg6 m ρ c),
    (h c _ (mem_uc_k Cert.Kernel.main_arg7 (by decide))).trans (Cert.Kernel.Hand.W18_main_arg7 m ρ c),
    (h c _ (mem_uc_k Cert.Kernel.main_arg8 (by decide))).trans (Cert.Kernel.Hand.W18_main_arg8 m ρ c),
    (h c _ (mem_uc_k Cert.Kernel.main_arg9 (by decide))).trans (Cert.Kernel.Hand.W18_main_arg9 m ρ c),
    (h c _ (mem_uc_k Cert.Kernel.main_arg10 (by decide))).trans (Cert.Kernel.Hand.W18_main_arg10 m ρ c),
    (h c _ (mem_uc_k Cert.Kernel.main_arg11 (by decide))).trans (Cert.Kernel.Hand.W18_main_arg11 m ρ c)⟩)
    (Cert.Kernel.Hand.run_all (F := Bits) m ρ)

/-- The idealized kernel program likewise. -/
theorem frame_ki : Cert.frame_KernelIdeal := fun m ρ _ =>
  (θ_run Cert.KernelIdeal.defs _ _).mono (fun r h c => ⟨(h c _ (mem_uc_ki Cert.KernelIdeal.main_arg0 (by decide))).trans (Cert.KernelIdeal.Hand.W18_main_arg0 m ρ c),
    (h c _ (mem_uc_ki Cert.KernelIdeal.main_arg1 (by decide))).trans (Cert.KernelIdeal.Hand.W18_main_arg1 m ρ c),
    (h c _ (mem_uc_ki Cert.KernelIdeal.main_arg2 (by decide))).trans (Cert.KernelIdeal.Hand.W18_main_arg2 m ρ c),
    (h c _ (mem_uc_ki Cert.KernelIdeal.main_arg3 (by decide))).trans (Cert.KernelIdeal.Hand.W18_main_arg3 m ρ c),
    (h c _ (mem_uc_ki Cert.KernelIdeal.main_arg4 (by decide))).trans (Cert.KernelIdeal.Hand.W18_main_arg4 m ρ c),
    (h c _ (mem_uc_ki Cert.KernelIdeal.main_arg5 (by decide))).trans (Cert.KernelIdeal.Hand.W18_main_arg5 m ρ c),
    (h c _ (mem_uc_ki Cert.KernelIdeal.main_arg6 (by decide))).trans (Cert.KernelIdeal.Hand.W18_main_arg6 m ρ c),
    (h c _ (mem_uc_ki Cert.KernelIdeal.main_arg7 (by decide))).trans (Cert.KernelIdeal.Hand.W18_main_arg7 m ρ c),
    (h c _ (mem_uc_ki Cert.KernelIdeal.main_arg8 (by decide))).trans (Cert.KernelIdeal.Hand.W18_main_arg8 m ρ c),
    (h c _ (mem_uc_ki Cert.KernelIdeal.main_arg9 (by decide))).trans (Cert.KernelIdeal.Hand.W18_main_arg9 m ρ c),
    (h c _ (mem_uc_ki Cert.KernelIdeal.main_arg10 (by decide))).trans (Cert.KernelIdeal.Hand.W18_main_arg10 m ρ c),
    (h c _ (mem_uc_ki Cert.KernelIdeal.main_arg11 (by decide))).trans (Cert.KernelIdeal.Hand.W18_main_arg11 m ρ c)⟩)
    (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the network's four functions composed, applied to arguments that agree. -/
theorem algebraic : Cert.algebraic_KernelIdeal_ReferenceIdeal := by
  intro m ρ m' ρ' _ hagree
  refine ⟨fun c => Cert.KernelIdeal.Hand.W18 (F := Ideal) m ρ c (Proc.devRef .tc Cert.KernelIdeal.main_v110), ?_, ?_⟩
  · exact (θ_run Cert.KernelIdeal.defs _ _).mono (fun r h c => ⟨h c _ (mem_uc_ki Cert.KernelIdeal.main_v110 (by decide)),
      (h c _ (mem_uc_ki Cert.KernelIdeal.main_arg0 (by decide))).trans (Cert.KernelIdeal.Hand.W18_main_arg0 m ρ c),
      (h c _ (mem_uc_ki Cert.KernelIdeal.main_arg1 (by decide))).trans (Cert.KernelIdeal.Hand.W18_main_arg1 m ρ c),
      (h c _ (mem_uc_ki Cert.KernelIdeal.main_arg2 (by decide))).trans (Cert.KernelIdeal.Hand.W18_main_arg2 m ρ c),
      (h c _ (mem_uc_ki Cert.KernelIdeal.main_arg3 (by decide))).trans (Cert.KernelIdeal.Hand.W18_main_arg3 m ρ c),
      (h c _ (mem_uc_ki Cert.KernelIdeal.main_arg4 (by decide))).trans (Cert.KernelIdeal.Hand.W18_main_arg4 m ρ c),
      (h c _ (mem_uc_ki Cert.KernelIdeal.main_arg5 (by decide))).trans (Cert.KernelIdeal.Hand.W18_main_arg5 m ρ c),
      (h c _ (mem_uc_ki Cert.KernelIdeal.main_arg6 (by decide))).trans (Cert.KernelIdeal.Hand.W18_main_arg6 m ρ c),
      (h c _ (mem_uc_ki Cert.KernelIdeal.main_arg7 (by decide))).trans (Cert.KernelIdeal.Hand.W18_main_arg7 m ρ c),
      (h c _ (mem_uc_ki Cert.KernelIdeal.main_arg8 (by decide))).trans (Cert.KernelIdeal.Hand.W18_main_arg8 m ρ c),
      (h c _ (mem_uc_ki Cert.KernelIdeal.main_arg9 (by decide))).trans (Cert.KernelIdeal.Hand.W18_main_arg9 m ρ c),
      (h c _ (mem_uc_ki Cert.KernelIdeal.main_arg10 (by decide))).trans (Cert.KernelIdeal.Hand.W18_main_arg10 m ρ c),
      (h c _ (mem_uc_ki Cert.KernelIdeal.main_arg11 (by decide))).trans (Cert.KernelIdeal.Hand.W18_main_arg11 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.Bridge.ref_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2]
    exact (Cert.KernelIdeal.Hand.result_eq m ρ Cert.KernelIdeal.Hand.arr0 Cert.KernelIdeal.Hand.arr1
      Cert.KernelIdeal.Hand.arr2 Cert.KernelIdeal.Hand.arr3 c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
